-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x64 : Shape := ⟨2, ![800000, 64]⟩
abbrev S2x800000 : Shape := ⟨2, ![2, 800000]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 32 := constantI S_ 32 100000#32
  let main_v71 : IVec S2x800000 32 := broadcastInDim S2x800000 ![] bcast_S_S2x800000 main_c_27
  let main_v72 : IVec S2x800000 1 := cmpi .slt main_arg2 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg2 : IVec S2x800000 32) (main_arg12 : FVec F S64 .f32) (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_v63 main_v67

def fn_part2 {F : FTy → Type} [FloatOps F] (main_arg2 : IVec S2x800000 32) (main_arg8 : FVec F S128 .f32) (main_arg9 : FVec F S128x64 .f32) (main_arg10 : FVec F S64 .f32) (main_arg11 : FVec F S64 .f32) (main_arg12 : FVec F S64 .f32) (main_arg13 : FVec F S64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg2 main_arg12 main_arg13 main_arg14 main_v48 main_v49 main_v50

def fn_part1 {F : FTy → Type} [FloatOps F] (main_arg2 : IVec S2x800000 32) (main_arg5 : FVec F S64x64 .f32) (main_arg6 : FVec F S64x64 .f32) (main_arg7 : FVec F S64x128 .f32) (main_arg8 : FVec F S128 .f32) (main_arg9 : FVec F S128x64 .f32) (main_arg10 : FVec F S64 .f32) (main_arg11 : FVec F S64 .f32) (main_arg12 : FVec F S64 .f32) (main_arg13 : FVec F S64 .f32) (main_arg14 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S100000x64 .f32) (main_arg1 : FVec F S800000x64 .f32) (main_arg2 : IVec S2x800000 32) (main_arg3 : FVec F S64x64 .f32) (main_arg4 : FVec F S64x64 .f32) (main_arg5 : FVec F S64x64 .f32) (main_arg6 : FVec F S64x64 .f32) (main_arg7 : FVec F S64x128 .f32) (main_arg8 : FVec F S128 .f32) (main_arg9 : FVec F S128x64 .f32) (main_arg10 : FVec F S64 .f32) (main_arg11 : FVec F S64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S100000x64 : Shape := ⟨2, ![100000, 64]⟩
abbrev S800000x64 : Shape := ⟨2, ![800000, 64]⟩
abbrev S2x800000 : Shape := ⟨2, ![2, 800000]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S64x192 : Shape := ⟨2, ![64, 192]⟩
abbrev S100000x192 : Shape := ⟨2, ![100000, 192]⟩
abbrev S5000x64 : Shape := ⟨2, ![5000, 64]⟩
abbrev S5000x192 : Shape := ⟨2, ![5000, 192]⟩
abbrev S100000x4x16 : Shape := ⟨3, ![100000, 4, 16]⟩
abbrev S8000x64 : Shape := ⟨2, ![8000, 64]⟩
abbrev S800000x4x16 : Shape := ⟨3, ![800000, 4, 16]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x4 : Shape := ⟨2, ![800000, 4]⟩
abbrev S1000x4x16 : Shape := ⟨3, ![1000, 4, 16]⟩
abbrev S1000x4 : Shape := ⟨2, ![1000, 4]⟩
abbrev S1000x4x1 : Shape := ⟨3, ![1000, 4, 1]⟩
abbrev S100000x4 : Shape := ⟨2, ![100000, 4]⟩
abbrev S100000x4x1 : Shape := ⟨3, ![100000, 4, 1]⟩
abbrev S1x64 : Shape := ⟨2, ![1, 64]⟩
abbrev S1x128 : Shape := ⟨2, ![1, 128]⟩
abbrev S5000x128 : Shape := ⟨2, ![5000, 128]⟩
abbrev S10000x64 : Shape := ⟨2, ![10000, 64]⟩

abbrev nBuf : Space → Nat
  | .hbm => 156
  | .vmem => 42
  | .smem => 0
  | _ => 0

abbrev hbmTy0_0 (i : Nat) : BufTy := match i % 128 with
  | 0 => ⟨S100000x64, .f32⟩
  | 1 => ⟨S800000x64, .f32⟩
  | 2 => ⟨S2x800000, .i32⟩
  | 3 => ⟨S64x64, .f32⟩
  | 4 => ⟨S64x64, .f32⟩
  | 5 => ⟨S64x64, .f32⟩
  | 6 => ⟨S64x64, .f32⟩
  | 7 => ⟨S64x128, .f32⟩
  | 8 => ⟨S128, .f32⟩
  | 9 => ⟨S128x64, .f32⟩
  | 10 => ⟨S64, .f32⟩
  | 11 => ⟨S64, .f32⟩
  | 12 => ⟨S64, .f32⟩
  | 13 => ⟨S64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S64x192, .f32⟩
  | 20 => ⟨S100000x192, .f32⟩
  | 21 => ⟨S100000x64, .f32⟩
  | 22 => ⟨S100000x4x16, .f32⟩
  | 23 => ⟨S100000x64, .f32⟩
  | 24 => ⟨S100000x4x16, .f32⟩
  | 25 => ⟨S100000x64, .f32⟩
  | 26 => ⟨S100000x4x16, .f32⟩
  | 27 => ⟨S800000x64, .f32⟩
  | 28 => ⟨S800000x4x16, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000x4x16, .f32⟩
  | 48 => ⟨S800000x4x16, .i1⟩
  | 49 => ⟨S_, .f32⟩
  | 50 => ⟨S800000x4x16, .f32⟩
  | 51 => ⟨S800000x4x16, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x4x16, .f32⟩
  | 71 => ⟨S800000x4x16, .i1⟩
  | 72 => ⟨S_, .f32⟩
  | 73 => ⟨S800000x4x16, .f32⟩
  | 74 => ⟨S800000x4x16, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S1, .i32⟩
  | 84 => ⟨S_, .i32⟩
  | 85 => ⟨S800000x1, .i32⟩
  | 86 => ⟨S800000x1, .i1⟩
  | 87 => ⟨S1x1, .i32⟩
  | 88 => ⟨S800000x1, .i32⟩
  | 89 => ⟨S800000x1, .i1⟩
  | 90 => ⟨S800000x1, .i1⟩
  | 91 => ⟨S_, .i1⟩
  | 92 => ⟨S800000, .i1⟩
  | 93 => ⟨S800000x4x16, .f32⟩
  | 94 => ⟨S800000x4x16, .i1⟩
  | 95 => ⟨S_, .f32⟩
  | 96 => ⟨S800000x4x16, .f32⟩
  | 97 => ⟨S800000x4x16, .f32⟩
  | 98 => ⟨S800000x4x16, .f32⟩
  | 99 => ⟨S800000x4, .f32⟩
  | 100 => ⟨S_, .f32⟩
  | 101 => ⟨S100000x4x16, .f32⟩
  | 102 => ⟨S800000x1, .i32⟩
  | 103 => ⟨S100000x4x16, .f32⟩
  | 104 => ⟨S_, .f32⟩
  | 105 => ⟨S100000x4, .f32⟩
  | 106 => ⟨S800000x1, .i32⟩
  | 107 => ⟨S100000x4, .f32⟩
  | 108 => ⟨S100000x4x1, .f32⟩
  | 109 => ⟨S_, .f32⟩
  | 110 => ⟨S100000x4x1, .f32⟩
  | 111 => ⟨S100000x4x1, .f32⟩
  | 112 => ⟨S100000x4x16, .f32⟩
  | 113 => ⟨S100000x4x16, .f32⟩
  | 114 => ⟨S100000x64, .f32⟩
  | 115 => ⟨S100000x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S100000x64, .f32⟩
  | 125 => ⟨S_, .f32⟩
  | 126 => ⟨S64, .f32⟩
  | 127 => ⟨S_, .f32⟩
  | _ => ⟨S100000x64, .f32⟩

abbrev hbmTy0_1 (i : Nat) : BufTy := match i % 128 with
  | 0 => ⟨S64, .f32⟩
  | 1 => ⟨S64, .f32⟩
  | 2 => ⟨S1x64, .f32⟩
  | 3 => ⟨S1x64, .f32⟩
  | 4 => ⟨S1x64, .f32⟩
  | 5 => ⟨S1x64, .f32⟩
  | 6 => ⟨S1x128, .f32⟩
  | 7 => ⟨S1x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S1x64, .f32⟩
  | 25 => ⟨S1x64, .f32⟩
  | 26 => ⟨S1x64, .f32⟩
  | 27 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x192, .f32⟩
  | .local _ .vmem, ⟨3, _⟩ => ⟨S5000x192, .f32⟩
  | .local _ .vmem, ⟨4, _⟩ => ⟨S5000x192, .f32⟩
  | .local _ .vmem, ⟨5, _⟩ => ⟨S8000x64, .f32⟩
  | .local _ .vmem, ⟨6, _⟩ => ⟨S8000x64, .f32⟩
  | .local _ .vmem, ⟨7, _⟩ => ⟨S64x64, .f32⟩
  | .local _ .vmem, ⟨8, _⟩ => ⟨S8000x64, .f32⟩
  | .local _ .vmem, ⟨9, _⟩ => ⟨S8000x64, .f32⟩
  | .local _ .vmem, ⟨10, _⟩ => ⟨S1000x4x16, .f32⟩
  | .local _ .vmem, ⟨11, _⟩ => ⟨S1000x4x16, .f32⟩
  | .local _ .vmem, ⟨12, _⟩ => ⟨S1000x4x16, .f32⟩
  | .local _ .vmem, ⟨13, _⟩ => ⟨S1000x4x16, .f32⟩
  | .local _ .vmem, ⟨14, _⟩ => ⟨S1000x4x16, .f32⟩
  | .local _ .vmem, ⟨15, _⟩ => ⟨S1000x4x16, .f32⟩
  | .local _ .vmem, ⟨16, _⟩ => ⟨S1000x4x16, .f32⟩
  | .local _ .vmem, ⟨17, _⟩ => ⟨S1000x4x16, .f32⟩
  | .local _ .vmem, ⟨18, _⟩ => ⟨S1000x4x16, .f32⟩
  | .local _ .vmem, ⟨19, _⟩ => ⟨S1000x4x16, .f32⟩
  | .local _ .vmem, ⟨20, _⟩ => ⟨S1000x4, .f32⟩
  | .local _ .vmem, ⟨21, _⟩ => ⟨S1000x4, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v14 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v15 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v16 : Ref sig .tc := ⟨.hbm, 97, rfl⟩
abbrev main_v17_0 : Ref sig .tc := ⟨.hbm, 98, rfl⟩
abbrev main_v17_1 : Ref sig .tc := ⟨.hbm, 99, rfl⟩
abbrev main_cst : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_cst_0 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_cst_1 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_v30 : Ref sig .tc := ⟨.hbm, 115, rfl⟩
abbrev main_cst_2 : Ref sig .tc := ⟨.hbm, 116, rfl⟩
abbrev main_v31 : Ref sig .tc := ⟨.hbm, 117, rfl⟩
abbrev main_cst_3 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_cst_4 : Ref sig .tc := ⟨.hbm, 125, rfl⟩
abbrev main_v38 : Ref sig .tc := ⟨.hbm, 126, rfl⟩
abbrev main_cst_5 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_cst_6 : Ref sig .tc := ⟨.hbm, 137, rfl⟩
abbrev main_v48 : Ref sig .tc := ⟨.hbm, 138, rfl⟩
abbrev main_cst_7 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_cst_8 : Ref sig .tc := ⟨.hbm, 146, rfl⟩
abbrev main_v55 : Ref sig .tc := ⟨.hbm, 147, rfl⟩
abbrev main_cst_9 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg9_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem9_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![800], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x4x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x4x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x4x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x4x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x4x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S64x64_S64x64_S64x64_S64x192_d1 : Shape.Concatenates [S64x64, S64x64, S64x64] S64x192 1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  shapeCasts_S100000x64_S100000x4x16 : S100000x64.ShapeCasts S100000x4x16
  slices_S100000x192_S100000x64_0_64 : S100000x192.Slices ![0, 64] S100000x64
  slices_S100000x192_S100000x64_0_128 : S100000x192.Slices ![0, 128] S100000x64
  inb_S8000x64_S8000x64_0_0 : ∀ a, (![0, 0] : Fin 2 → Nat) a + S8000x64.size a ≤ S8000x64.size a
  h_S8000x64 : 0 < S8000x64.numel
  inb_S64x64_S64x64_0_0 : ∀ a, (![0, 0] : Fin 2 → Nat) a + S64x64.size a ≤ S64x64.size a
  h_S64x64 : 0 < S64x64.numel
  shapeCasts_S800000x64_S800000x4x16 : S800000x64.ShapeCasts S800000x4x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x4x16_0 : S800000.BroadcastsInDim S800000x4x16 (![0] : Fin 1 → Fin S800000x4x16.rank)
  bcast_S_S800000x4x16 : S_.BroadcastsInDim S800000x4x16 (![] : Fin 0 → Fin S800000x4x16.rank)
  inb_S1000x4x16_S1000x4x16_0_0_0 : ∀ a, (![0, 0, 0] : Fin 3 → Nat) a + S1000x4x16.size a ≤ S1000x4x16.size a
  h_S1000x4x16 : 0 < S1000x4x16.numel
  shapeCasts_S1000x4x16_S1000x4x16 : S1000x4x16.ShapeCasts S1000x4x16
  reduces_S1000x4x16_S1000x4 : S1000x4x16.Reduces [2] S1000x4
  inb_S1000x4_S1000x4_0_0 : ∀ a, (![0, 0] : Fin 2 → Nat) a + S1000x4.size a ≤ S1000x4.size a
  h_S1000x4 : 0 < S1000x4.numel
  shapeCasts_S1000x4_S1000x4x1 : S1000x4.ShapeCasts S1000x4x1
  shapeCasts_S1000x4x1_S1000x4x1 : S1000x4x1.ShapeCasts S1000x4x1
  broadcasts_S1000x4x1_S1000x4x16 : S1000x4x1.Broadcasts S1000x4x16
  bcast_S_S100000x4x16 : S_.BroadcastsInDim S100000x4x16 (![] : Fin 0 → Fin S100000x4x16.rank)
  bcast_S_S100000x4 : S_.BroadcastsInDim S100000x4 (![] : Fin 0 → Fin S100000x4.rank)
  bcast_S100000x4_S100000x4x1_0_1 : S100000x4.BroadcastsInDim S100000x4x1 (![0, 1] : Fin 2 → Fin S100000x4x1.rank)
  bcast_S_S100000x4x1 : S_.BroadcastsInDim S100000x4x1 (![] : Fin 0 → Fin S100000x4x1.rank)
  bcast_S100000x4x1_S100000x4x16_0_1_2 : S100000x4x1.BroadcastsInDim S100000x4x16 (![0, 1, 2] : Fin 3 → Fin S100000x4x16.rank)
  shapeCasts_S100000x4x16_S100000x64 : S100000x4x16.ShapeCasts S100000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S64_S1x64 : S64.ShapeCasts S1x64
  shapeCasts_S128_S1x128 : S128.ShapeCasts S1x128
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  dot_S5000x64_S64x192_S5000x192_1_0_0_1_n_n_wf : DotDims.WF S5000x64 S64x192 S5000x192 [1] [0] [0] [1] [] []
  dot_S8000x64_S64x64_S8000x64_1_0_0_1_n_n_wf : DotDims.WF S8000x64 S64x64 S8000x64 [1] [0] [0] [1] [] []
  gather_S100000x4x16_S800000x1_S800000x4x16_12_0_n_n_0_1_1416_wf : GatherDims.WF S100000x4x16 S800000x1 S800000x4x16 [1, 2] [0] [] [0] [] 1 ![1, 4, 16]
  scatter_S100000x4x16_S800000x1_S800000x4x16_12_0_0_1_wf : ScatterDims.WF S100000x4x16 S800000x1 S800000x4x16 [1, 2] [0] [0] 1
  scatter_S100000x4_S800000x1_S800000x4_1_0_0_1_wf : ScatterDims.WF S100000x4 S800000x1 S800000x4 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x192.size a ≤ S100000x192.size a
  hwx0_2 : ∀ i : grid0.Coords, EltTy.bits .f32 = 32 ∨ (Rect.block (s := S100000x192) S5000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S800000x64.size a
  hwx1_2 : ∀ i : grid1.Coords, EltTy.bits .f32 = 32 ∨ (Rect.block (s := S800000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x4x16.size a ≤ S800000x4x16.size a
  hwx2_0 : ∀ i : grid2.Coords, EltTy.bits .f32 = 32 ∨ (Rect.block (s := S800000x4x16) S1000x4x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x4x16.size a ≤ S800000x4x16.size a
  hwx2_1 : ∀ i : grid2.Coords, EltTy.bits .f32 = 32 ∨ (Rect.block (s := S800000x4x16) S1000x4x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x4x16.size a ≤ S800000x4x16.size a
  hwx2_2 : ∀ i : grid2.Coords, EltTy.bits .f32 = 32 ∨ (Rect.block (s := S800000x4x16) S1000x4x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x4x16.size a ≤ S800000x4x16.size a
  hwx2_3 : ∀ i : grid2.Coords, EltTy.bits .f32 = 32 ∨ (Rect.block (s := S800000x4x16) S1000x4x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x4x16.size a ≤ S800000x4x16.size a
  hwx2_4 : ∀ i : grid2.Coords, EltTy.bits .f32 = 32 ∨ (Rect.block (s := S800000x4x16) S1000x4x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x4.size a ≤ S800000x4.size a
  hwx2_5 : ∀ i : grid2.Coords, EltTy.bits .f32 = 32 ∨ (Rect.block (s := S800000x4) S1000x4.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x64.size a ≤ S128x64.size a
  hwx3_7 : ∀ i : grid3.Coords, EltTy.bits .f32 = 32 ∨ (Rect.block (s := S128x64) S128x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S100000x64.size a
  hwx3_9 : ∀ i : grid3.Coords, EltTy.bits .f32 = 32 ∨ (Rect.block (s := S100000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)

variable [Facts₀]

def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S100000x4x16_S800000x1_S800000x4x16_12_0_n_n_0_1_1416 : GatherDims S100000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S100000x4x16_S800000x1_S800000x4x16_12_0_n_n_0_1_1416_wf
def scatter_S100000x4x16_S800000x1_S800000x4x16_12_0_0_1 : ScatterDims S100000x4x16 S800000x1 S800000x4x16 where
  updateWindowDims := [1, 2]
  insertedWindowDims := [0]
  scatterDimsToOperandDims := [0]
  indexVectorDim := 1
  wf := scatter_S100000x4x16_S800000x1_S800000x4x16_12_0_0_1_wf
def scatter_S100000x4_S800000x1_S800000x4_1_0_0_1 : ScatterDims S100000x4 S800000x1 S800000x4 where
  updateWindowDims := [1]
  insertedWindowDims := [0]
  scatterDimsToOperandDims := [0]
  indexVectorDim := 1
  wf := scatter_S100000x4_S800000x1_S800000x4_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S1000x4x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1000x4x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1000x4x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1000x4x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17_0) S1000x4x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17_1) S1000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S64x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg9) S128x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v46) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v47) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v47) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S800000x64 : Shape := ⟨2, ![800000, 64]⟩
abbrev S2x800000 : Shape := ⟨2, ![2, 800000]⟩
abbrev S64x64 : Shape := ⟨2, ![64, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S100000x4x16 : Shape := ⟨3, ![100000, 4, 16]⟩
abbrev S800000x4x16 : Shape := ⟨3, ![800000, 4, 16]⟩
abbrev S_ : Shape := ⟨0, ![]⟩
abbrev S800000x1 : Shape := ⟨2, ![800000, 1]⟩
abbrev S800000x4 : Shape := ⟨2, ![800000, 4]⟩
abbrev S800000x4x1 : Shape := ⟨3, ![800000, 4, 1]⟩
abbrev S100000x4x1 : Shape := ⟨3, ![100000, 4, 1]⟩
abbrev S1x64 : Shape := ⟨2, ![1, 64]⟩
abbrev S100000x128 : Shape := ⟨2, ![100000, 128]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S100000x64, .f32⟩
  | 1 => ⟨S800000x64, .f32⟩
  | 2 => ⟨S2x800000, .i32⟩
  | 3 => ⟨S64x64, .f32⟩
  | 4 => ⟨S64x64, .f32⟩
  | 5 => ⟨S64x64, .f32⟩
  | 6 => ⟨S64x64, .f32⟩
  | 7 => ⟨S64x128, .f32⟩
  | 8 => ⟨S128, .f32⟩
  | 9 => ⟨S128x64, .f32⟩
  | 10 => ⟨S64, .f32⟩
  | 11 => ⟨S64, .f32⟩
  | 12 => ⟨S64, .f32⟩
  | 13 => ⟨S64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S100000x64, .f32⟩
  | 20 => ⟨S100000x4x16, .f32⟩
  | 21 => ⟨S100000x64, .f32⟩
  | 22 => ⟨S100000x4x16, .f32⟩
  | 23 => ⟨S100000x64, .f32⟩
  | 24 => ⟨S100000x4x16, .f32⟩
  | 25 => ⟨S800000x64, .f32⟩
  | 26 => ⟨S800000x4x16, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x4x16, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x4x16, .f32⟩
  | 45 => ⟨S800000x4x16, .f32⟩
  | 46 => ⟨S_, .f32⟩
  | 47 => ⟨S800000x4x16, .f32⟩
  | 48 => ⟨S800000x4x16, .f32⟩
  | 49 => ⟨S800000x4x16, .f32⟩
  | 50 => ⟨S_, .f32⟩
  | 51 => ⟨S800000x4, .f32⟩
  | 52 => ⟨S800000x4x1, .f32⟩
  | 53 => ⟨S_, .f32⟩
  | 54 => ⟨S_, .f32⟩
  | 55 => ⟨S_, .f32⟩
  | 56 => ⟨S800000x4x1, .f32⟩
  | 57 => ⟨S800000x4x1, .f32⟩
  | 58 => ⟨S_, .f32⟩
  | 59 => ⟨S800000x4x1, .f32⟩
  | 60 => ⟨S800000x4x1, .f32⟩
  | 61 => ⟨S800000x4x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x4x16, .f32⟩
  | 71 => ⟨S800000x4x16, .f32⟩
  | 72 => ⟨S800000x4x16, .f32⟩
  | 73 => ⟨S_, .f32⟩
  | 74 => ⟨S100000x4x16, .f32⟩
  | 75 => ⟨S800000x1, .i32⟩
  | 76 => ⟨S100000x4x16, .f32⟩
  | 77 => ⟨S_, .f32⟩
  | 78 => ⟨S100000x4x1, .f32⟩
  | 79 => ⟨S800000x1, .i32⟩
  | 80 => ⟨S100000x4x1, .f32⟩
  | 81 => ⟨S_, .f32⟩
  | 82 => ⟨S100000x4x1, .f32⟩
  | 83 => ⟨S100000x4x1, .f32⟩
  | 84 => ⟨S100000x4x16, .f32⟩
  | 85 => ⟨S100000x4x16, .f32⟩
  | 86 => ⟨S100000x64, .f32⟩
  | 87 => ⟨S100000x64, .f32⟩
  | 88 => ⟨S_, .f32⟩
  | 89 => ⟨S64, .f32⟩
  | 90 => ⟨S_, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S100000x64, .f32⟩
  | 97 => ⟨S_, .f32⟩
  | 98 => ⟨S64, .f32⟩
  | 99 => ⟨S_, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_cst_5 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call1_cst : Ref sig .tc := ⟨.hbm, 122, rfl⟩
abbrev main_call1_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_16 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_18 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S100000x64_S100000x4x16 : S100000x64.ShapeCasts S100000x4x16
  shapeCasts_S800000x64_S800000x4x16 : S800000x64.ShapeCasts S800000x4x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x4x16 : S_.BroadcastsInDim S800000x4x16 (![] : Fin 0 → Fin S800000x4x16.rank)
  reducesTo_S800000x4x16_S800000x4_d2 : S800000x4x16.ReducesTo [2] S800000x4
  h_S_ : 0 < S_.numel
  bcast_S800000x4_S800000x4x1_0_1 : S800000x4.BroadcastsInDim S800000x4x1 (![0, 1] : Fin 2 → Fin S800000x4x1.rank)
  bcast_S_S800000x4x1 : S_.BroadcastsInDim S800000x4x1 (![] : Fin 0 → Fin S800000x4x1.rank)
  bcast_S800000x4x1_S800000x4x16_0_1_2 : S800000x4x1.BroadcastsInDim S800000x4x16 (![0, 1, 2] : Fin 3 → Fin S800000x4x16.rank)
  bcast_S_S100000x4x16 : S_.BroadcastsInDim S100000x4x16 (![] : Fin 0 → Fin S100000x4x16.rank)
  bcast_S_S100000x4x1 : S_.BroadcastsInDim S100000x4x1 (![] : Fin 0 → Fin S100000x4x1.rank)
  bcast_S100000x4x1_S100000x4x16_0_1_2 : S100000x4x1.BroadcastsInDim S100000x4x16 (![0, 1, 2] : Fin 3 → Fin S100000x4x16.rank)
  shapeCasts_S100000x4x16_S100000x64 : S100000x4x16.ShapeCasts S100000x64
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x64_S64x64_S100000x64_1_0_0_1_n_n_wf : DotDims.WF S100000x64 S64x64 S100000x64 [1] [0] [0] [1] [] []
  dot_S800000x64_S64x64_S800000x64_1_0_0_1_n_n_wf : DotDims.WF S800000x64 S64x64 S800000x64 [1] [0] [0] [1] [] []
  gather_S100000x4x16_S800000x1_S800000x4x16_12_0_n_n_0_1_1416_wf : GatherDims.WF S100000x4x16 S800000x1 S800000x4x16 [1, 2] [0] [] [0] [] 1 ![1, 4, 16]
  scatter_S100000x4x16_S800000x1_S800000x4x16_12_0_0_1_wf : ScatterDims.WF S100000x4x16 S800000x1 S800000x4x16 [1, 2] [0] [0] 1
  scatter_S100000x4x1_S800000x1_S800000x4x1_12_0_0_1_wf : ScatterDims.WF S100000x4x1 S800000x1 S800000x4x1 [1, 2] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S100000x4x16_S800000x1_S800000x4x16_12_0_n_n_0_1_1416 : GatherDims S100000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S100000x4x16_S800000x1_S800000x4x16_12_0_n_n_0_1_1416_wf
def scatter_S100000x4x16_S800000x1_S800000x4x16_12_0_0_1 : ScatterDims S100000x4x16 S800000x1 S800000x4x16 where
  updateWindowDims := [1, 2]
  insertedWindowDims := [0]
  scatterDimsToOperandDims := [0]
  indexVectorDim := 1
  wf := scatter_S100000x4x16_S800000x1_S800000x4x16_12_0_0_1_wf
def scatter_S100000x4x1_S800000x1_S800000x4x1_12_0_0_1 : ScatterDims S100000x4x1 S800000x1 S800000x4x1 where
  updateWindowDims := [1, 2]
  insertedWindowDims := [0]
  scatterDimsToOperandDims := [0]
  indexVectorDim := 1
  wf := scatter_S100000x4x1_S800000x1_S800000x4x1_12_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KB.Region0.lean ====
/-
  The first projection call: at each of its 20 grid points the body reads a block of 5000 rows of the node features
  and the whole 64 x 192 matrix of the three concatenated projection weights, and stores their matrix product
  (both operands narrowed to bf16 first, accumulated in f32 from zero) as the matching 5000 rows of the output.
  This module states what the output window's staging buffer holds after the body, proves the body's triple, and
  packages them as the pipeline's proof data and body obligation, at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so its staging buffer holds the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x64 := Rect.unit (s := S5000x64) ![0, 0] S5000x64.size inb_S5000x64_S5000x64_0_0
abbrev r0_w : Rect S64x192 := Rect.unit (s := S64x192) ![0, 0] S64x192.size inb_S64x192_S64x192_0_0
abbrev r0_o : Rect S5000x192 := Rect.unit (s := S5000x192) ![0, 0] S5000x192.size inb_S5000x192_S5000x192_0_0

/-- The output window's staging buffer after the body: its one whole-block store of the product. -/
def out0_2 (x0 : Vec F S5000x64 .f32) (x1 : Vec F S64x192 .f32) : Vec F S5000x192 .f32 :=
  View.canon [⟨r0_o, k0_pay1 (View.ld x0 r0_x) (View.ld x1 r0_w)⟩]

theorem cover0_2 (p0 : Vec F S5000x192 .f32) (y : S5000x192.Idx) :
    ∃ pc ∈ ([⟨r0_o, p0⟩] : List (View.Piece (Elt F) S5000x192 .f32)), y ∈ pc.1.set :=
  View.cover_of_tiled [⟨r0_o, p0⟩] S5000x192.size (by rfl) y

/-! ## The body's triple -/

set_option maxHeartbeats 1000000 in
/-- On whole staging memrefs, the two inputs' at read contents and the output's at anything, the body runs to its
    continuation with the inputs' as they were and the output's at `out0_2` of them. -/
theorem sound_kernel0 (c : Dev nD) (E : Set ℕ) (i : grid0.Coords) (arg1 : Memref sig .tc .vmem S5000x64 .f32) (harg1 : arg1.IsWhole)
    (arg2 : Memref sig .tc .vmem S64x192 .f32) (harg2 : arg2.IsWhole) (arg3 : Memref sig .tc .vmem S5000x192 .f32) (harg3 : arg3.IsWhole)
    (x0 : Vec F S5000x64 .f32) (x1 : Vec F S64x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each input's buffer at its block and the output's at
    `out0_2` of the input blocks; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KB.Region1.lean ====
/-
  The second projection call: at each of its 100 grid points the body reads a block of 8000 rows of the edge features
  and the whole 64 x 64 matrix of the edge projection weights, and stores their matrix product
  (both operands narrowed to bf16 first, accumulated in f32 from zero) as the matching 8000 rows of the output.
  This module states what the output window's staging buffer holds after the body, proves the body's triple, and
  packages them as the pipeline's proof data and body obligation, at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is fetched once; its block index never moves, so its staging buffer holds the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S8000x64 := Rect.unit (s := S8000x64) ![0, 0] S8000x64.size inb_S8000x64_S8000x64_0_0
abbrev r1_w : Rect S64x64 := Rect.unit (s := S64x64) ![0, 0] S64x64.size inb_S64x64_S64x64_0_0
abbrev r1_o : Rect S8000x64 := Rect.unit (s := S8000x64) ![0, 0] S8000x64.size inb_S8000x64_S8000x64_0_0

/-- The output window's staging buffer after the body: its one whole-block store of the product. -/
def out1_2 (x0 : Vec F S8000x64 .f32) (x1 : Vec F S64x64 .f32) : Vec F S8000x64 .f32 :=
  View.canon [⟨r1_o, k1_pay1 (View.ld x0 r1_x) (View.ld x1 r1_w)⟩]

theorem cover1_2 (p0 : Vec F S8000x64 .f32) (y : S8000x64.Idx) :
    ∃ pc ∈ ([⟨r1_o, p0⟩] : List (View.Piece (Elt F) S8000x64 .f32)), y ∈ pc.1.set :=
  View.cover_of_tiled [⟨r1_o, p0⟩] S8000x64.size (by rfl) y

/-! ## The body's triple -/

set_option maxHeartbeats 1000000 in
/-- On whole staging memrefs, the two inputs' at read contents and the output's at anything, the body runs to its
    continuation with the inputs' as they were and the output's at `out1_2` of them. -/
theorem sound_kernel1 (c : Dev nD) (E : Set ℕ) (i : grid1.Coords) (arg1 : Memref sig .tc .vmem S8000x64 .f32) (harg1 : arg1.IsWhole)
    (arg2 : Memref sig .tc .vmem S64x64 .f32) (harg2 : arg2.IsWhole) (arg3 : Memref sig .tc .vmem S8000x64 .f32) (harg3 : arg3.IsWhole)
    (x0 : Vec F S8000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body each input's buffer at its block and the output's at
    `out1_2` of the input blocks; the scoped rest and the generator register pass through; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KB.Region2.lean ====
/-
  The per-edge call: at each of its 800 grid points the body reads the blocks of 1000 edges of the gathered keys,
  the gathered queries, the projected edge features and the gathered values (each 1000 x 4 x 16), and stores, per
  edge and head, the score exp (clip ((sum over the 16 lanes of key * query * edge) * 1/4)) as a 1000 x 4 block and
  the message value * score as a 1000 x 4 x 16 block. This module states what the two output windows' staging
  buffers hold after the body, proves the body's triple, and packages them as the pipeline's proof data and body
  obligation, at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the four input windows is fetched at every point: its staging buffer holds its block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_b : Rect S1000x4x16 := Rect.unit (s := S1000x4x16) ![0, 0, 0] S1000x4x16.size inb_S1000x4x16_S1000x4x16_0_0_0
abbrev r2_s : Rect S1000x4 := Rect.unit (s := S1000x4) ![0, 0] S1000x4.size inb_S1000x4_S1000x4_0_0

/-- The message window's staging buffer after the body: its one whole-block store. -/
def out2_4 (x0 x1 x2 x3 : Vec F S1000x4x16 .f32) : Vec F S1000x4x16 .f32 :=
  View.canon [⟨r2_b, k2_pay2 (View.ld x0 r2_b) (View.ld x1 r2_b) (View.ld x2 r2_b) (View.ld x3 r2_b)⟩]
/-- The score window's staging buffer after the body: its one whole-block store. -/
def out2_5 (x0 x1 x2 : Vec F S1000x4x16 .f32) : Vec F S1000x4 .f32 :=
  View.canon [⟨r2_s, k2_pay1 (View.ld x0 r2_b) (View.ld x1 r2_b) (View.ld x2 r2_b)⟩]

theorem cover2_4 (p0 : Vec F S1000x4x16 .f32) (y : S1000x4x16.Idx) :
    ∃ pc ∈ ([⟨r2_b, p0⟩] : List (View.Piece (Elt F) S1000x4x16 .f32)), y ∈ pc.1.set :=
  View.cover_of_tiled [⟨r2_b, p0⟩] S1000x4x16.size (by rfl) y
theorem cover2_5 (p0 : Vec F S1000x4 .f32) (y : S1000x4.Idx) :
    ∃ pc ∈ ([⟨r2_s, p0⟩] : List (View.Piece (Elt F) S1000x4 .f32)), y ∈ pc.1.set :=
  View.cover_of_tiled [⟨r2_s, p0⟩] S1000x4.size (by rfl) y

/-! ## The body's triple -/

set_option maxHeartbeats 2000000 in
/-- On whole staging memrefs, the four inputs' at read contents and the two outputs' at anything, the body runs to
    its continuation with the inputs' as they were and the outputs' at `out2_4` and `out2_5` of them. -/
theorem sound_kernel2 (c : Dev nD) (E : Set ℕ) (i : grid2.Coords) (arg1 : Memref sig .tc .vmem S1000x4x16 .f32) (harg1 : arg1.IsWhole)
    (arg2 : Memref sig .tc .vmem S1000x4x16 .f32) (harg2 : arg2.IsWhole) (arg3 : Memref sig .tc .vmem S1000x4x16 .f32) (harg3 : arg3.IsWhole)
    (arg4 : Memref sig .tc .vmem S1000x4x16 .f32) (harg4 : arg4.IsWhole) (arg5 : Memref sig .tc .vmem S1000x4x16 .f32) (harg5 : arg5.IsWhole)
    (arg6 : Memref sig .tc .vmem S1000x4 .f32) (harg6 : arg6.IsWhole)
    (x0 x1 x2 x3 : Vec F S1000x4x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2)) -∗ K ⟨⟩))
      ⊢ wp frame (wpE (defs₀ (F := F)) Variants.none c none) E (cc2__edge_kernel i arg1 harg1 arg2 harg2 arg3 harg3 arg4 harg4 arg5 harg5 arg6 harg6) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The arrays as the region finds them; after the body each input's buffer at its block and the outputs' at
    `out2_4` / `out2_5` of the input blocks; the scoped rest and the generator register pass through; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KB.Region3.lean ====
/-
  The feed-forward call: at each of its 20 grid points the body reads a block of 5000 rows of the residual stream
  and, whole at every point, the 1 x 64 rows of column means, column variances, scale and shift, the 64 x 128 and
  128 x 64 weight matrices and their 1 x 128 and 1 x 64 bias rows. It normalises the block
  ((h - mean) * rsqrt (variance + eps) * scale + shift), passes it through the two matrix products with a relu
  between them (operands narrowed to bf16, accumulated in f32 from zero), and stores normalised + feed-forward as the
  matching 5000 rows of the output. The loads sit in a printed part of the body which hands its three values to the
  store. This module states what the output window's staging buffer holds after the body, proves the body's triple,
  and packages them as the pipeline's proof data and body obligation, at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window is fetched at every point; the eight parameter windows are fetched once and their block
    index never moves: each input's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_x : Rect S5000x64 := Rect.unit (s := S5000x64) ![0, 0] S5000x64.size inb_S5000x64_S5000x64_0_0
abbrev r3_v : Rect S1x64 := Rect.unit (s := S1x64) ![0, 0] S1x64.size inb_S1x64_S1x64_0_0
abbrev r3_a : Rect S64x128 := Rect.unit (s := S64x128) ![0, 0] S64x128.size inb_S64x128_S64x128_0_0
abbrev r3_c : Rect S1x128 := Rect.unit (s := S1x128) ![0, 0] S1x128.size inb_S1x128_S1x128_0_0
abbrev r3_b : Rect S128x64 := Rect.unit (s := S128x64) ![0, 0] S128x64.size inb_S128x64_S128x64_0_0

/-- The output window's staging buffer after the body: its one whole-block store, the normalised block plus the
    feed-forward of it plus the second bias. -/
def out3_9 (x0 : Vec F S5000x64 .f32) (x1 x2 x3 x4 : Vec F S1x64 .f32) (x5 : Vec F S64x128 .f32) (x6 : Vec F S1x128 .f32)
    (x7 : Vec F S128x64 .f32) (x8 : Vec F S1x64 .f32) : Vec F S5000x64 .f32 :=
  View.canon [⟨r3_x, k3_pay1 (k3_pay2 (View.ld x0 r3_x) (View.ld x1 r3_v) (View.ld x2 r3_v) (View.ld x3 r3_v) (View.ld x4 r3_v))
    (k3_pay3 (View.ld x0 r3_x) (View.ld x1 r3_v) (View.ld x2 r3_v) (View.ld x3 r3_v) (View.ld x4 r3_v) (View.ld x5 r3_a) (View.ld x6 r3_c) (View.ld x7 r3_b))
    (k3_pay4 (View.ld x8 r3_v))⟩]

theorem cover3_9 (p0 : Vec F S5000x64 .f32) (y : S5000x64.Idx) :
    ∃ pc ∈ ([⟨r3_x, p0⟩] : List (View.Piece (Elt F) S5000x64 .f32)), y ∈ pc.1.set :=
  View.cover_of_tiled [⟨r3_x, p0⟩] S5000x64.size (by rfl) y

/-! ## The body's triple -/

set_option maxHeartbeats 4000000 in
/-- On whole staging memrefs, the nine inputs' at read contents and the output's at anything, the body runs to its
    continuation with the inputs' as they were and the output's at `out3_9` of them. -/
theorem sound_kernel3 (c : Dev nD) (E : Set ℕ) (i : grid3.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x128 .f32) (harg6 : arg6.IsWhole)
    (arg7 : Memref sig .tc .vmem S1x128 .f32) (harg7 : arg7.IsWhole)
    (arg8 : Memref sig .tc .vmem S128x64 .f32) (harg8 : arg8.IsWhole)
    (arg9 : Memref sig .tc .vmem S1x64 .f32) (harg9 : arg9.IsWhole)
    (arg10 : Memref sig .tc .vmem S5000x64 .f32) (harg10 : arg10.IsWhole)
    (x0 : Vec F S5000x64 .f32) (x1 x2 x3 x4 : Vec F S1x64 .f32) (x5 : Vec F S64x128 .f32) (x6 : Vec F S1x128 .f32)
    (x7 : Vec F S128x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out3_9 x0 x1 x2 x3 x4 x5 x6 x7 x8)) -∗ K ⟨⟩))
      ⊢ wp frame (wpE (defs₀ (F := F)) Variants.none c none) E
          (cc3__ffn_kernel i arg1 harg1 arg2 harg2 arg3 harg3 arg4 harg4 arg5 harg5 arg6 harg6 arg7 harg7 arg8 harg8 arg9 harg9 arg10 harg10) K := by
  simp only [cc3__ffn_kernel_eq_skeleton]; unfold cc3__ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The arrays as the region finds them; after the body each input's buffer at its block and the output's at
    `out3_9` of the input blocks; the scoped rest and the generator register pass through; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KB.Region4.lean ====
/-
  The last call: at each of its 10 grid points the body reads a block of 10000 rows and the four 1 x 64 row vectors
  (the column means, the column variances, the scale and the shift, each whole at every point) and stores, per entry,
  (x - mean) * rsqrt (variance + eps) * scale + shift as the matching 10000 rows of the output. This module states
  what the output window's staging buffer holds after the body, proves the body's triple, and packages them as the
  pipeline's proof data and body obligation, at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block window is fetched at every point; the four row vectors are fetched once and their block index
    never moves: each input's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S10000x64 := Rect.unit (s := S10000x64) ![0, 0] S10000x64.size inb_S10000x64_S10000x64_0_0
abbrev r4_v : Rect S1x64 := Rect.unit (s := S1x64) ![0, 0] S1x64.size inb_S1x64_S1x64_0_0

/-- The output window's staging buffer after the body: its one whole-block store. -/
def out4_5 (x0 : Vec F S10000x64 .f32) (x1 x2 x3 x4 : Vec F S1x64 .f32) : Vec F S10000x64 .f32 :=
  View.canon [⟨r4_x, k4_pay1 (View.ld x0 r4_x) (View.ld x1 r4_v) (View.ld x2 r4_v) (View.ld x3 r4_v) (View.ld x4 r4_v)⟩]

theorem cover4_5 (p0 : Vec F S10000x64 .f32) (y : S10000x64.Idx) :
    ∃ pc ∈ ([⟨r4_x, p0⟩] : List (View.Piece (Elt F) S10000x64 .f32)), y ∈ pc.1.set :=
  View.cover_of_tiled [⟨r4_x, p0⟩] S10000x64.size (by rfl) y

/-! ## The body's triple -/

set_option maxHeartbeats 2000000 in
/-- On whole staging memrefs, the five inputs' at read contents and the output's at anything, the body runs to its
    continuation with the inputs' as they were and the output's at `out4_5` of them. -/
theorem sound_kernel4 (c : Dev nD) (E : Set ℕ) (i : grid4.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The arrays as the region finds them; after the body each input's buffer at its block and the output's at
    `out4_5` of the input blocks; the scoped rest and the generator register pass through; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KB.Fold.lean ====
/-
  The contents of every unscoped TensorCore buffer at each boundary between two items of the program: a fold from the
  launch memory through the eight host stretches (each the fold of its operations' results) and the five kernel
  calls (each leaving its windows' arrays at what its grid's write-backs leave and every other buffer as it was).
  The proof data of the five pipelines, each at its call's entry contents, form one family; and each of the fifteen
  argument buffers, which no host operation writes and no call changes, reads at the last boundary as at launch.
  Stated at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Region0
import proofs.«412595_j11476152615032_3_alg».proof.Proof.KB.Region1
import proofs.«412595_j11476152615032_3_alg».proof.Proof.KB.Region2
import proofs.«412595_j11476152615032_3_alg».proof.Proof.KB.Region3
import proofs.«412595_j11476152615032_3_alg».proof.Proof.KB.Region4
import proofs.«412595_j11476152615032_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-! ## The boundaries -/

/-- At launch. -/
abbrev B0 (c : Dev nD) : Valuation τ sig (Elt F) := fun b => m (c, b)
/-- After the first host stretch: the first projection call's entry. -/
abbrev B1 (c : Dev nD) : Valuation τ sig (Elt F) := StableHlo.after hostOps0 (B0 m c)
abbrev U1 : (c : Dev nD) → (b : Ref sig .tc) → Buf (Elt F) ((c : Thread nD τ).loc b) := fun c b => B1 m c b
/-- After the first projection call. -/
def B2 (c : Dev nD) : Valuation τ sig (Elt F) :=
  Pipeline.withArrays spec0 c (B1 m c) fun w => (dat0 (U1 m) c).arrAt w cfg0.N
abbrev U2 : (c : Dev nD) → (b : Ref sig .tc) → Buf (Elt F) ((c : Thread nD τ).loc b) := fun c b => B2 m c b
/-- After the slices of the projected rows: the edge projection call's entry. -/
abbrev B3 (c : Dev nD) : Valuation τ sig (Elt F) := StableHlo.after hostOps1 (B2 m c)
abbrev U3 : (c : Dev nD) → (b : Ref sig .tc) → Buf (Elt F) ((c : Thread nD τ).loc b) := fun c b => B3 m c b
/-- After the edge projection call. -/
def B4 (c : Dev nD) : Valuation τ sig (Elt F) :=
  Pipeline.withArrays spec1 c (B3 m c) fun w => (dat1 (U3 m) c).arrAt w cfg1.N
abbrev U4 : (c : Dev nD) → (b : Ref sig .tc) → Buf (Elt F) ((c : Thread nD τ).loc b) := fun c b => B4 m c b
/-- After the reshape of the projected edge features and the three row gathers: the per-edge call's entry. -/
abbrev B5 (c : Dev nD) : Valuation τ sig (Elt F) := StableHlo.after hostOps2 (B4 m c)
abbrev B6 (c : Dev nD) : Valuation τ sig (Elt F) := StableHlo.after hostOps2_1 (B5 m c)
abbrev B7 (c : Dev nD) : Valuation τ sig (Elt F) := StableHlo.after hostOps2_2 (B6 m c)
abbrev B8 (c : Dev nD) : Valuation τ sig (Elt F) := StableHlo.after hostOps2_3 (B7 m c)
abbrev U8 : (c : Dev nD) → (b : Ref sig .tc) → Buf (Elt F) ((c : Thread nD τ).loc b) := fun c b => B8 m c b
/-- After the per-edge call. -/
def B9 (c : Dev nD) : Valuation τ sig (Elt F) :=
  Pipeline.withArrays spec2 c (B8 m c) fun w => (dat2 (U8 m) c).arrAt w cfg2.N
abbrev U9 : (c : Dev nD) → (b : Ref sig .tc) → Buf (Elt F) ((c : Thread nD τ).loc b) := fun c b => B9 m c b
/-- After the segment sums, the residual and the first statistics: the feed-forward call's entry. -/
abbrev B10 (c : Dev nD) : Valuation τ sig (Elt F) := StableHlo.after hostOps3 (B9 m c)
abbrev U10 : (c : Dev nD) → (b : Ref sig .tc) → Buf (Elt F) ((c : Thread nD τ).loc b) := fun c b => B10 m c b
/-- After the feed-forward call. -/
def B11 (c : Dev nD) : Valuation τ sig (Elt F) :=
  Pipeline.withArrays spec3 c (B10 m c) fun w => (dat3 (U10 m) c).arrAt w cfg3.N
abbrev U11 : (c : Dev nD) → (b : Ref sig .tc) → Buf (Elt F) ((c : Thread nD τ).loc b) := fun c b => B11 m c b
/-- After the second statistics: the last call's entry. -/
abbrev B12 (c : Dev nD) : Valuation τ sig (Elt F) := StableHlo.after hostOps4 (B11 m c)
abbrev U12 : (c : Dev nD) → (b : Ref sig .tc) → Buf (Elt F) ((c : Thread nD τ).loc b) := fun c b => B12 m c b
/-- After the last call: what the program ends with. -/
def B13 (c : Dev nD) : Valuation τ sig (Elt F) :=
  Pipeline.withArrays spec4 c (B12 m c) fun w => (dat4 (U12 m) c).arrAt w cfg4.N
abbrev U13 : (c : Dev nD) → (b : Ref sig .tc) → Buf (Elt F) ((c : Thread nD τ).loc b) := fun c b => B13 m c b

/-! ## What a call leaves: its windows' arrays at the write-backs' fold, every other buffer as entered -/

theorem B2_arr (c : Dev nD) (w : Fin cfg0.W) : B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem hF0 (c : Dev nD) (w : Fin cfg0.W) : (dat0 (U1 m) c).arrAt w cfg0.N = U2 m c (Pipeline.arrRef spec0 w) := (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

theorem B4_arr (c : Dev nD) (w : Fin cfg1.W) : B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem hF1 (c : Dev nD) (w : Fin cfg1.W) : (dat1 (U3 m) c).arrAt w cfg1.N = U4 m c (Pipeline.arrRef spec1 w) := (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

theorem B9_arr (c : Dev nD) (w : Fin cfg2.W) : B9 m c (Proc.devRef .tc (Pipeline.arrRef spec2 w)) = (dat2 (U8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) : B9 m c (Proc.devRef .tc b) = B8 m c (Proc.devRef .tc b) := by
  unfold B9; exact Pipeline.withArrays_of_ne spec2 c _ _ b hb
theorem hF2 (c : Dev nD) (w : Fin cfg2.W) : (dat2 (U8 m) c).arrAt w cfg2.N = U9 m c (Pipeline.arrRef spec2 w) := (B9_arr m c w).symm
theorem hrest2 (c : Dev nD) : ∀ b, b ∉ Finset.univ.image (Pipeline.arrRef spec2) → U9 m c b = U8 m c b :=
  fun b hb => B9_of_ne m c b fun w e => hb (Finset.mem_image.mpr ⟨w, Finset.mem_univ _, e⟩)

theorem B11_arr (c : Dev nD) (w : Fin cfg3.W) : B11 m c (Proc.devRef .tc (Pipeline.arrRef spec3 w)) = (dat3 (U10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) : B11 m c (Proc.devRef .tc b) = B10 m c (Proc.devRef .tc b) := by
  unfold B11; exact Pipeline.withArrays_of_ne spec3 c _ _ b hb
theorem hF3 (c : Dev nD) (w : Fin cfg3.W) : (dat3 (U10 m) c).arrAt w cfg3.N = U11 m c (Pipeline.arrRef spec3 w) := (B11_arr m c w).symm
theorem hrest3 (c : Dev nD) : ∀ b, b ∉ Finset.univ.image (Pipeline.arrRef spec3) → U11 m c b = U10 m c b :=
  fun b hb => B11_of_ne m c b fun w e => hb (Finset.mem_image.mpr ⟨w, Finset.mem_univ _, e⟩)

theorem B13_arr (c : Dev nD) (w : Fin cfg4.W) : B13 m c (Proc.devRef .tc (Pipeline.arrRef spec4 w)) = (dat4 (U12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) : B13 m c (Proc.devRef .tc b) = B12 m c (Proc.devRef .tc b) := by
  unfold B13; exact Pipeline.withArrays_of_ne spec4 c _ _ b hb
theorem hF4 (c : Dev nD) (w : Fin cfg4.W) : (dat4 (U12 m) c).arrAt w cfg4.N = U13 m c (Pipeline.arrRef spec4 w) := (B13_arr m c w).symm
theorem hrest4 (c : Dev nD) : ∀ b, b ∉ Finset.univ.image (Pipeline.arrRef spec4) → U13 m c b = U12 m c b :=
  fun b hb => B13_of_ne m c b fun w e => hb (Finset.mem_image.mpr ⟨w, Finset.mem_univ _, e⟩)

/-! ## A buffer nobody writes ends as launched -/

/-- A reference no host stretch writes and no call stages as a window's array, or stages only as an INPUT window's
    array, which a call gives back as entered. Stated for the references the program never writes at all. -/
theorem B13_untouched (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h3 : r ∉ hostOps3_W) (h4 : r ∉ hostOps4_W)
    (k0 : B2 m c (Proc.devRef .tc r) = B1 m c (Proc.devRef .tc r)) (k1 : B4 m c (Proc.devRef .tc r) = B3 m c (Proc.devRef .tc r))
    (k2 : B9 m c (Proc.devRef .tc r) = B8 m c (Proc.devRef .tc r)) (k3 : B11 m c (Proc.devRef .tc r) = B10 m c (Proc.devRef .tc r))
    (k4 : B13 m c (Proc.devRef .tc r) = B12 m c (Proc.devRef .tc r)) :
    B13 m c (Proc.devRef .tc r) = m ((c : Thread nD τ).loc r) :=
  calc B13 m c (Proc.devRef .tc r)
    _ = B12 m c (Proc.devRef .tc r) := k4
    _ = B11 m c (Proc.devRef .tc r) := StableHlo.after_of_writes_sub hostOps4 _ hostOps4_writes h4
    _ = B10 m c (Proc.devRef .tc r) := k3
    _ = B9 m c (Proc.devRef .tc r) := StableHlo.after_of_writes_sub hostOps3 _ hostOps3_writes h3
    _ = B8 m c (Proc.devRef .tc r) := k2
    _ = B7 m c (Proc.devRef .tc r) := StableHlo.after_of_writes_sub hostOps2_3 _ hostOps2_3_writes h23
    _ = B6 m c (Proc.devRef .tc r) := StableHlo.after_of_writes_sub hostOps2_2 _ hostOps2_2_writes h22
    _ = B5 m c (Proc.devRef .tc r) := StableHlo.after_of_writes_sub hostOps2_1 _ hostOps2_1_writes h21
    _ = B4 m c (Proc.devRef .tc r) := StableHlo.after_of_writes_sub hostOps2 _ hostOps2_writes h2
    _ = B3 m c (Proc.devRef .tc r) := k1
    _ = B2 m c (Proc.devRef .tc r) := StableHlo.after_of_writes_sub hostOps1 _ hostOps1_writes h1
    _ = B1 m c (Proc.devRef .tc r) := k0
    _ = B0 m c (Proc.devRef .tc r) := StableHlo.after_of_writes_sub hostOps0 _ hostOps0_writes h0
    _ = m ((c : Thread nD τ).loc r) := rfl

/-- An input window's array is given back by its call as entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (U1 m) c).arrAt_in w hw _).trans (A_eq0 (U1 m) c w))
theorem B4_in (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (U3 m) c).arrAt_in w hw _).trans (A_eq1 (U3 m) c w))
theorem B9_in (c : Dev nD) (w : Fin cfg2.W) (hw : (cfg2.win w).isOut = false) :
    B9 m c (Proc.devRef .tc (Pipeline.arrRef spec2 w)) = B8 m c (Proc.devRef .tc (Pipeline.arrRef spec2 w)) :=
  (B9_arr m c w).trans (((dat2 (U8 m) c).arrAt_in w hw _).trans (A_eq2 (U8 m) c w))
theorem B11_in (c : Dev nD) (w : Fin cfg3.W) (hw : (cfg3.win w).isOut = false) :
    B11 m c (Proc.devRef .tc (Pipeline.arrRef spec3 w)) = B10 m c (Proc.devRef .tc (Pipeline.arrRef spec3 w)) :=
  (B11_arr m c w).trans (((dat3 (U10 m) c).arrAt_in w hw _).trans (A_eq3 (U10 m) c w))
theorem B13_in (c : Dev nD) (w : Fin cfg4.W) (hw : (cfg4.win w).isOut = false) :
    B13 m c (Proc.devRef .tc (Pipeline.arrRef spec4 w)) = B12 m c (Proc.devRef .tc (Pipeline.arrRef spec4 w)) :=
  (B13_arr m c w).trans (((dat4 (U12 m) c).arrAt_in w hw _).trans (A_eq4 (U12 m) c w))

/-! ## The proof data family -/

/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U8 m) c
  | ⟨3, _⟩ => fun c => dat3 (U10 m) c
  | ⟨4, _⟩ => fun c => dat4 (U12 m) c

end Cert.Kernel.Frm

end
-- ==== Proof.KB.Seg.lean ====
/-
  The thread state carried between the items of the program: every unscoped buffer held at a boundary's contents,
  beside the core's generator register at some state and its dues, at nothing. No core owes another anything.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- No pair of cores is assigned a level. -/
abbrev noPairs : GSem nD τ sig → Finset Unit := fun _ => ∅
abbrev noLevel : GSem nD τ sig → Unit → ℕ := fun _ _ => 0
abbrev 𝒱₀ : Variants := Variants.none
/-- What rides beside the buffers through every segment. -/
abbrev Rest (c : Dev nD) : sProp 𝕄 := iprop((∃ r, prngReg c r) ∗ ∃ W, owes (c : Thread nD τ) (0 : CellTallies nD τ sig Unit) W)

end Cert.Kernel.Frm

end
-- ==== Proof.KB.Reg0.lean ====
/-
  The first projection call as a segment of the program: entered with every unscoped buffer at the boundary before it,
  left with them at the boundary after it.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The first projection call: entered with every unscoped buffer at the boundary before it, left with them at the boundary after it.
    Its windows' arrays are split out of the held buffers on entry and put back at their final contents on exit; the
    generator register goes into the pipeline's invariant and comes back; nothing is owed and the kernel has no
    semaphore of its own. -/
def reg0 : Pipeline.RegionSeg (pcfgs (F := F)) adm (pdats m) () defs₀ 𝒱₀ noPairs noLevel (0 : Fin 5) where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ noPairs noLevel (0 : Fin 5) fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := (0 : Fin 5)) (pcfgs (F := F)) adm (pdats m) launch0.win launch0.arr_whole c
      ((pdats m (0 : Fin 5) c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 5) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 5) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 5)) (pcfgs (F := F)) adm (Ix := Unit) (Name := ℕ) (U := UR sig nD τ) (Lvl := ℕ)
      launch0.win launch0.arr_whole c (pdats m) ((pdats m (0 : Fin 5) c).share_full fun _ => rfl)
      (U1 m c) (U2 m c) ((pdats m (0 : Fin 5) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KB.Reg1.lean ====
/-
  The edge projection call as a segment of the program: entered with every unscoped buffer at the boundary before it,
  left with them at the boundary after it.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The edge projection call: entered with every unscoped buffer at the boundary before it, left with them at the boundary after it.
    Its windows' arrays are split out of the held buffers on entry and put back at their final contents on exit; the
    generator register goes into the pipeline's invariant and comes back; nothing is owed and the kernel has no
    semaphore of its own. -/
def reg1 : Pipeline.RegionSeg (pcfgs (F := F)) adm (pdats m) () defs₀ 𝒱₀ noPairs noLevel (1 : Fin 5) where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ noPairs noLevel (1 : Fin 5) fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := (1 : Fin 5)) (pcfgs (F := F)) adm (pdats m) launch1.win launch1.arr_whole c
      ((pdats m (1 : Fin 5) c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 5) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 5) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 5)) (pcfgs (F := F)) adm (Ix := Unit) (Name := ℕ) (U := UR sig nD τ) (Lvl := ℕ)
      launch1.win launch1.arr_whole c (pdats m) ((pdats m (1 : Fin 5) c).share_full fun _ => rfl)
      (U3 m c) (U4 m c) ((pdats m (1 : Fin 5) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KB.Reg2.lean ====
/-
  The per-edge call as a segment of the program: entered with every unscoped buffer at the boundary before it,
  left with them at the boundary after it.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The per-edge call: entered with every unscoped buffer at the boundary before it, left with them at the boundary after it.
    Its windows' arrays are split out of the held buffers on entry and put back at their final contents on exit; the
    generator register goes into the pipeline's invariant and comes back; nothing is owed and the kernel has no
    semaphore of its own. -/
def reg2 : Pipeline.RegionSeg (pcfgs (F := F)) adm (pdats m) () defs₀ 𝒱₀ noPairs noLevel (2 : Fin 5) where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ noPairs noLevel (2 : Fin 5) fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := (2 : Fin 5)) (pcfgs (F := F)) adm (pdats m) launch2.win launch2.arr_whole c
      ((pdats m (2 : Fin 5) c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 5) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 5) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 5)) (pcfgs (F := F)) adm (Ix := Unit) (Name := ℕ) (U := UR sig nD τ) (Lvl := ℕ)
      launch2.win launch2.arr_whole c (pdats m) ((pdats m (2 : Fin 5) c).share_full fun _ => rfl)
      (U8 m c) (U9 m c) ((pdats m (2 : Fin 5) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KB.Reg3.lean ====
/-
  The feed-forward call as a segment of the program: entered with every unscoped buffer at the boundary before it,
  left with them at the boundary after it.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The feed-forward call: entered with every unscoped buffer at the boundary before it, left with them at the boundary after it.
    Its windows' arrays are split out of the held buffers on entry and put back at their final contents on exit; the
    generator register goes into the pipeline's invariant and comes back; nothing is owed and the kernel has no
    semaphore of its own. -/
def reg3 : Pipeline.RegionSeg (pcfgs (F := F)) adm (pdats m) () defs₀ 𝒱₀ noPairs noLevel (3 : Fin 5) where
  win := launch3.win.to₀
  block_pos := launch3.block_pos
  stage_whole := launch3.stage_whole
  K := PEmpty
  osem k := k.elim
  ho := Pipeline.OwnSemFacts.none _
  hbody c := (body_obligation3 (U10 m) c).loose
  hwaits := Pipeline.hwaits_of_owed_zero _ _ _ _ noPairs noLevel (3 : Fin 5) fun _ _ => rfl
  pre c := iprop(StableHlo.held (c : Thread nD τ) (Pipeline.ucRefs τ sig) (B10 m c) ∗ Rest c)
  post c := iprop(StableHlo.held (c : Thread nD τ) (Pipeline.ucRefs τ sig) (B11 m c) ∗ Rest c)
  X c := iprop(∃ r, prngReg c r)
  Y c := iprop(∃ r, prngReg c r)
  Z c := Pipeline.unscopedRest (Ix := Unit) (Name := ℕ) (U := UR sig nD τ) (Lvl := ℕ) spec3 c (U10 m c)
  hentry c := by
    rw [Pipeline.ownSems0_none]
    have hsplit := Pipeline.arrays_of_unscopedBufs (p := (3 : Fin 5)) (pcfgs (F := F)) adm (pdats m) launch3.win launch3.arr_whole c
      ((pdats m (3 : Fin 5) c).share_full fun _ => rfl) (U10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 5) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 5) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 5)) (pcfgs (F := F)) adm (Ix := Unit) (Name := ℕ) (U := UR sig nD τ) (Lvl := ℕ)
      launch3.win launch3.arr_whole c (pdats m) ((pdats m (3 : Fin 5) c).share_full fun _ => rfl)
      (U10 m c) (U11 m c) ((pdats m (3 : Fin 5) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KB.Reg4.lean ====
/-
  The last call as a segment of the program: entered with every unscoped buffer at the boundary before it,
  left with them at the boundary after it.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The last call: entered with every unscoped buffer at the boundary before it, left with them at the boundary after it.
    Its windows' arrays are split out of the held buffers on entry and put back at their final contents on exit; the
    generator register goes into the pipeline's invariant and comes back; nothing is owed and the kernel has no
    semaphore of its own. -/
def reg4 : Pipeline.RegionSeg (pcfgs (F := F)) adm (pdats m) () defs₀ 𝒱₀ noPairs noLevel (4 : Fin 5) where
  win := launch4.win.to₀
  block_pos := launch4.block_pos
  stage_whole := launch4.stage_whole
  K := PEmpty
  osem k := k.elim
  ho := Pipeline.OwnSemFacts.none _
  hbody c := (body_obligation4 (U12 m) c).loose
  hwaits := Pipeline.hwaits_of_owed_zero _ _ _ _ noPairs noLevel (4 : Fin 5) fun _ _ => rfl
  pre c := iprop(StableHlo.held (c : Thread nD τ) (Pipeline.ucRefs τ sig) (B12 m c) ∗ Rest c)
  post c := iprop(StableHlo.held (c : Thread nD τ) (Pipeline.ucRefs τ sig) (B13 m c) ∗ Rest c)
  X c := iprop(∃ r, prngReg c r)
  Y c := iprop(∃ r, prngReg c r)
  Z c := Pipeline.unscopedRest (Ix := Unit) (Name := ℕ) (U := UR sig nD τ) (Lvl := ℕ) spec4 c (U12 m c)
  hentry c := by
    rw [Pipeline.ownSems0_none]
    have hsplit := Pipeline.arrays_of_unscopedBufs (p := (4 : Fin 5)) (pcfgs (F := F)) adm (pdats m) launch4.win launch4.arr_whole c
      ((pdats m (4 : Fin 5) c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 5) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 5) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 5)) (pcfgs (F := F)) adm (Ix := Unit) (Name := ℕ) (U := UR sig nD τ) (Lvl := ℕ)
      launch4.win launch4.arr_whole c (pdats m) ((pdats m (4 : Fin 5) c).share_full fun _ => rfl)
      (U12 m c) (U13 m c) ((pdats m (4 : Fin 5) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KB.Run.lean ====
/-
  The program as the run of its thirteen segments (eight host stretches, five kernel calls) and the launch: from any
  memory with zero counters every weakly fair execution terminates, nothing faults, and every final state has EVERY
  unscoped TensorCore buffer at the last boundary's contents. The frame claim (each argument as launched) and the
  result's value are read off that one statement.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Reg0
import proofs.«412595_j11476152615032_3_alg».proof.Proof.KB.Reg1
import proofs.«412595_j11476152615032_3_alg».proof.Proof.KB.Reg2
import proofs.«412595_j11476152615032_3_alg».proof.Proof.KB.Reg3
import proofs.«412595_j11476152615032_3_alg».proof.Proof.KB.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-- A host stretch as a segment: its operations over the unscoped references from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev lastState (c : Dev nD) : sProp 𝕄 := iprop(StableHlo.held (c : Thread nD τ) (Pipeline.ucRefs τ sig) (B13 m c) ∗ ∃ r, prngReg c r)

/-- The last call's post is the last thread state beside the dues: the same three parts, grouped the other way. -/
theorem lastLink (c : Dev nD) :
    iprop(StableHlo.held (c : Thread nD τ) (Pipeline.ucRefs τ sig) (B13 m c) ∗ Rest c)
      ⊢ (iprop(lastState m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The program's thirteen items in order. -/
abbrev theSegs : List (Pipeline.Seg (pcfgs (F := F)) adm (pdats m) () defs₀ 𝒱₀ noPairs noLevel) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .host (hostSeg hostOps2_1 hostOps2_1_sub hostOps2_1_fresh (B5 m)),
    .host (hostSeg hostOps2_2 hostOps2_2_sub hostOps2_2_fresh (B6 m)),
    .host (hostSeg hostOps2_3 hostOps2_3_sub hostOps2_3_fresh (B7 m)),
    .region (reg2 m),
    .host (hostSeg hostOps3 hostOps3_sub hostOps3_fresh (B9 m)),
    .region (reg3 m),
    .host (hostSeg hostOps4 hostOps4_sub hostOps4_fresh (B11 m)),
    .region (reg4 m) ]

/-- The program is the run of those items. -/
theorem main_run (c : Dev nD) : main (F := F) c = Pipeline.Seg.run (theSegs m) := (main_chain c).trans (by chain_rfl)

set_option backward.isDefEq.respectTransparency.types false in
set_option maxHeartbeats 4000000 in
/-- From any memory with zero counters, every weakly fair execution of the program on the TensorCores terminates,
    nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ 𝒱₀ noPairs noLevel m ρ main (theSegs m)
    (fun c Q => by rw [main_run m c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := lastState m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => lastLink m c⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h c => h c)

end Cert.Kernel.Frm

end
-- ==== Proof.KB.Carry.lean ====
/-
  A buffer read at one boundary holds what it held at an earlier one when nothing in between writes it: a host stretch
  leaves every reference outside its write list, and a kernel call leaves every buffer that is not an output window's
  array. Chained backwards from a later boundary to an earlier one, each side condition decided on the literal
  references, these steps say where a buffer read at a boundary was last written.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

theorem B1_keep (c : Dev nD) (r : Ref sig .tc) (h : r ∉ hostOps0_W) : B1 m c (Proc.devRef .tc r) = B0 m c (Proc.devRef .tc r) :=
  StableHlo.after_of_writes_sub hostOps0 _ hostOps0_writes h
/-- The first projection call leaves every buffer that is not one of its OUTPUT windows' arrays as it found it: an input
    window's array is given back as entered, any other buffer is not touched. -/
theorem B2_keep (c : Dev nD) (r : Ref sig .tc) (h : ∀ w : Fin cfg0.W, (cfg0.win w).isOut = true → Pipeline.arrRef spec0 w ≠ r) :
    B2 m c (Proc.devRef .tc r) = B1 m c (Proc.devRef .tc r) := by
  by_cases hw : ∃ w : Fin cfg0.W, Pipeline.arrRef spec0 w = r
  · obtain ⟨w, rfl⟩ := hw
    refine B2_in m c w ?_
    cases hio : (cfg0.win w).isOut
    · rfl
    · exact absurd rfl (h w hio)
  · exact B2_of_ne m c r fun w e => hw ⟨w, e⟩
theorem B3_keep (c : Dev nD) (r : Ref sig .tc) (h : r ∉ hostOps1_W) : B3 m c (Proc.devRef .tc r) = B2 m c (Proc.devRef .tc r) :=
  StableHlo.after_of_writes_sub hostOps1 _ hostOps1_writes h
/-- The edge projection call leaves every buffer that is not one of its OUTPUT windows' arrays as it found it: an input
    window's array is given back as entered, any other buffer is not touched. -/
theorem B4_keep (c : Dev nD) (r : Ref sig .tc) (h : ∀ w : Fin cfg1.W, (cfg1.win w).isOut = true → Pipeline.arrRef spec1 w ≠ r) :
    B4 m c (Proc.devRef .tc r) = B3 m c (Proc.devRef .tc r) := by
  by_cases hw : ∃ w : Fin cfg1.W, Pipeline.arrRef spec1 w = r
  · obtain ⟨w, rfl⟩ := hw
    refine B4_in m c w ?_
    cases hio : (cfg1.win w).isOut
    · rfl
    · exact absurd rfl (h w hio)
  · exact B4_of_ne m c r fun w e => hw ⟨w, e⟩
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B6_keep (c : Dev nD) (r : Ref sig .tc) (h : r ∉ hostOps2_1_W) : B6 m c (Proc.devRef .tc r) = B5 m c (Proc.devRef .tc r) :=
  StableHlo.after_of_writes_sub hostOps2_1 _ hostOps2_1_writes h
theorem B7_keep (c : Dev nD) (r : Ref sig .tc) (h : r ∉ hostOps2_2_W) : B7 m c (Proc.devRef .tc r) = B6 m c (Proc.devRef .tc r) :=
  StableHlo.after_of_writes_sub hostOps2_2 _ hostOps2_2_writes h
theorem B8_keep (c : Dev nD) (r : Ref sig .tc) (h : r ∉ hostOps2_3_W) : B8 m c (Proc.devRef .tc r) = B7 m c (Proc.devRef .tc r) :=
  StableHlo.after_of_writes_sub hostOps2_3 _ hostOps2_3_writes h
/-- The per-edge call leaves every buffer that is not one of its OUTPUT windows' arrays as it found it: an input
    window's array is given back as entered, any other buffer is not touched. -/
theorem B9_keep (c : Dev nD) (r : Ref sig .tc) (h : ∀ w : Fin cfg2.W, (cfg2.win w).isOut = true → Pipeline.arrRef spec2 w ≠ r) :
    B9 m c (Proc.devRef .tc r) = B8 m c (Proc.devRef .tc r) := by
  by_cases hw : ∃ w : Fin cfg2.W, Pipeline.arrRef spec2 w = r
  · obtain ⟨w, rfl⟩ := hw
    refine B9_in m c w ?_
    cases hio : (cfg2.win w).isOut
    · rfl
    · exact absurd rfl (h w hio)
  · exact B9_of_ne m c r fun w e => hw ⟨w, e⟩
theorem B10_keep (c : Dev nD) (r : Ref sig .tc) (h : r ∉ hostOps3_W) : B10 m c (Proc.devRef .tc r) = B9 m c (Proc.devRef .tc r) :=
  StableHlo.after_of_writes_sub hostOps3 _ hostOps3_writes h
/-- The feed-forward call leaves every buffer that is not one of its OUTPUT windows' arrays as it found it: an input
    window's array is given back as entered, any other buffer is not touched. -/
theorem B11_keep (c : Dev nD) (r : Ref sig .tc) (h : ∀ w : Fin cfg3.W, (cfg3.win w).isOut = true → Pipeline.arrRef spec3 w ≠ r) :
    B11 m c (Proc.devRef .tc r) = B10 m c (Proc.devRef .tc r) := by
  by_cases hw : ∃ w : Fin cfg3.W, Pipeline.arrRef spec3 w = r
  · obtain ⟨w, rfl⟩ := hw
    refine B11_in m c w ?_
    cases hio : (cfg3.win w).isOut
    · rfl
    · exact absurd rfl (h w hio)
  · exact B11_of_ne m c r fun w e => hw ⟨w, e⟩
theorem B12_keep (c : Dev nD) (r : Ref sig .tc) (h : r ∉ hostOps4_W) : B12 m c (Proc.devRef .tc r) = B11 m c (Proc.devRef .tc r) :=
  StableHlo.after_of_writes_sub hostOps4 _ hostOps4_writes h
/-- The last call leaves every buffer that is not one of its OUTPUT windows' arrays as it found it: an input
    window's array is given back as entered, any other buffer is not touched. -/
theorem B13_keep (c : Dev nD) (r : Ref sig .tc) (h : ∀ w : Fin cfg4.W, (cfg4.win w).isOut = true → Pipeline.arrRef spec4 w ≠ r) :
    B13 m c (Proc.devRef .tc r) = B12 m c (Proc.devRef .tc r) := by
  by_cases hw : ∃ w : Fin cfg4.W, Pipeline.arrRef spec4 w = r
  · obtain ⟨w, rfl⟩ := hw
    refine B13_in m c w ?_
    cases hio : (cfg4.win w).isOut
    · rfl
    · exact absurd rfl (h w hio)
  · exact B13_of_ne m c r fun w e => hw ⟨w, e⟩

/-- A reference no host stretch writes and no call has as an output window's array reads at the last boundary as at
    launch. -/
theorem B13_of_unwritten (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h3 : r ∉ hostOps3_W) (h4 : r ∉ hostOps4_W)
    (k0 : ∀ w : Fin cfg0.W, (cfg0.win w).isOut = true → Pipeline.arrRef spec0 w ≠ r)
    (k1 : ∀ w : Fin cfg1.W, (cfg1.win w).isOut = true → Pipeline.arrRef spec1 w ≠ r)
    (k2 : ∀ w : Fin cfg2.W, (cfg2.win w).isOut = true → Pipeline.arrRef spec2 w ≠ r)
    (k3 : ∀ w : Fin cfg3.W, (cfg3.win w).isOut = true → Pipeline.arrRef spec3 w ≠ r)
    (k4 : ∀ w : Fin cfg4.W, (cfg4.win w).isOut = true → Pipeline.arrRef spec4 w ≠ r) :
    B13 m c (Proc.devRef .tc r) = m ((c : Thread nD τ).loc r) :=
  B13_untouched m c r h0 h1 h2 h21 h22 h23 h3 h4 (B2_keep m c r k0) (B4_keep m c r k1) (B9_keep m c r k2) (B11_keep m c r k3) (B13_keep m c r k4)

theorem B13_arg0 (c : Dev nD) : B13 m c (Proc.devRef .tc main_arg0) = m ((c : Thread nD τ).loc main_arg0) :=
  B13_of_unwritten m c main_arg0 (by decide) (by decide) (by decide) (by decide) (by decide) (by decide) (by decide) (by decide)
    (by decide) (by decide) (by decide) (by decide) (by decide)
theorem B13_arg1 (c : Dev nD) : B13 m c (Proc.devRef .tc main_arg1) = m ((c : Thread nD τ).loc main_arg1) :=
  B13_of_unwritten m c main_arg1 (by decide) (by decide) (by decide) (by decide) (by decide) (by decide) (by decide) (by decide)
    (by decide) (by decide) (by decide) (by decide) (by decide)
theorem B13_arg2 (c : Dev nD) : B13 m c (Proc.devRef .tc main_arg2) = m ((c : Thread nD τ).loc main_arg2) :=
  B13_of_unwritten m c main_arg2 (by decide) (by decide) (by decide) (by decide) (by decide) (by decide) (by decide) (by decide)
    (by decide) (by decide) (by decide) (by decide) (by decide)
theorem B13_arg3 (c : Dev nD) : B13 m c (Proc.devRef .tc main_arg3) = m ((c : Thread nD τ).loc main_arg3) :=
  B13_of_unwritten m c main_arg3 (by decide) (by decide) (by decide) (by decide) (by decide) (by decide) (by decide) (by decide)
    (by decide) (by decide) (by decide) (by decide) (by decide)
theorem B13_arg4 (c : Dev nD) : B13 m c (Proc.devRef .tc main_arg4) = m ((c : Thread nD τ).loc main_arg4) :=
  B13_of_unwritten m c main_arg4 (by decide) (by decide) (by decide) (by decide) (by decide) (by decide) (by decide) (by decide)
    (by decide) (by decide) (by decide) (by decide) (by decide)
theorem B13_arg5 (c : Dev nD) : B13 m c (Proc.devRef .tc main_arg5) = m ((c : Thread nD τ).loc main_arg5) :=
  B13_of_unwritten m c main_arg5 (by decide) (by decide) (by decide) (by decide) (by decide) (by decide) (by decide) (by decide)
    (by decide) (by decide) (by decide) (by decide) (by decide)
theorem B13_arg6 (c : Dev nD) : B13 m c (Proc.devRef .tc main_arg6) = m ((c : Thread nD τ).loc main_arg6) :=
  B13_of_unwritten m c main_arg6 (by decide) (by decide) (by decide) (by decide) (by decide) (by decide) (by decide) (by decide)
    (by decide) (by decide) (by decide) (by decide) (by decide)
theorem B13_arg7 (c : Dev nD) : B13 m c (Proc.devRef .tc main_arg7) = m ((c : Thread nD τ).loc main_arg7) :=
  B13_of_unwritten m c main_arg7 (by decide) (by decide) (by decide) (by decide) (by decide) (by decide) (by decide) (by decide)
    (by decide) (by decide) (by decide) (by decide) (by decide)
theorem B13_arg8 (c : Dev nD) : B13 m c (Proc.devRef .tc main_arg8) = m ((c : Thread nD τ).loc main_arg8) :=
  B13_of_unwritten m c main_arg8 (by decide) (by decide) (by decide) (by decide) (by decide) (by decide) (by decide) (by decide)
    (by decide) (by decide) (by decide) (by decide) (by decide)
theorem B13_arg9 (c : Dev nD) : B13 m c (Proc.devRef .tc main_arg9) = m ((c : Thread nD τ).loc main_arg9) :=
  B13_of_unwritten m c main_arg9 (by decide) (by decide) (by decide) (by decide) (by decide) (by decide) (by decide) (by decide)
    (by decide) (by decide) (by decide) (by decide) (by decide)
theorem B13_arg10 (c : Dev nD) : B13 m c (Proc.devRef .tc main_arg10) = m ((c : Thread nD τ).loc main_arg10) :=
  B13_of_unwritten m c main_arg10 (by decide) (by decide) (by decide) (by decide) (by decide) (by decide) (by decide) (by decide)
    (by decide) (by decide) (by decide) (by decide) (by decide)
theorem B13_arg11 (c : Dev nD) : B13 m c (Proc.devRef .tc main_arg11) = m ((c : Thread nD τ).loc main_arg11) :=
  B13_of_unwritten m c main_arg11 (by decide) (by decide) (by decide) (by decide) (by decide) (by decide) (by decide) (by decide)
    (by decide) (by decide) (by decide) (by decide) (by decide)
theorem B13_arg12 (c : Dev nD) : B13 m c (Proc.devRef .tc main_arg12) = m ((c : Thread nD τ).loc main_arg12) :=
  B13_of_unwritten m c main_arg12 (by decide) (by decide) (by decide) (by decide) (by decide) (by decide) (by decide) (by decide)
    (by decide) (by decide) (by decide) (by decide) (by decide)
theorem B13_arg13 (c : Dev nD) : B13 m c (Proc.devRef .tc main_arg13) = m ((c : Thread nD τ).loc main_arg13) :=
  B13_of_unwritten m c main_arg13 (by decide) (by decide) (by decide) (by decide) (by decide) (by decide) (by decide) (by decide)
    (by decide) (by decide) (by decide) (by decide) (by decide)
theorem B13_arg14 (c : Dev nD) : B13 m c (Proc.devRef .tc main_arg14) = m ((c : Thread nD τ).loc main_arg14) :=
  B13_of_unwritten m c main_arg14 (by decide) (by decide) (by decide) (by decide) (by decide) (by decide) (by decide) (by decide)
    (by decide) (by decide) (by decide) (by decide) (by decide)

end Cert.Kernel.Frm

end
-- ==== Proof.KB.Frame.lean ====
/-
  The run of the program read at the buffers the claims speak of: the result buffer holds what the last boundary
  holds there, and each of the fifteen argument buffers holds its launch contents (nothing writes an argument). The
  frame claim is the second part alone. Stated at any float instance.
-/
import proofs.«412595_j11476152615032_3_alg».proof.Proof.Gen.Kernel.Launch
import proofs.«412595_j11476152615032_3_alg».proof.Proof.Gen.Kernel.Skeleton
import proofs.«412595_j11476152615032_3_alg».proof.Proof.Gen.Kernel.Points
import proofs.«412595_j11476152615032_3_alg».proof.Proof.KB.Run
import proofs.«412595_j11476152615032_3_alg».proof.Proof.KB.Carry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-- Every weakly fair execution terminates, nothing faulting, with the result buffer at the last boundary's contents
    and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v62) = B13 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v62 (by decide)),
      (h c _ (mem_uc main_arg0 (by decide))).trans (B13_arg0 m c),
      (h c _ (mem_uc main_arg1 (by decide))).trans (B13_arg1 m c),
      (h c _ (mem_uc main_arg2 (by decide))).trans (B13_arg2 m c),
      (h c _ (mem_uc main_arg3 (by decide))).trans (B13_arg3 m c),
      (h c _ (mem_uc main_arg4 (by decide))).trans (B13_arg4 m c),
      (h c _ (mem_uc main_arg5 (by decide))).trans (B13_arg5 m c),
      (h c _ (mem_uc main_arg6 (by decide))).trans (B13_arg6 m c),
      (h c _ (mem_uc main_arg7 (by decide))).trans (B13_arg7 m c),
      (h c _ (mem_uc main_arg8 (by decide))).trans (B13_arg8 m c),
      (h c _ (mem_uc main_arg9 (by decide))).trans (B13_arg9 m c),
      (h c _ (mem_uc main_arg10 (by decide))).trans (B13_arg10 m c),
      (h c _ (mem_uc main_arg11 (by decide))).trans (B13_arg11 m c),
      (h c _ (mem_uc main_arg12 (by decide))).trans (B13_arg12 m c),
      (h c _ (mem_uc main_arg13 (by decide))).trans (B13_arg13 m c),
      (h c _ (mem_uc main_arg14 (by decide))).trans (B13_arg14 m c)⟩)
    (run_all m ρ)

/-- The frame claim's statement: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_main m ρ)

end Cert.Kernel.Frm

end
-- ==== Proof.KI.Region0.lean ====
/-
  The first projection call: at each of its 20 grid points the body reads a block of 5000 rows of the node features
  and the whole 64 x 192 matrix of the three concatenated projection weights, and stores their matrix product
  (both operands narrowed to bf16 first, accumulated in f32 from zero) as the matching 5000 rows of the output.
  This module states what the output window's staging buffer holds after the body, proves the body's triple, and
  packages them as the pipeline's proof data and body obligation, at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched once; its block index never moves, so its staging buffer holds the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S5000x64 := Rect.unit (s := S5000x64) ![0, 0] S5000x64.size inb_S5000x64_S5000x64_0_0
abbrev r0_w : Rect S64x192 := Rect.unit (s := S64x192) ![0, 0] S64x192.size inb_S64x192_S64x192_0_0
abbrev r0_o : Rect S5000x192 := Rect.unit (s := S5000x192) ![0, 0] S5000x192.size inb_S5000x192_S5000x192_0_0

/-- The output window's staging buffer after the body: its one whole-block store of the product. -/
def out0_2 (x0 : Vec F S5000x64 .f32) (x1 : Vec F S64x192 .f32) : Vec F S5000x192 .f32 :=
  View.canon [⟨r0_o, k0_pay1 (View.ld x0 r0_x) (View.ld x1 r0_w)⟩]

theorem cover0_2 (p0 : Vec F S5000x192 .f32) (y : S5000x192.Idx) :
    ∃ pc ∈ ([⟨r0_o, p0⟩] : List (View.Piece (Elt F) S5000x192 .f32)), y ∈ pc.1.set :=
  View.cover_of_tiled [⟨r0_o, p0⟩] S5000x192.size (by rfl) y

/-! ## The body's triple -/

set_option maxHeartbeats 1000000 in
/-- On whole staging memrefs, the two inputs' at read contents and the output's at anything, the body runs to its
    continuation with the inputs' as they were and the output's at `out0_2` of them. -/
theorem sound_kernel0 (c : Dev nD) (E : Set ℕ) (i : grid0.Coords) (arg1 : Memref sig .tc .vmem S5000x64 .f32) (harg1 : arg1.IsWhole)
    (arg2 : Memref sig .tc .vmem S64x192 .f32) (harg2 : arg2.IsWhole) (arg3 : Memref sig .tc .vmem S5000x192 .f32) (harg3 : arg3.IsWhole)
    (x0 : Vec F S5000x64 .f32) (x1 : Vec F S64x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body each input's buffer at its block and the output's at
    `out0_2` of the input blocks; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
/-
  The second projection call: at each of its 100 grid points the body reads a block of 8000 rows of the edge features
  and the whole 64 x 64 matrix of the edge projection weights, and stores their matrix product
  (both operands narrowed to bf16 first, accumulated in f32 from zero) as the matching 8000 rows of the output.
  This module states what the output window's staging buffer holds after the body, proves the body's triple, and
  packages them as the pipeline's proof data and body obligation, at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is fetched once; its block index never moves, so its staging buffer holds the whole matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S8000x64 := Rect.unit (s := S8000x64) ![0, 0] S8000x64.size inb_S8000x64_S8000x64_0_0
abbrev r1_w : Rect S64x64 := Rect.unit (s := S64x64) ![0, 0] S64x64.size inb_S64x64_S64x64_0_0
abbrev r1_o : Rect S8000x64 := Rect.unit (s := S8000x64) ![0, 0] S8000x64.size inb_S8000x64_S8000x64_0_0

/-- The output window's staging buffer after the body: its one whole-block store of the product. -/
def out1_2 (x0 : Vec F S8000x64 .f32) (x1 : Vec F S64x64 .f32) : Vec F S8000x64 .f32 :=
  View.canon [⟨r1_o, k1_pay1 (View.ld x0 r1_x) (View.ld x1 r1_w)⟩]

theorem cover1_2 (p0 : Vec F S8000x64 .f32) (y : S8000x64.Idx) :
    ∃ pc ∈ ([⟨r1_o, p0⟩] : List (View.Piece (Elt F) S8000x64 .f32)), y ∈ pc.1.set :=
  View.cover_of_tiled [⟨r1_o, p0⟩] S8000x64.size (by rfl) y

/-! ## The body's triple -/

set_option maxHeartbeats 1000000 in
/-- On whole staging memrefs, the two inputs' at read contents and the output's at anything, the body runs to its
    continuation with the inputs' as they were and the output's at `out1_2` of them. -/
theorem sound_kernel1 (c : Dev nD) (E : Set ℕ) (i : grid1.Coords) (arg1 : Memref sig .tc .vmem S8000x64 .f32) (harg1 : arg1.IsWhole)
    (arg2 : Memref sig .tc .vmem S64x64 .f32) (harg2 : arg2.IsWhole) (arg3 : Memref sig .tc .vmem S8000x64 .f32) (harg3 : arg3.IsWhole)
    (x0 : Vec F S8000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body each input's buffer at its block and the output's at
    `out1_2` of the input blocks; the scoped rest and the generator register pass through; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.Region2.lean ====
/-
  The per-edge call: at each of its 800 grid points the body reads the blocks of 1000 edges of the gathered keys,
  the gathered queries, the projected edge features and the gathered values (each 1000 x 4 x 16), and stores, per
  edge and head, the score exp (clip ((sum over the 16 lanes of key * query * edge) * 1/4)) as a 1000 x 4 block and
  the message value * score as a 1000 x 4 x 16 block. This module states what the two output windows' staging
  buffers hold after the body, proves the body's triple, and packages them as the pipeline's proof data and body
  obligation, at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the four input windows is fetched at every point: its staging buffer holds its block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_b : Rect S1000x4x16 := Rect.unit (s := S1000x4x16) ![0, 0, 0] S1000x4x16.size inb_S1000x4x16_S1000x4x16_0_0_0
abbrev r2_s : Rect S1000x4 := Rect.unit (s := S1000x4) ![0, 0] S1000x4.size inb_S1000x4_S1000x4_0_0

/-- The message window's staging buffer after the body: its one whole-block store. -/
def out2_4 (x0 x1 x2 x3 : Vec F S1000x4x16 .f32) : Vec F S1000x4x16 .f32 :=
  View.canon [⟨r2_b, k2_pay2 (View.ld x0 r2_b) (View.ld x1 r2_b) (View.ld x2 r2_b) (View.ld x3 r2_b)⟩]
/-- The score window's staging buffer after the body: its one whole-block store. -/
def out2_5 (x0 x1 x2 : Vec F S1000x4x16 .f32) : Vec F S1000x4 .f32 :=
  View.canon [⟨r2_s, k2_pay1 (View.ld x0 r2_b) (View.ld x1 r2_b) (View.ld x2 r2_b)⟩]

theorem cover2_4 (p0 : Vec F S1000x4x16 .f32) (y : S1000x4x16.Idx) :
    ∃ pc ∈ ([⟨r2_b, p0⟩] : List (View.Piece (Elt F) S1000x4x16 .f32)), y ∈ pc.1.set :=
  View.cover_of_tiled [⟨r2_b, p0⟩] S1000x4x16.size (by rfl) y
theorem cover2_5 (p0 : Vec F S1000x4 .f32) (y : S1000x4.Idx) :
    ∃ pc ∈ ([⟨r2_s, p0⟩] : List (View.Piece (Elt F) S1000x4 .f32)), y ∈ pc.1.set :=
  View.cover_of_tiled [⟨r2_s, p0⟩] S1000x4.size (by rfl) y

/-! ## The body's triple -/

set_option maxHeartbeats 2000000 in
/-- On whole staging memrefs, the four inputs' at read contents and the two outputs' at anything, the body runs to
    its continuation with the inputs' as they were and the outputs' at `out2_4` and `out2_5` of them. -/
theorem sound_kernel2 (c : Dev nD) (E : Set ℕ) (i : grid2.Coords) (arg1 : Memref sig .tc .vmem S1000x4x16 .f32) (harg1 : arg1.IsWhole)
    (arg2 : Memref sig .tc .vmem S1000x4x16 .f32) (harg2 : arg2.IsWhole) (arg3 : Memref sig .tc .vmem S1000x4x16 .f32) (harg3 : arg3.IsWhole)
    (arg4 : Memref sig .tc .vmem S1000x4x16 .f32) (harg4 : arg4.IsWhole) (arg5 : Memref sig .tc .vmem S1000x4x16 .f32) (harg5 : arg5.IsWhole)
    (arg6 : Memref sig .tc .vmem S1000x4 .f32) (harg6 : arg6.IsWhole)
    (x0 x1 x2 x3 : Vec F S1000x4x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2)) -∗ K ⟨⟩))
      ⊢ wp frame (wpE (defs₀ (F := F)) Variants.none c none) E (cc2__edge_kernel i arg1 harg1 arg2 harg2 arg3 harg3 arg4 harg4 arg5 harg5 arg6 harg6) K := by
  simp only [cc2__edge_kernel_eq_skeleton]; unfold cc2__edge_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The arrays as the region finds them; after the body each input's buffer at its block and the outputs' at
    `out2_4` / `out2_5` of the input blocks; the scoped rest and the generator register pass through; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.Region3.lean ====
/-
  The feed-forward call: at each of its 20 grid points the body reads a block of 5000 rows of the residual stream
  and, whole at every point, the 1 x 64 rows of column means, column variances, scale and shift, the 64 x 128 and
  128 x 64 weight matrices and their 1 x 128 and 1 x 64 bias rows. It normalises the block
  ((h - mean) * rsqrt (variance + eps) * scale + shift), passes it through the two matrix products with a relu
  between them (operands narrowed to bf16, accumulated in f32 from zero), and stores normalised + feed-forward as the
  matching 5000 rows of the output. The loads sit in a printed part of the body which hands its three values to the
  store. This module states what the output window's staging buffer holds after the body, proves the body's triple,
  and packages them as the pipeline's proof data and body obligation, at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-block window is fetched at every point; the eight parameter windows are fetched once and their block
    index never moves: each input's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_x : Rect S5000x64 := Rect.unit (s := S5000x64) ![0, 0] S5000x64.size inb_S5000x64_S5000x64_0_0
abbrev r3_v : Rect S1x64 := Rect.unit (s := S1x64) ![0, 0] S1x64.size inb_S1x64_S1x64_0_0
abbrev r3_a : Rect S64x128 := Rect.unit (s := S64x128) ![0, 0] S64x128.size inb_S64x128_S64x128_0_0
abbrev r3_c : Rect S1x128 := Rect.unit (s := S1x128) ![0, 0] S1x128.size inb_S1x128_S1x128_0_0
abbrev r3_b : Rect S128x64 := Rect.unit (s := S128x64) ![0, 0] S128x64.size inb_S128x64_S128x64_0_0

/-- The output window's staging buffer after the body: its one whole-block store, the normalised block plus the
    feed-forward of it plus the second bias. -/
def out3_9 (x0 : Vec F S5000x64 .f32) (x1 x2 x3 x4 : Vec F S1x64 .f32) (x5 : Vec F S64x128 .f32) (x6 : Vec F S1x128 .f32)
    (x7 : Vec F S128x64 .f32) (x8 : Vec F S1x64 .f32) : Vec F S5000x64 .f32 :=
  View.canon [⟨r3_x, k3_pay1 (k3_pay2 (View.ld x0 r3_x) (View.ld x1 r3_v) (View.ld x2 r3_v) (View.ld x3 r3_v) (View.ld x4 r3_v))
    (k3_pay3 (View.ld x0 r3_x) (View.ld x1 r3_v) (View.ld x2 r3_v) (View.ld x3 r3_v) (View.ld x4 r3_v) (View.ld x5 r3_a) (View.ld x6 r3_c) (View.ld x7 r3_b))
    (k3_pay4 (View.ld x8 r3_v))⟩]

theorem cover3_9 (p0 : Vec F S5000x64 .f32) (y : S5000x64.Idx) :
    ∃ pc ∈ ([⟨r3_x, p0⟩] : List (View.Piece (Elt F) S5000x64 .f32)), y ∈ pc.1.set :=
  View.cover_of_tiled [⟨r3_x, p0⟩] S5000x64.size (by rfl) y

/-! ## The body's triple -/

set_option maxHeartbeats 4000000 in
/-- On whole staging memrefs, the nine inputs' at read contents and the output's at anything, the body runs to its
    continuation with the inputs' as they were and the output's at `out3_9` of them. -/
theorem sound_kernel3 (c : Dev nD) (E : Set ℕ) (i : grid3.Coords)
    (arg1 : Memref sig .tc .vmem S5000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S64x128 .f32) (harg6 : arg6.IsWhole)
    (arg7 : Memref sig .tc .vmem S1x128 .f32) (harg7 : arg7.IsWhole)
    (arg8 : Memref sig .tc .vmem S128x64 .f32) (harg8 : arg8.IsWhole)
    (arg9 : Memref sig .tc .vmem S1x64 .f32) (harg9 : arg9.IsWhole)
    (arg10 : Memref sig .tc .vmem S5000x64 .f32) (harg10 : arg10.IsWhole)
    (x0 : Vec F S5000x64 .f32) (x1 x2 x3 x4 : Vec F S1x64 .f32) (x5 : Vec F S64x128 .f32) (x6 : Vec F S1x128 .f32)
    (x7 : Vec F S128x64 .f32) (x8 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out3_9 x0 x1 x2 x3 x4 x5 x6 x7 x8)) -∗ K ⟨⟩))
      ⊢ wp frame (wpE (defs₀ (F := F)) Variants.none c none) E
          (cc3__ffn_kernel i arg1 harg1 arg2 harg2 arg3 harg3 arg4 harg4 arg5 harg5 arg6 harg6 arg7 harg7 arg8 harg8 arg9 harg9 arg10 harg10) K := by
  simp only [cc3__ffn_kernel_eq_skeleton]; unfold cc3__ffn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The pipeline's proof data -/

/-- The arrays as the region finds them; after the body each input's buffer at its block and the output's at
    `out3_9` of the input blocks; the scoped rest and the generator register pass through; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.Region4.lean ====
/-
  The last call: at each of its 10 grid points the body reads a block of 10000 rows and the four 1 x 64 row vectors
  (the column means, the column variances, the scale and the shift, each whole at every point) and stores, per entry,
  (x - mean) * rsqrt (variance + eps) * scale + shift as the matching 10000 rows of the output. This module states
  what the output window's staging buffer holds after the body, proves the body's triple, and packages them as the
  pipeline's proof data and body obligation, at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block window is fetched at every point; the four row vectors are fetched once and their block index
    never moves: each input's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_x : Rect S10000x64 := Rect.unit (s := S10000x64) ![0, 0] S10000x64.size inb_S10000x64_S10000x64_0_0
abbrev r4_v : Rect S1x64 := Rect.unit (s := S1x64) ![0, 0] S1x64.size inb_S1x64_S1x64_0_0

/-- The output window's staging buffer after the body: its one whole-block store. -/
def out4_5 (x0 : Vec F S10000x64 .f32) (x1 x2 x3 x4 : Vec F S1x64 .f32) : Vec F S10000x64 .f32 :=
  View.canon [⟨r4_x, k4_pay1 (View.ld x0 r4_x) (View.ld x1 r4_v) (View.ld x2 r4_v) (View.ld x3 r4_v) (View.ld x4 r4_v)⟩]

theorem cover4_5 (p0 : Vec F S10000x64 .f32) (y : S10000x64.Idx) :
    ∃ pc ∈ ([⟨r4_x, p0⟩] : List (View.Piece (Elt F) S10000x64 .f32)), y ∈ pc.1.set :=
  View.cover_of_tiled [⟨r4_x, p0⟩] S10000x64.size (by rfl) y

/-! ## The body's triple -/

set_option maxHeartbeats 2000000 in
/-- On whole staging memrefs, the five inputs' at read contents and the output's at anything, the body runs to its
    continuation with the inputs' as they were and the output's at `out4_5` of them. -/
theorem sound_kernel4 (c : Dev nD) (E : Set ℕ) (i : grid4.Coords) (arg1 : Memref sig .tc .vmem S10000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S10000x64 .f32) (harg6 : arg6.IsWhole)
    (x0 : Vec F S10000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The arrays as the region finds them; after the body each input's buffer at its block and the output's at
    `out4_5` of the input blocks; the scoped rest and the generator register pass through; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.KI.Fold.lean ====
/-
  The contents of every unscoped TensorCore buffer at each boundary between two items of the program: a fold from the
  launch memory through the eight host stretches (each the fold of its operations' results) and the five kernel
  calls (each leaving its windows' arrays at what its grid's write-backs leave and every other buffer as it was).
  The proof data of the five pipelines, each at its call's entry contents, form one family; and each of the fifteen
  argument buffers, which no host operation writes and no call changes, reads at the last boundary as at launch.
  Stated at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Region0
import proofs.«412595_j11476152615032_3_alg».proof.Proof.KI.Region1
import proofs.«412595_j11476152615032_3_alg».proof.Proof.KI.Region2
import proofs.«412595_j11476152615032_3_alg».proof.Proof.KI.Region3
import proofs.«412595_j11476152615032_3_alg».proof.Proof.KI.Region4
import proofs.«412595_j11476152615032_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-! ## The boundaries -/

/-- At launch. -/
abbrev B0 (c : Dev nD) : Valuation τ sig (Elt F) := fun b => m (c, b)
/-- After the first host stretch: the first projection call's entry. -/
abbrev B1 (c : Dev nD) : Valuation τ sig (Elt F) := StableHlo.after hostOps0 (B0 m c)
abbrev U1 : (c : Dev nD) → (b : Ref sig .tc) → Buf (Elt F) ((c : Thread nD τ).loc b) := fun c b => B1 m c b
/-- After the first projection call. -/
def B2 (c : Dev nD) : Valuation τ sig (Elt F) :=
  Pipeline.withArrays spec0 c (B1 m c) fun w => (dat0 (U1 m) c).arrAt w cfg0.N
abbrev U2 : (c : Dev nD) → (b : Ref sig .tc) → Buf (Elt F) ((c : Thread nD τ).loc b) := fun c b => B2 m c b
/-- After the slices of the projected rows: the edge projection call's entry. -/
abbrev B3 (c : Dev nD) : Valuation τ sig (Elt F) := StableHlo.after hostOps1 (B2 m c)
abbrev U3 : (c : Dev nD) → (b : Ref sig .tc) → Buf (Elt F) ((c : Thread nD τ).loc b) := fun c b => B3 m c b
/-- After the edge projection call. -/
def B4 (c : Dev nD) : Valuation τ sig (Elt F) :=
  Pipeline.withArrays spec1 c (B3 m c) fun w => (dat1 (U3 m) c).arrAt w cfg1.N
abbrev U4 : (c : Dev nD) → (b : Ref sig .tc) → Buf (Elt F) ((c : Thread nD τ).loc b) := fun c b => B4 m c b
/-- After the reshape of the projected edge features and the three row gathers: the per-edge call's entry. -/
abbrev B5 (c : Dev nD) : Valuation τ sig (Elt F) := StableHlo.after hostOps2 (B4 m c)
abbrev B6 (c : Dev nD) : Valuation τ sig (Elt F) := StableHlo.after hostOps2_1 (B5 m c)
abbrev B7 (c : Dev nD) : Valuation τ sig (Elt F) := StableHlo.after hostOps2_2 (B6 m c)
abbrev B8 (c : Dev nD) : Valuation τ sig (Elt F) := StableHlo.after hostOps2_3 (B7 m c)
abbrev U8 : (c : Dev nD) → (b : Ref sig .tc) → Buf (Elt F) ((c : Thread nD τ).loc b) := fun c b => B8 m c b
/-- After the per-edge call. -/
def B9 (c : Dev nD) : Valuation τ sig (Elt F) :=
  Pipeline.withArrays spec2 c (B8 m c) fun w => (dat2 (U8 m) c).arrAt w cfg2.N
abbrev U9 : (c : Dev nD) → (b : Ref sig .tc) → Buf (Elt F) ((c : Thread nD τ).loc b) := fun c b => B9 m c b
/-- After the segment sums, the residual and the first statistics: the feed-forward call's entry. -/
abbrev B10 (c : Dev nD) : Valuation τ sig (Elt F) := StableHlo.after hostOps3 (B9 m c)
abbrev U10 : (c : Dev nD) → (b : Ref sig .tc) → Buf (Elt F) ((c : Thread nD τ).loc b) := fun c b => B10 m c b
/-- After the feed-forward call. -/
def B11 (c : Dev nD) : Valuation τ sig (Elt F) :=
  Pipeline.withArrays spec3 c (B10 m c) fun w => (dat3 (U10 m) c).arrAt w cfg3.N
abbrev U11 : (c : Dev nD) → (b : Ref sig .tc) → Buf (Elt F) ((c : Thread nD τ).loc b) := fun c b => B11 m c b
/-- After the second statistics: the last call's entry. -/
abbrev B12 (c : Dev nD) : Valuation τ sig (Elt F) := StableHlo.after hostOps4 (B11 m c)
abbrev U12 : (c : Dev nD) → (b : Ref sig .tc) → Buf (Elt F) ((c : Thread nD τ).loc b) := fun c b => B12 m c b
/-- After the last call: what the program ends with. -/
def B13 (c : Dev nD) : Valuation τ sig (Elt F) :=
  Pipeline.withArrays spec4 c (B12 m c) fun w => (dat4 (U12 m) c).arrAt w cfg4.N
abbrev U13 : (c : Dev nD) → (b : Ref sig .tc) → Buf (Elt F) ((c : Thread nD τ).loc b) := fun c b => B13 m c b

/-! ## What a call leaves: its windows' arrays at the write-backs' fold, every other buffer as entered -/

theorem B2_arr (c : Dev nD) (w : Fin cfg0.W) : B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) : B2 m c (Proc.devRef .tc b) = B1 m c (Proc.devRef .tc b) := by
  unfold B2; exact Pipeline.withArrays_of_ne spec0 c _ _ b hb
theorem hF0 (c : Dev nD) (w : Fin cfg0.W) : (dat0 (U1 m) c).arrAt w cfg0.N = U2 m c (Pipeline.arrRef spec0 w) := (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

theorem B4_arr (c : Dev nD) (w : Fin cfg1.W) : B4 m c (Proc.devRef .tc (Pipeline.arrRef spec1 w)) = (dat1 (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) : B4 m c (Proc.devRef .tc b) = B3 m c (Proc.devRef .tc b) := by
  unfold B4; exact Pipeline.withArrays_of_ne spec1 c _ _ b hb
theorem hF1 (c : Dev nD) (w : Fin cfg1.W) : (dat1 (U3 m) c).arrAt w cfg1.N = U4 m c (Pipeline.arrRef spec1 w) := (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

theorem B9_arr (c : Dev nD) (w : Fin cfg2.W) : B9 m c (Proc.devRef .tc (Pipeline.arrRef spec2 w)) = (dat2 (U8 m) c).arrAt w cfg2.N := by
  unfold B9; exact Pipeline.withArrays_arr spec2 launch2.win.arr_inj c _ _ w
theorem B9_of_ne (c : Dev nD) (b : Ref sig .tc) (hb : ∀ w, Pipeline.arrRef spec2 w ≠ b) : B9 m c (Proc.devRef .tc b) = B8 m c (Proc.devRef .tc b) := by
  unfold B9; exact Pipeline.withArrays_of_ne spec2 c _ _ b hb
theorem hF2 (c : Dev nD) (w : Fin cfg2.W) : (dat2 (U8 m) c).arrAt w cfg2.N = U9 m c (Pipeline.arrRef spec2 w) := (B9_arr m c w).symm
theorem hrest2 (c : Dev nD) : ∀ b, b ∉ Finset.univ.image (Pipeline.arrRef spec2) → U9 m c b = U8 m c b :=
  fun b hb => B9_of_ne m c b fun w e => hb (Finset.mem_image.mpr ⟨w, Finset.mem_univ _, e⟩)

theorem B11_arr (c : Dev nD) (w : Fin cfg3.W) : B11 m c (Proc.devRef .tc (Pipeline.arrRef spec3 w)) = (dat3 (U10 m) c).arrAt w cfg3.N := by
  unfold B11; exact Pipeline.withArrays_arr spec3 launch3.win.arr_inj c _ _ w
theorem B11_of_ne (c : Dev nD) (b : Ref sig .tc) (hb : ∀ w, Pipeline.arrRef spec3 w ≠ b) : B11 m c (Proc.devRef .tc b) = B10 m c (Proc.devRef .tc b) := by
  unfold B11; exact Pipeline.withArrays_of_ne spec3 c _ _ b hb
theorem hF3 (c : Dev nD) (w : Fin cfg3.W) : (dat3 (U10 m) c).arrAt w cfg3.N = U11 m c (Pipeline.arrRef spec3 w) := (B11_arr m c w).symm
theorem hrest3 (c : Dev nD) : ∀ b, b ∉ Finset.univ.image (Pipeline.arrRef spec3) → U11 m c b = U10 m c b :=
  fun b hb => B11_of_ne m c b fun w e => hb (Finset.mem_image.mpr ⟨w, Finset.mem_univ _, e⟩)

theorem B13_arr (c : Dev nD) (w : Fin cfg4.W) : B13 m c (Proc.devRef .tc (Pipeline.arrRef spec4 w)) = (dat4 (U12 m) c).arrAt w cfg4.N := by
  unfold B13; exact Pipeline.withArrays_arr spec4 launch4.win.arr_inj c _ _ w
theorem B13_of_ne (c : Dev nD) (b : Ref sig .tc) (hb : ∀ w, Pipeline.arrRef spec4 w ≠ b) : B13 m c (Proc.devRef .tc b) = B12 m c (Proc.devRef .tc b) := by
  unfold B13; exact Pipeline.withArrays_of_ne spec4 c _ _ b hb
theorem hF4 (c : Dev nD) (w : Fin cfg4.W) : (dat4 (U12 m) c).arrAt w cfg4.N = U13 m c (Pipeline.arrRef spec4 w) := (B13_arr m c w).symm
theorem hrest4 (c : Dev nD) : ∀ b, b ∉ Finset.univ.image (Pipeline.arrRef spec4) → U13 m c b = U12 m c b :=
  fun b hb => B13_of_ne m c b fun w e => hb (Finset.mem_image.mpr ⟨w, Finset.mem_univ _, e⟩)

/-! ## A buffer nobody writes ends as launched -/

/-- A reference no host stretch writes and no call stages as a window's array, or stages only as an INPUT window's
    array, which a call gives back as entered. Stated for the references the program never writes at all. -/
theorem B13_untouched (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h3 : r ∉ hostOps3_W) (h4 : r ∉ hostOps4_W)
    (k0 : B2 m c (Proc.devRef .tc r) = B1 m c (Proc.devRef .tc r)) (k1 : B4 m c (Proc.devRef .tc r) = B3 m c (Proc.devRef .tc r))
    (k2 : B9 m c (Proc.devRef .tc r) = B8 m c (Proc.devRef .tc r)) (k3 : B11 m c (Proc.devRef .tc r) = B10 m c (Proc.devRef .tc r))
    (k4 : B13 m c (Proc.devRef .tc r) = B12 m c (Proc.devRef .tc r)) :
    B13 m c (Proc.devRef .tc r) = m ((c : Thread nD τ).loc r) :=
  calc B13 m c (Proc.devRef .tc r)
    _ = B12 m c (Proc.devRef .tc r) := k4
    _ = B11 m c (Proc.devRef .tc r) := StableHlo.after_of_writes_sub hostOps4 _ hostOps4_writes h4
    _ = B10 m c (Proc.devRef .tc r) := k3
    _ = B9 m c (Proc.devRef .tc r) := StableHlo.after_of_writes_sub hostOps3 _ hostOps3_writes h3
    _ = B8 m c (Proc.devRef .tc r) := k2
    _ = B7 m c (Proc.devRef .tc r) := StableHlo.after_of_writes_sub hostOps2_3 _ hostOps2_3_writes h23
    _ = B6 m c (Proc.devRef .tc r) := StableHlo.after_of_writes_sub hostOps2_2 _ hostOps2_2_writes h22
    _ = B5 m c (Proc.devRef .tc r) := StableHlo.after_of_writes_sub hostOps2_1 _ hostOps2_1_writes h21
    _ = B4 m c (Proc.devRef .tc r) := StableHlo.after_of_writes_sub hostOps2 _ hostOps2_writes h2
    _ = B3 m c (Proc.devRef .tc r) := k1
    _ = B2 m c (Proc.devRef .tc r) := StableHlo.after_of_writes_sub hostOps1 _ hostOps1_writes h1
    _ = B1 m c (Proc.devRef .tc r) := k0
    _ = B0 m c (Proc.devRef .tc r) := StableHlo.after_of_writes_sub hostOps0 _ hostOps0_writes h0
    _ = m ((c : Thread nD τ).loc r) := rfl

/-- An input window's array is given back by its call as entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((dat0 (U1 m) c).arrAt_in w hw _).trans (A_eq0 (U1 m) c w))
theorem B4_in (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((dat1 (U3 m) c).arrAt_in w hw _).trans (A_eq1 (U3 m) c w))
theorem B9_in (c : Dev nD) (w : Fin cfg2.W) (hw : (cfg2.win w).isOut = false) :
    B9 m c (Proc.devRef .tc (Pipeline.arrRef spec2 w)) = B8 m c (Proc.devRef .tc (Pipeline.arrRef spec2 w)) :=
  (B9_arr m c w).trans (((dat2 (U8 m) c).arrAt_in w hw _).trans (A_eq2 (U8 m) c w))
theorem B11_in (c : Dev nD) (w : Fin cfg3.W) (hw : (cfg3.win w).isOut = false) :
    B11 m c (Proc.devRef .tc (Pipeline.arrRef spec3 w)) = B10 m c (Proc.devRef .tc (Pipeline.arrRef spec3 w)) :=
  (B11_arr m c w).trans (((dat3 (U10 m) c).arrAt_in w hw _).trans (A_eq3 (U10 m) c w))
theorem B13_in (c : Dev nD) (w : Fin cfg4.W) (hw : (cfg4.win w).isOut = false) :
    B13 m c (Proc.devRef .tc (Pipeline.arrRef spec4 w)) = B12 m c (Proc.devRef .tc (Pipeline.arrRef spec4 w)) :=
  (B13_arr m c w).trans (((dat4 (U12 m) c).arrAt_in w hw _).trans (A_eq4 (U12 m) c w))

/-! ## The proof data family -/

/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U8 m) c
  | ⟨3, _⟩ => fun c => dat3 (U10 m) c
  | ⟨4, _⟩ => fun c => dat4 (U12 m) c

end Cert.KernelIdeal.Frm

end
-- ==== Proof.KI.Seg.lean ====
/-
  The thread state carried between the items of the program: every unscoped buffer held at a boundary's contents,
  beside the core's generator register at some state and its dues, at nothing. No core owes another anything.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- No pair of cores is assigned a level. -/
abbrev noPairs : GSem nD τ sig → Finset Unit := fun _ => ∅
abbrev noLevel : GSem nD τ sig → Unit → ℕ := fun _ _ => 0
abbrev 𝒱₀ : Variants := Variants.none
/-- What rides beside the buffers through every segment. -/
abbrev Rest (c : Dev nD) : sProp 𝕄 := iprop((∃ r, prngReg c r) ∗ ∃ W, owes (c : Thread nD τ) (0 : CellTallies nD τ sig Unit) W)

end Cert.KernelIdeal.Frm

end
-- ==== Proof.KI.Reg0.lean ====
/-
  The first projection call as a segment of the program: entered with every unscoped buffer at the boundary before it,
  left with them at the boundary after it.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The first projection call: entered with every unscoped buffer at the boundary before it, left with them at the boundary after it.
    Its windows' arrays are split out of the held buffers on entry and put back at their final contents on exit; the
    generator register goes into the pipeline's invariant and comes back; nothing is owed and the kernel has no
    semaphore of its own. -/
def reg0 : Pipeline.RegionSeg (pcfgs (F := F)) adm (pdats m) () defs₀ 𝒱₀ noPairs noLevel (0 : Fin 5) where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ noPairs noLevel (0 : Fin 5) fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := (0 : Fin 5)) (pcfgs (F := F)) adm (pdats m) launch0.win launch0.arr_whole c
      ((pdats m (0 : Fin 5) c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (0 : Fin 5) c).Φ 0 = Pipeline.ΦA spec0 c from rfl]; unfold Pipeline.ΦA
    iintro ⟨Hp, -, Hr⟩
    isplitl [Hr]; · iexact Hr
    iexact Hp
  hout c := by
    rw [Pipeline.ownSems0_none, show (pdats m (0 : Fin 5) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 5)) (pcfgs (F := F)) adm (Ix := Unit) (Name := ℕ) (U := UR sig nD τ) (Lvl := ℕ)
      launch0.win launch0.arr_whole c (pdats m) ((pdats m (0 : Fin 5) c).share_full fun _ => rfl)
      (U1 m c) (U2 m c) ((pdats m (0 : Fin 5) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Reg1.lean ====
/-
  The edge projection call as a segment of the program: entered with every unscoped buffer at the boundary before it,
  left with them at the boundary after it.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The edge projection call: entered with every unscoped buffer at the boundary before it, left with them at the boundary after it.
    Its windows' arrays are split out of the held buffers on entry and put back at their final contents on exit; the
    generator register goes into the pipeline's invariant and comes back; nothing is owed and the kernel has no
    semaphore of its own. -/
def reg1 : Pipeline.RegionSeg (pcfgs (F := F)) adm (pdats m) () defs₀ 𝒱₀ noPairs noLevel (1 : Fin 5) where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ noPairs noLevel (1 : Fin 5) fun _ _ => rfl
  pre c := iprop(StableHlo.held (c : Thread nD τ) (Pipeline.ucRefs τ sig) (B3 m c) ∗ Rest c)
  post c := iprop(StableHlo.held (c : Thread nD τ) (Pipeline.ucRefs τ sig) (B4 m c) ∗ Rest c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := (1 : Fin 5)) (pcfgs (F := F)) adm (pdats m) launch1.win launch1.arr_whole c
      ((pdats m (1 : Fin 5) c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (1 : Fin 5) c).Φ 0 = Pipeline.ΦA spec1 c from rfl]; unfold Pipeline.ΦA
    iintro ⟨Hp, -, Hr⟩
    isplitl [Hr]; · iexact Hr
    iexact Hp
  hout c := by
    rw [Pipeline.ownSems0_none, show (pdats m (1 : Fin 5) c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := (1 : Fin 5)) (pcfgs (F := F)) adm (Ix := Unit) (Name := ℕ) (U := UR sig nD τ) (Lvl := ℕ)
      launch1.win launch1.arr_whole c (pdats m) ((pdats m (1 : Fin 5) c).share_full fun _ => rfl)
      (U3 m c) (U4 m c) ((pdats m (1 : Fin 5) c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Reg2.lean ====
/-
  The per-edge call as a segment of the program: entered with every unscoped buffer at the boundary before it,
  left with them at the boundary after it.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The per-edge call: entered with every unscoped buffer at the boundary before it, left with them at the boundary after it.
    Its windows' arrays are split out of the held buffers on entry and put back at their final contents on exit; the
    generator register goes into the pipeline's invariant and comes back; nothing is owed and the kernel has no
    semaphore of its own. -/
def reg2 : Pipeline.RegionSeg (pcfgs (F := F)) adm (pdats m) () defs₀ 𝒱₀ noPairs noLevel (2 : Fin 5) where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ noPairs noLevel (2 : Fin 5) fun _ _ => rfl
  pre c := iprop(StableHlo.held (c : Thread nD τ) (Pipeline.ucRefs τ sig) (B8 m c) ∗ Rest c)
  post c := iprop(StableHlo.held (c : Thread nD τ) (Pipeline.ucRefs τ sig) (B9 m c) ∗ Rest c)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := (2 : Fin 5)) (pcfgs (F := F)) adm (pdats m) launch2.win launch2.arr_whole c
      ((pdats m (2 : Fin 5) c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (2 : Fin 5) c).Φ 0 = Pipeline.ΦA spec2 c from rfl]; unfold Pipeline.ΦA
    iintro ⟨Hp, -, Hr⟩
    isplitl [Hr]; · iexact Hr
    iexact Hp
  hout c := by
    rw [Pipeline.ownSems0_none, show (pdats m (2 : Fin 5) c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := (2 : Fin 5)) (pcfgs (F := F)) adm (Ix := Unit) (Name := ℕ) (U := UR sig nD τ) (Lvl := ℕ)
      launch2.win launch2.arr_whole c (pdats m) ((pdats m (2 : Fin 5) c).share_full fun _ => rfl)
      (U8 m c) (U9 m c) ((pdats m (2 : Fin 5) c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Reg3.lean ====
/-
  The feed-forward call as a segment of the program: entered with every unscoped buffer at the boundary before it,
  left with them at the boundary after it.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The feed-forward call: entered with every unscoped buffer at the boundary before it, left with them at the boundary after it.
    Its windows' arrays are split out of the held buffers on entry and put back at their final contents on exit; the
    generator register goes into the pipeline's invariant and comes back; nothing is owed and the kernel has no
    semaphore of its own. -/
def reg3 : Pipeline.RegionSeg (pcfgs (F := F)) adm (pdats m) () defs₀ 𝒱₀ noPairs noLevel (3 : Fin 5) where
  win := launch3.win.to₀
  block_pos := launch3.block_pos
  stage_whole := launch3.stage_whole
  K := PEmpty
  osem k := k.elim
  ho := Pipeline.OwnSemFacts.none _
  hbody c := (body_obligation3 (U10 m) c).loose
  hwaits := Pipeline.hwaits_of_owed_zero _ _ _ _ noPairs noLevel (3 : Fin 5) fun _ _ => rfl
  pre c := iprop(StableHlo.held (c : Thread nD τ) (Pipeline.ucRefs τ sig) (B10 m c) ∗ Rest c)
  post c := iprop(StableHlo.held (c : Thread nD τ) (Pipeline.ucRefs τ sig) (B11 m c) ∗ Rest c)
  X c := iprop(∃ r, prngReg c r)
  Y c := iprop(∃ r, prngReg c r)
  Z c := Pipeline.unscopedRest (Ix := Unit) (Name := ℕ) (U := UR sig nD τ) (Lvl := ℕ) spec3 c (U10 m c)
  hentry c := by
    rw [Pipeline.ownSems0_none]
    have hsplit := Pipeline.arrays_of_unscopedBufs (p := (3 : Fin 5)) (pcfgs (F := F)) adm (pdats m) launch3.win launch3.arr_whole c
      ((pdats m (3 : Fin 5) c).share_full fun _ => rfl) (U10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (3 : Fin 5) c).Φ 0 = Pipeline.ΦA spec3 c from rfl]; unfold Pipeline.ΦA
    iintro ⟨Hp, -, Hr⟩
    isplitl [Hr]; · iexact Hr
    iexact Hp
  hout c := by
    rw [Pipeline.ownSems0_none, show (pdats m (3 : Fin 5) c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := (3 : Fin 5)) (pcfgs (F := F)) adm (Ix := Unit) (Name := ℕ) (U := UR sig nD τ) (Lvl := ℕ)
      launch3.win launch3.arr_whole c (pdats m) ((pdats m (3 : Fin 5) c).share_full fun _ => rfl)
      (U10 m c) (U11 m c) ((pdats m (3 : Fin 5) c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Reg4.lean ====
/-
  The last call as a segment of the program: entered with every unscoped buffer at the boundary before it,
  left with them at the boundary after it.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Seg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

-- a library lemma stated over the pinned configuration unifies with the printed one only when unification may unfold
-- plain definitions in a metavariable's type
set_option backward.isDefEq.respectTransparency.types false in
/-- The last call: entered with every unscoped buffer at the boundary before it, left with them at the boundary after it.
    Its windows' arrays are split out of the held buffers on entry and put back at their final contents on exit; the
    generator register goes into the pipeline's invariant and comes back; nothing is owed and the kernel has no
    semaphore of its own. -/
def reg4 : Pipeline.RegionSeg (pcfgs (F := F)) adm (pdats m) () defs₀ 𝒱₀ noPairs noLevel (4 : Fin 5) where
  win := launch4.win.to₀
  block_pos := launch4.block_pos
  stage_whole := launch4.stage_whole
  K := PEmpty
  osem k := k.elim
  ho := Pipeline.OwnSemFacts.none _
  hbody c := (body_obligation4 (U12 m) c).loose
  hwaits := Pipeline.hwaits_of_owed_zero _ _ _ _ noPairs noLevel (4 : Fin 5) fun _ _ => rfl
  pre c := iprop(StableHlo.held (c : Thread nD τ) (Pipeline.ucRefs τ sig) (B12 m c) ∗ Rest c)
  post c := iprop(StableHlo.held (c : Thread nD τ) (Pipeline.ucRefs τ sig) (B13 m c) ∗ Rest c)
  X c := iprop(∃ r, prngReg c r)
  Y c := iprop(∃ r, prngReg c r)
  Z c := Pipeline.unscopedRest (Ix := Unit) (Name := ℕ) (U := UR sig nD τ) (Lvl := ℕ) spec4 c (U12 m c)
  hentry c := by
    rw [Pipeline.ownSems0_none]
    have hsplit := Pipeline.arrays_of_unscopedBufs (p := (4 : Fin 5)) (pcfgs (F := F)) adm (pdats m) launch4.win launch4.arr_whole c
      ((pdats m (4 : Fin 5) c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m (4 : Fin 5) c).Φ 0 = Pipeline.ΦA spec4 c from rfl]; unfold Pipeline.ΦA
    iintro ⟨Hp, -, Hr⟩
    isplitl [Hr]; · iexact Hr
    iexact Hp
  hout c := by
    rw [Pipeline.ownSems0_none, show (pdats m (4 : Fin 5) c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := (4 : Fin 5)) (pcfgs (F := F)) adm (Ix := Unit) (Name := ℕ) (U := UR sig nD τ) (Lvl := ℕ)
      launch4.win launch4.arr_whole c (pdats m) ((pdats m (4 : Fin 5) c).share_full fun _ => rfl)
      (U12 m c) (U13 m c) ((pdats m (4 : Fin 5) c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Run.lean ====
/-
  The program as the run of its thirteen segments (eight host stretches, five kernel calls) and the launch: from any
  memory with zero counters every weakly fair execution terminates, nothing faults, and every final state has EVERY
  unscoped TensorCore buffer at the last boundary's contents. The frame claim (each argument as launched) and the
  result's value are read off that one statement.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Reg0
import proofs.«412595_j11476152615032_3_alg».proof.Proof.KI.Reg1
import proofs.«412595_j11476152615032_3_alg».proof.Proof.KI.Reg2
import proofs.«412595_j11476152615032_3_alg».proof.Proof.KI.Reg3
import proofs.«412595_j11476152615032_3_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-- A host stretch as a segment: its operations over the unscoped references from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev lastState (c : Dev nD) : sProp 𝕄 := iprop(StableHlo.held (c : Thread nD τ) (Pipeline.ucRefs τ sig) (B13 m c) ∗ ∃ r, prngReg c r)

/-- The last call's post is the last thread state beside the dues: the same three parts, grouped the other way. -/
theorem lastLink (c : Dev nD) :
    iprop(StableHlo.held (c : Thread nD τ) (Pipeline.ucRefs τ sig) (B13 m c) ∗ Rest c)
      ⊢ (iprop(lastState m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The program's thirteen items in order. -/
abbrev theSegs : List (Pipeline.Seg (pcfgs (F := F)) adm (pdats m) () defs₀ 𝒱₀ noPairs noLevel) :=
  [ .host (hostSeg hostOps0 hostOps0_sub hostOps0_fresh (B0 m)),
    .region (reg0 m),
    .host (hostSeg hostOps1 hostOps1_sub hostOps1_fresh (B2 m)),
    .region (reg1 m),
    .host (hostSeg hostOps2 hostOps2_sub hostOps2_fresh (B4 m)),
    .host (hostSeg hostOps2_1 hostOps2_1_sub hostOps2_1_fresh (B5 m)),
    .host (hostSeg hostOps2_2 hostOps2_2_sub hostOps2_2_fresh (B6 m)),
    .host (hostSeg hostOps2_3 hostOps2_3_sub hostOps2_3_fresh (B7 m)),
    .region (reg2 m),
    .host (hostSeg hostOps3 hostOps3_sub hostOps3_fresh (B9 m)),
    .region (reg3 m),
    .host (hostSeg hostOps4 hostOps4_sub hostOps4_fresh (B11 m)),
    .region (reg4 m) ]

/-- The program is the run of those items. -/
theorem main_run (c : Dev nD) : main (F := F) c = Pipeline.Seg.run (theSegs m) := (main_chain c).trans (by chain_rfl)

set_option backward.isDefEq.respectTransparency.types false in
set_option maxHeartbeats 4000000 in
/-- From any memory with zero counters, every weakly fair execution of the program on the TensorCores terminates,
    nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B13 m c b) :=
  Pipeline.θ_run_regions_kit (pcfgs (F := F)) adm (pdats m) () cellOf_inj emb₁ defs₀ 𝒱₀ noPairs noLevel m ρ main (theSegs m)
    (fun c Q => by rw [main_run m c])
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := lastState m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => lastLink m c⟩)
    (hinit := by
      refine Pipeline.initEach noPairs noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B13 m c b)
    (hfin := fun c s' => by
      iintro ⟨⟨Hh, -⟩, HSI⟩
      unfold StableHlo.held
      imodintro
      iapply (pointsTo_read_all (Pipeline.ucRefs τ sig) (fun b => (((c : Thread nD τ)).1, b)) (B13 m c) s')
      isplitl [Hh] <;> iassumption)
    (hQ := fun s h c => h c)

end Cert.KernelIdeal.Frm

end
-- ==== Proof.KI.Carry.lean ====
/-
  A buffer read at one boundary holds what it held at an earlier one when nothing in between writes it: a host stretch
  leaves every reference outside its write list, and a kernel call leaves every buffer that is not an output window's
  array. Chained backwards from a later boundary to an earlier one, each side condition decided on the literal
  references, these steps say where a buffer read at a boundary was last written.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

theorem B1_keep (c : Dev nD) (r : Ref sig .tc) (h : r ∉ hostOps0_W) : B1 m c (Proc.devRef .tc r) = B0 m c (Proc.devRef .tc r) :=
  StableHlo.after_of_writes_sub hostOps0 _ hostOps0_writes h
/-- The first projection call leaves every buffer that is not one of its OUTPUT windows' arrays as it found it: an input
    window's array is given back as entered, any other buffer is not touched. -/
theorem B2_keep (c : Dev nD) (r : Ref sig .tc) (h : ∀ w : Fin cfg0.W, (cfg0.win w).isOut = true → Pipeline.arrRef spec0 w ≠ r) :
    B2 m c (Proc.devRef .tc r) = B1 m c (Proc.devRef .tc r) := by
  by_cases hw : ∃ w : Fin cfg0.W, Pipeline.arrRef spec0 w = r
  · obtain ⟨w, rfl⟩ := hw
    refine B2_in m c w ?_
    cases hio : (cfg0.win w).isOut
    · rfl
    · exact absurd rfl (h w hio)
  · exact B2_of_ne m c r fun w e => hw ⟨w, e⟩
theorem B3_keep (c : Dev nD) (r : Ref sig .tc) (h : r ∉ hostOps1_W) : B3 m c (Proc.devRef .tc r) = B2 m c (Proc.devRef .tc r) :=
  StableHlo.after_of_writes_sub hostOps1 _ hostOps1_writes h
/-- The edge projection call leaves every buffer that is not one of its OUTPUT windows' arrays as it found it: an input
    window's array is given back as entered, any other buffer is not touched. -/
theorem B4_keep (c : Dev nD) (r : Ref sig .tc) (h : ∀ w : Fin cfg1.W, (cfg1.win w).isOut = true → Pipeline.arrRef spec1 w ≠ r) :
    B4 m c (Proc.devRef .tc r) = B3 m c (Proc.devRef .tc r) := by
  by_cases hw : ∃ w : Fin cfg1.W, Pipeline.arrRef spec1 w = r
  · obtain ⟨w, rfl⟩ := hw
    refine B4_in m c w ?_
    cases hio : (cfg1.win w).isOut
    · rfl
    · exact absurd rfl (h w hio)
  · exact B4_of_ne m c r fun w e => hw ⟨w, e⟩
theorem B5_keep (c : Dev nD) (r : Ref sig .tc) (h : r ∉ hostOps2_W) : B5 m c (Proc.devRef .tc r) = B4 m c (Proc.devRef .tc r) :=
  StableHlo.after_of_writes_sub hostOps2 _ hostOps2_writes h
theorem B6_keep (c : Dev nD) (r : Ref sig .tc) (h : r ∉ hostOps2_1_W) : B6 m c (Proc.devRef .tc r) = B5 m c (Proc.devRef .tc r) :=
  StableHlo.after_of_writes_sub hostOps2_1 _ hostOps2_1_writes h
theorem B7_keep (c : Dev nD) (r : Ref sig .tc) (h : r ∉ hostOps2_2_W) : B7 m c (Proc.devRef .tc r) = B6 m c (Proc.devRef .tc r) :=
  StableHlo.after_of_writes_sub hostOps2_2 _ hostOps2_2_writes h
theorem B8_keep (c : Dev nD) (r : Ref sig .tc) (h : r ∉ hostOps2_3_W) : B8 m c (Proc.devRef .tc r) = B7 m c (Proc.devRef .tc r) :=
  StableHlo.after_of_writes_sub hostOps2_3 _ hostOps2_3_writes h
/-- The per-edge call leaves every buffer that is not one of its OUTPUT windows' arrays as it found it: an input
    window's array is given back as entered, any other buffer is not touched. -/
theorem B9_keep (c : Dev nD) (r : Ref sig .tc) (h : ∀ w : Fin cfg2.W, (cfg2.win w).isOut = true → Pipeline.arrRef spec2 w ≠ r) :
    B9 m c (Proc.devRef .tc r) = B8 m c (Proc.devRef .tc r) := by
  by_cases hw : ∃ w : Fin cfg2.W, Pipeline.arrRef spec2 w = r
  · obtain ⟨w, rfl⟩ := hw
    refine B9_in m c w ?_
    cases hio : (cfg2.win w).isOut
    · rfl
    · exact absurd rfl (h w hio)
  · exact B9_of_ne m c r fun w e => hw ⟨w, e⟩
theorem B10_keep (c : Dev nD) (r : Ref sig .tc) (h : r ∉ hostOps3_W) : B10 m c (Proc.devRef .tc r) = B9 m c (Proc.devRef .tc r) :=
  StableHlo.after_of_writes_sub hostOps3 _ hostOps3_writes h
/-- The feed-forward call leaves every buffer that is not one of its OUTPUT windows' arrays as it found it: an input
    window's array is given back as entered, any other buffer is not touched. -/
theorem B11_keep (c : Dev nD) (r : Ref sig .tc) (h : ∀ w : Fin cfg3.W, (cfg3.win w).isOut = true → Pipeline.arrRef spec3 w ≠ r) :
    B11 m c (Proc.devRef .tc r) = B10 m c (Proc.devRef .tc r) := by
  by_cases hw : ∃ w : Fin cfg3.W, Pipeline.arrRef spec3 w = r
  · obtain ⟨w, rfl⟩ := hw
    refine B11_in m c w ?_
    cases hio : (cfg3.win w).isOut
    · rfl
    · exact absurd rfl (h w hio)
  · exact B11_of_ne m c r fun w e => hw ⟨w, e⟩
theorem B12_keep (c : Dev nD) (r : Ref sig .tc) (h : r ∉ hostOps4_W) : B12 m c (Proc.devRef .tc r) = B11 m c (Proc.devRef .tc r) :=
  StableHlo.after_of_writes_sub hostOps4 _ hostOps4_writes h
/-- The last call leaves every buffer that is not one of its OUTPUT windows' arrays as it found it: an input
    window's array is given back as entered, any other buffer is not touched. -/
theorem B13_keep (c : Dev nD) (r : Ref sig .tc) (h : ∀ w : Fin cfg4.W, (cfg4.win w).isOut = true → Pipeline.arrRef spec4 w ≠ r) :
    B13 m c (Proc.devRef .tc r) = B12 m c (Proc.devRef .tc r) := by
  by_cases hw : ∃ w : Fin cfg4.W, Pipeline.arrRef spec4 w = r
  · obtain ⟨w, rfl⟩ := hw
    refine B13_in m c w ?_
    cases hio : (cfg4.win w).isOut
    · rfl
    · exact absurd rfl (h w hio)
  · exact B13_of_ne m c r fun w e => hw ⟨w, e⟩

/-- A reference no host stretch writes and no call has as an output window's array reads at the last boundary as at
    launch. -/
theorem B13_of_unwritten (c : Dev nD) (r : Ref sig .tc)
    (h0 : r ∉ hostOps0_W) (h1 : r ∉ hostOps1_W) (h2 : r ∉ hostOps2_W) (h21 : r ∉ hostOps2_1_W) (h22 : r ∉ hostOps2_2_W)
    (h23 : r ∉ hostOps2_3_W) (h3 : r ∉ hostOps3_W) (h4 : r ∉ hostOps4_W)
    (k0 : ∀ w : Fin cfg0.W, (cfg0.win w).isOut = true → Pipeline.arrRef spec0 w ≠ r)
    (k1 : ∀ w : Fin cfg1.W, (cfg1.win w).isOut = true → Pipeline.arrRef spec1 w ≠ r)
    (k2 : ∀ w : Fin cfg2.W, (cfg2.win w).isOut = true → Pipeline.arrRef spec2 w ≠ r)
    (k3 : ∀ w : Fin cfg3.W, (cfg3.win w).isOut = true → Pipeline.arrRef spec3 w ≠ r)
    (k4 : ∀ w : Fin cfg4.W, (cfg4.win w).isOut = true → Pipeline.arrRef spec4 w ≠ r) :
    B13 m c (Proc.devRef .tc r) = m ((c : Thread nD τ).loc r) :=
  B13_untouched m c r h0 h1 h2 h21 h22 h23 h3 h4 (B2_keep m c r k0) (B4_keep m c r k1) (B9_keep m c r k2) (B11_keep m c r k3) (B13_keep m c r k4)

theorem B13_arg0 (c : Dev nD) : B13 m c (Proc.devRef .tc main_arg0) = m ((c : Thread nD τ).loc main_arg0) :=
  B13_of_unwritten m c main_arg0 (by decide) (by decide) (by decide) (by decide) (by decide) (by decide) (by decide) (by decide)
    (by decide) (by decide) (by decide) (by decide) (by decide)
theorem B13_arg1 (c : Dev nD) : B13 m c (Proc.devRef .tc main_arg1) = m ((c : Thread nD τ).loc main_arg1) :=
  B13_of_unwritten m c main_arg1 (by decide) (by decide) (by decide) (by decide) (by decide) (by decide) (by decide) (by decide)
    (by decide) (by decide) (by decide) (by decide) (by decide)
theorem B13_arg2 (c : Dev nD) : B13 m c (Proc.devRef .tc main_arg2) = m ((c : Thread nD τ).loc main_arg2) :=
  B13_of_unwritten m c main_arg2 (by decide) (by decide) (by decide) (by decide) (by decide) (by decide) (by decide) (by decide)
    (by decide) (by decide) (by decide) (by decide) (by decide)
theorem B13_arg3 (c : Dev nD) : B13 m c (Proc.devRef .tc main_arg3) = m ((c : Thread nD τ).loc main_arg3) :=
  B13_of_unwritten m c main_arg3 (by decide) (by decide) (by decide) (by decide) (by decide) (by decide) (by decide) (by decide)
    (by decide) (by decide) (by decide) (by decide) (by decide)
theorem B13_arg4 (c : Dev nD) : B13 m c (Proc.devRef .tc main_arg4) = m ((c : Thread nD τ).loc main_arg4) :=
  B13_of_unwritten m c main_arg4 (by decide) (by decide) (by decide) (by decide) (by decide) (by decide) (by decide) (by decide)
    (by decide) (by decide) (by decide) (by decide) (by decide)
theorem B13_arg5 (c : Dev nD) : B13 m c (Proc.devRef .tc main_arg5) = m ((c : Thread nD τ).loc main_arg5) :=
  B13_of_unwritten m c main_arg5 (by decide) (by decide) (by decide) (by decide) (by decide) (by decide) (by decide) (by decide)
    (by decide) (by decide) (by decide) (by decide) (by decide)
theorem B13_arg6 (c : Dev nD) : B13 m c (Proc.devRef .tc main_arg6) = m ((c : Thread nD τ).loc main_arg6) :=
  B13_of_unwritten m c main_arg6 (by decide) (by decide) (by decide) (by decide) (by decide) (by decide) (by decide) (by decide)
    (by decide) (by decide) (by decide) (by decide) (by decide)
theorem B13_arg7 (c : Dev nD) : B13 m c (Proc.devRef .tc main_arg7) = m ((c : Thread nD τ).loc main_arg7) :=
  B13_of_unwritten m c main_arg7 (by decide) (by decide) (by decide) (by decide) (by decide) (by decide) (by decide) (by decide)
    (by decide) (by decide) (by decide) (by decide) (by decide)
theorem B13_arg8 (c : Dev nD) : B13 m c (Proc.devRef .tc main_arg8) = m ((c : Thread nD τ).loc main_arg8) :=
  B13_of_unwritten m c main_arg8 (by decide) (by decide) (by decide) (by decide) (by decide) (by decide) (by decide) (by decide)
    (by decide) (by decide) (by decide) (by decide) (by decide)
theorem B13_arg9 (c : Dev nD) : B13 m c (Proc.devRef .tc main_arg9) = m ((c : Thread nD τ).loc main_arg9) :=
  B13_of_unwritten m c main_arg9 (by decide) (by decide) (by decide) (by decide) (by decide) (by decide) (by decide) (by decide)
    (by decide) (by decide) (by decide) (by decide) (by decide)
theorem B13_arg10 (c : Dev nD) : B13 m c (Proc.devRef .tc main_arg10) = m ((c : Thread nD τ).loc main_arg10) :=
  B13_of_unwritten m c main_arg10 (by decide) (by decide) (by decide) (by decide) (by decide) (by decide) (by decide) (by decide)
    (by decide) (by decide) (by decide) (by decide) (by decide)
theorem B13_arg11 (c : Dev nD) : B13 m c (Proc.devRef .tc main_arg11) = m ((c : Thread nD τ).loc main_arg11) :=
  B13_of_unwritten m c main_arg11 (by decide) (by decide) (by decide) (by decide) (by decide) (by decide) (by decide) (by decide)
    (by decide) (by decide) (by decide) (by decide) (by decide)
theorem B13_arg12 (c : Dev nD) : B13 m c (Proc.devRef .tc main_arg12) = m ((c : Thread nD τ).loc main_arg12) :=
  B13_of_unwritten m c main_arg12 (by decide) (by decide) (by decide) (by decide) (by decide) (by decide) (by decide) (by decide)
    (by decide) (by decide) (by decide) (by decide) (by decide)
theorem B13_arg13 (c : Dev nD) : B13 m c (Proc.devRef .tc main_arg13) = m ((c : Thread nD τ).loc main_arg13) :=
  B13_of_unwritten m c main_arg13 (by decide) (by decide) (by decide) (by decide) (by decide) (by decide) (by decide) (by decide)
    (by decide) (by decide) (by decide) (by decide) (by decide)
theorem B13_arg14 (c : Dev nD) : B13 m c (Proc.devRef .tc main_arg14) = m ((c : Thread nD τ).loc main_arg14) :=
  B13_of_unwritten m c main_arg14 (by decide) (by decide) (by decide) (by decide) (by decide) (by decide) (by decide) (by decide)
    (by decide) (by decide) (by decide) (by decide) (by decide)

end Cert.KernelIdeal.Frm

end
-- ==== Proof.KI.Frame.lean ====
/-
  The run of the program read at the buffers the claims speak of: the result buffer holds what the last boundary
  holds there, and each of the fifteen argument buffers holds its launch contents (nothing writes an argument). The
  frame claim is the second part alone. Stated at any float instance.
-/
import proofs.«412595_j11476152615032_3_alg».proof.Proof.Gen.KernelIdeal.Launch
import proofs.«412595_j11476152615032_3_alg».proof.Proof.Gen.KernelIdeal.Skeleton
import proofs.«412595_j11476152615032_3_alg».proof.Proof.Gen.KernelIdeal.Points
import proofs.«412595_j11476152615032_3_alg».proof.Proof.KI.Run
import proofs.«412595_j11476152615032_3_alg».proof.Proof.KI.Carry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

variable (m : (ℓ : Loc nD τ sig) → Buf (Elt F) ℓ)

/-- Every weakly fair execution terminates, nothing faulting, with the result buffer at the last boundary's contents
    and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v62) = B13 m c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v62 (by decide)),
      (h c _ (mem_uc main_arg0 (by decide))).trans (B13_arg0 m c),
      (h c _ (mem_uc main_arg1 (by decide))).trans (B13_arg1 m c),
      (h c _ (mem_uc main_arg2 (by decide))).trans (B13_arg2 m c),
      (h c _ (mem_uc main_arg3 (by decide))).trans (B13_arg3 m c),
      (h c _ (mem_uc main_arg4 (by decide))).trans (B13_arg4 m c),
      (h c _ (mem_uc main_arg5 (by decide))).trans (B13_arg5 m c),
      (h c _ (mem_uc main_arg6 (by decide))).trans (B13_arg6 m c),
      (h c _ (mem_uc main_arg7 (by decide))).trans (B13_arg7 m c),
      (h c _ (mem_uc main_arg8 (by decide))).trans (B13_arg8 m c),
      (h c _ (mem_uc main_arg9 (by decide))).trans (B13_arg9 m c),
      (h c _ (mem_uc main_arg10 (by decide))).trans (B13_arg10 m c),
      (h c _ (mem_uc main_arg11 (by decide))).trans (B13_arg11 m c),
      (h c _ (mem_uc main_arg12 (by decide))).trans (B13_arg12 m c),
      (h c _ (mem_uc main_arg13 (by decide))).trans (B13_arg13 m c),
      (h c _ (mem_uc main_arg14 (by decide))).trans (B13_arg14 m c)⟩)
    (run_all m ρ)

/-- The frame claim's statement: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_main m ρ)

end Cert.KernelIdeal.Frm

end
-- ==== Proof.Val.Mat0.lean ====
/-
  The first projection call, read as a value at the extended reals: its output array is the matrix product of the
  node features with the three concatenated projection weights. At the extended reals the narrowing of both operands
  to bf16 is the identity and the accumulator starts at zero, so each grid point's body leaves the plain product of
  its 5000 rows with the weights; the 20 row blocks tile the 100000 rows, so the array after the call is the product
  of the whole arrays, element (n, j) the sum over the 64 inner positions k of x (n, k) * w (k, j).
-/
import proofs.«412595_j11476152615032_3_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-! ## A row block times the weights, read at an index -/

theorem lhs_mm0_0 (i : S5000x192.Idx) (q : dot_S5000x64_S64x192_S5000x192_1_0_0_1_n_n.contr.Idx) :
    (dot_S5000x64_S64x192_S5000x192_1_0_0_1_n_n.lhsIdx i q 0).val = (i 0).val := by
  unfold DotDims.lhsIdx
  rw [dif_neg (show ¬(0 : Fin S5000x64.rank) ∈ dot_S5000x64_S64x192_S5000x192_1_0_0_1_n_n.lhsBatch by decide), dif_pos (show (0 : Fin S5000x64.rank) ∈ dot_S5000x64_S64x192_S5000x192_1_0_0_1_n_n.lhsNonContracting by decide)]
  rfl
theorem lhs_mm0_1 (i : S5000x192.Idx) (q : dot_S5000x64_S64x192_S5000x192_1_0_0_1_n_n.contr.Idx) :
    (dot_S5000x64_S64x192_S5000x192_1_0_0_1_n_n.lhsIdx i q 1).val = (q ⟨0, by decide⟩).val :=
  dot_S5000x64_S64x192_S5000x192_1_0_0_1_n_n.lhsIdx_val_of_single rfl i q
theorem rhs_mm0_0 (i : S5000x192.Idx) (q : dot_S5000x64_S64x192_S5000x192_1_0_0_1_n_n.contr.Idx) :
    (dot_S5000x64_S64x192_S5000x192_1_0_0_1_n_n.rhsIdx i q 0).val = (q ⟨0, by decide⟩).val :=
  dot_S5000x64_S64x192_S5000x192_1_0_0_1_n_n.rhsIdx_val_of_single rfl i q
theorem rhs_mm0_1 (i : S5000x192.Idx) (q : dot_S5000x64_S64x192_S5000x192_1_0_0_1_n_n.contr.Idx) :
    (dot_S5000x64_S64x192_S5000x192_1_0_0_1_n_n.rhsIdx i q 1).val = (i 1).val := by
  unfold DotDims.rhsIdx
  rw [dif_neg (show ¬(1 : Fin S64x192.rank) ∈ dot_S5000x64_S64x192_S5000x192_1_0_0_1_n_n.rhsBatch by decide), dif_pos (show (1 : Fin S64x192.rank) ∈ dot_S5000x64_S64x192_S5000x192_1_0_0_1_n_n.rhsNonContracting by decide)]
  rfl

/-- Row `r` of the block, column `k`. -/
abbrev xrow0 (i : S5000x192.Idx) (k : Fin 64) : S5000x64.Idx := fun a => match a with
  | ⟨0, _⟩ => ⟨(i 0).val, (i 0).isLt⟩
  | ⟨1, _⟩ => ⟨k.val, k.isLt⟩
/-- Row `k` of the weights, column `j`. -/
abbrev wcol0 (i : S5000x192.Idx) (k : Fin 64) : S64x192.Idx := fun a => match a with
  | ⟨0, _⟩ => ⟨k.val, k.isLt⟩
  | ⟨1, _⟩ => ⟨(i 1).val, (i 1).isLt⟩

/-- The body's product at an index: the narrowing is the identity on extended reals and the accumulator starts at zero, so it is the plain sum of products over the 64 inner positions. -/
theorem k0_pay1_apply (x0 : Vec Ideal S5000x64 .f32) (x1 : Vec Ideal S64x192 .f32) (i : S5000x192.Idx) :
    k0_pay1 (F := Ideal) x0 x1 i = ∑ k : Fin 64, x0 (xrow0 i k) * x1 (wcol0 i k) := by
  unfold k0_pay1
  refine (Ideal.matmul_constant_zero_apply dot_S5000x64_S64x192_S5000x192_1_0_0_1_n_n none _ _ i).trans ?_
  rw [← Equiv.sum_comp (ValueIdx.contrEquiv1 dot_S5000x64_S64x192_S5000x192_1_0_0_1_n_n 64 rfl rfl).symm]
  refine Finset.sum_congr rfl fun k _ => ?_
  have hk := ValueIdx.contrEquiv1_symm_val dot_S5000x64_S64x192_S5000x192_1_0_0_1_n_n 64 rfl rfl k
  have el : dot_S5000x64_S64x192_S5000x192_1_0_0_1_n_n.lhsIdx i ((ValueIdx.contrEquiv1 dot_S5000x64_S64x192_S5000x192_1_0_0_1_n_n 64 rfl rfl).symm k) = xrow0 i k := funext fun a => Fin.ext (by
    match a with
    | ⟨0, _⟩ => exact lhs_mm0_0 _ _
    | ⟨1, _⟩ => exact (lhs_mm0_1 _ _).trans hk)
  have er : dot_S5000x64_S64x192_S5000x192_1_0_0_1_n_n.rhsIdx i ((ValueIdx.contrEquiv1 dot_S5000x64_S64x192_S5000x192_1_0_0_1_n_n 64 rfl rfl).symm k) = wcol0 i k := funext fun a => Fin.ext (by
    match a with
    | ⟨0, _⟩ => exact (rhs_mm0_0 _ _).trans hk
    | ⟨1, _⟩ => exact rhs_mm0_1 _ _)
  rw [el, er, shapeCast_self x1 shapeCasts_S64x192_S64x192]
  rfl

/-! ## The first projection: the whole array as one function of the features and the weights -/

/-- `x @ w`: element `(n, j)` is the sum over the 64 inner positions `k` of `x (n, k) * w (k, j)`. -/
def G0 (x : FVec Ideal S100000x64 .f32) (w : FVec Ideal S64x192 .f32) : FVec Ideal S100000x192 .f32 :=
  fun i => ∑ k : Fin 64, x (ix2 (n0 := 100000) (n1 := 64) ⟨(i 0).val, (i 0).isLt⟩ k) * w (ix2 (n0 := 64) (n1 := 192) k ⟨(i 1).val, (i 1).isLt⟩)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the 20 points: the row blocks of the features and of the output move together, one block per point; the weights stay put. -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- A row block's product is the matching rows of the whole product: stated over any block contents `x0`, `x1` that agree with the arrays at the indices the sum reads. -/
theorem block_G0 (x : FVec Ideal S100000x64 .f32) (w : FVec Ideal S64x192 .f32)
    (x0 : Vec Ideal S5000x64 .f32) (x1 : Vec Ideal S64x192 .f32) (y : S5000x192.Idx) (i : S100000x192.Idx)
    (hx : ∀ k : Fin 64, x0 (xrow0 y k) = x (ix2 (n0 := 100000) (n1 := 64) ⟨(i 0).val, (i 0).isLt⟩ k))
    (hw : ∀ k : Fin 64, x1 (wcol0 y k) = w (ix2 (n0 := 64) (n1 := 192) k ⟨(i 1).val, (i 1).isLt⟩)) :
    k0_pay1 (F := Ideal) x0 x1 y = G0 x w i := by
  rw [k0_pay1_apply]
  unfold G0
  exact Finset.sum_congr rfl fun k _ => by rw [hx k, hw k]

/-- What point `t` writes back is block `t` of `G0` of the arrays as the region finds them. -/
theorem flushed0_eq (c : Dev nD) (t : Fin cfg0.N) :
    (dat0 V c).flushed 2 t = ((cfg0.win 2).blk t).view.read (Elt Ideal) (G0 (V c main_arg0) (V c main_v4)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x192) hz0]
  obtain ⟨e0, e1, e2, e3, e4, e5⟩ := idx_facts0 t
  funext y
  show k0_pay1 (iblk0 V c 0 t) (iblk0 V c 1 t) y = G0 (V c main_arg0) (V c main_v4) (((cfg0.win 2).blk t).view.emb y)
  refine block_G0 (V c main_arg0) (V c main_v4) (iblk0 V c 0 t) (iblk0 V c 1 t) y (((cfg0.win 2).blk t).view.emb y) (fun k => ?_) (fun k => ?_)
  · show V c main_arg0 (((cfg0.win 0).blk t).view.emb (xrow0 y k)) = _
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 64 + 1 * k.val = k.val; omega
  · show V c main_v4 (((cfg0.win 1).blk t).view.emb (wcol0 y k)) = _
    refine congrArg (V c main_v4) (funext fun a => Fin.ext ?_)
    match a with
    | ⟨0, _⟩ => show win0_1.index t (0 : Fin 2) * 64 + 1 * k.val = k.val; omega
    | ⟨1, _⟩ => show win0_1.index t (1 : Fin 2) * 192 + 1 * (y 1).val = win0_2.index t (1 : Fin 2) * 192 + 1 * (y 1).val; omega

/-- An index of the output is in point `t`'s block iff each coordinate is in the block's range on its axis. -/
theorem mem_blk0 (t : Fin cfg0.N) (i : S100000x192.Idx) :
    i ∈ ((cfg0.win 2).blk t).view.set ↔ ∀ a : Fin 2, win0_2.index t a * S5000x192.size a ≤ (i a).val ∧ (i a).val < win0_2.index t a * S5000x192.size a + S5000x192.size a := by
  show i ∈ ((View.whole main_v5).slice (win0_2.rect t)).set ↔ _
  rw [View.set_slice_whole, Rect.mem_set_unit]
  exact Iff.rfl

/-- The 20 row blocks tile the output: row `r` lies in the block of point `r / 5000`. -/
theorem cover0 (i : S100000x192.Idx) : ∃ t : Fin cfg0.N, (cfg0.win 2).flush t = true ∧ i ∈ ((cfg0.win 2).blk t).view.set := by
  have hi0 : (i 0).val < 100000 := (i 0).isLt
  have hi1 : (i 1).val < 192 := (i 1).isLt
  obtain ⟨t, ht⟩ : ∃ t : Fin cfg0.N, t.val = (i 0).val / 5000 := ⟨⟨(i 0).val / 5000, by show (i 0).val / 5000 < 20; omega⟩, rfl⟩
  obtain ⟨e0, e1, -⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 192 ≤ (i 1).val ∧ (i 1).val < win0_2.index t (1 : Fin 2) * 192 + 192; omega

/-- After the region the output array is `G0` of the features and the concatenated weights as the region finds them. -/
theorem final0 (c : Dev nD) : (dat0 V c).arrAt 2 cfg0.N = G0 (V c main_arg0) (V c main_v4) :=
  (dat0 V c).arrAt_eq_of_cover 2 (G0 (V c main_arg0) (V c main_v4)) (fun t _ => flushed0_eq V c t) cover0

end Cert.KernelIdeal.Val

end
-- ==== Proof.Val.Mat1.lean ====
/-
  The edge projection call, read as a value at the extended reals: its output array is the matrix product of the
  edge features with the edge weights. At the extended reals the narrowing of both operands to bf16 is the identity
  and the accumulator starts at zero, so each grid point's body leaves the plain product of its 8000 edge rows with
  the weights; the 100 row blocks tile the 800000 rows, so the array after the call is the product of the whole
  arrays, element (n, j) the sum over the 64 inner positions k of e (n, k) * w (k, j).
-/
import proofs.«412595_j11476152615032_3_alg».proof.Proof.KI.Region1
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators

/-! ## A block of edge rows times the edge weights, read at an index -/

theorem lhs_mm1_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_mm1_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_mm1_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_mm1_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- Edge row `r` of the block, column `k`. -/
abbrev erow1 (i : S8000x64.Idx) (k : Fin 64) : S8000x64.Idx := fun a => match a with
  | ⟨0, _⟩ => ⟨(i 0).val, (i 0).isLt⟩
  | ⟨1, _⟩ => ⟨k.val, k.isLt⟩
/-- Row `k` of the edge weights, column `j`. -/
abbrev wcol1 (i : S8000x64.Idx) (k : Fin 64) : S64x64.Idx := fun a => match a with
  | ⟨0, _⟩ => ⟨k.val, k.isLt⟩
  | ⟨1, _⟩ => ⟨(i 1).val, (i 1).isLt⟩

/-- The body's product at an index: the narrowing is the identity on extended reals and the accumulator starts at zero, so it is the plain sum of products over the 64 inner positions. -/
theorem k1_pay1_apply (x0 : Vec Ideal S8000x64 .f32) (x1 : Vec Ideal S64x64 .f32) (i : S8000x64.Idx) :
    k1_pay1 (F := Ideal) x0 x1 i = ∑ k : Fin 64, x0 (erow1 i k) * x1 (wcol1 i k) := by
  unfold k1_pay1
  refine (Ideal.matmul_constant_zero_apply dot_S8000x64_S64x64_S8000x64_1_0_0_1_n_n none _ _ i).trans ?_
  rw [← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx i ((ValueIdx.contrEquiv1 dot_S8000x64_S64x64_S8000x64_1_0_0_1_n_n 64 rfl rfl).symm k) = erow1 i k := funext fun a => Fin.ext (by
    match a with
    | ⟨0, _⟩ => exact lhs_mm1_0 _ _
    | ⟨1, _⟩ => exact (lhs_mm1_1 _ _).trans hk)
  have er : dot_S8000x64_S64x64_S8000x64_1_0_0_1_n_n.rhsIdx i ((ValueIdx.contrEquiv1 dot_S8000x64_S64x64_S8000x64_1_0_0_1_n_n 64 rfl rfl).symm k) = wcol1 i k := funext fun a => Fin.ext (by
    match a with
    | ⟨0, _⟩ => exact (rhs_mm1_0 _ _).trans hk
    | ⟨1, _⟩ => exact rhs_mm1_1 _ _)
  rw [el, er]
  rfl

/-! ## The edge projection: the whole array as one function of the edge features and the weights -/

/-- `e @ w`: element `(n, j)` is the sum over the 64 inner positions `k` of `e (n, k) * w (k, j)`. -/
def G1 (x : FVec Ideal S800000x64 .f32) (w : FVec Ideal S64x64 .f32) : FVec Ideal S800000x64 .f32 :=
  fun i => ∑ k : Fin 64, x (ix2 (n0 := 800000) (n1 := 64) ⟨(i 0).val, (i 0).isLt⟩ k) * w (ix2 (n0 := 64) (n1 := 64) k ⟨(i 1).val, (i 1).isLt⟩)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 100 points: the row blocks of the edge features and of the output move together, one block per point; the weights stay put. -/
theorem idx_facts1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- A row block's product is the matching rows of the whole product: stated over any block contents `x0`, `x1` that agree with the arrays at the indices the sum reads. -/
theorem block_G1 (x : FVec Ideal S800000x64 .f32) (w : FVec Ideal S64x64 .f32)
    (x0 : Vec Ideal S8000x64 .f32) (x1 : Vec Ideal S64x64 .f32) (y : S8000x64.Idx) (i : S800000x64.Idx)
    (hx : ∀ k : Fin 64, x0 (erow1 y k) = x (ix2 (n0 := 800000) (n1 := 64) ⟨(i 0).val, (i 0).isLt⟩ k))
    (hw : ∀ k : Fin 64, x1 (wcol1 y k) = w (ix2 (n0 := 64) (n1 := 64) k ⟨(i 1).val, (i 1).isLt⟩)) :
    k1_pay1 (F := Ideal) x0 x1 y = G1 x w i := by
  rw [k1_pay1_apply]
  unfold G1
  exact Finset.sum_congr rfl fun k _ => by rw [hx k, hw k]

/-- What point `t` writes back is block `t` of `G1` of the arrays as the region finds them. -/
theorem flushed1_eq (c : Dev nD) (t : Fin cfg1.N) :
    (dat1 V c).flushed 2 t = ((cfg1.win 2).blk t).view.read (Elt Ideal) (G1 (V c main_arg1) (V c main_arg5)) := by
  show (cfg1.win 2).cut (grid1.coords t) ((dat1 V c).after 2 t) = _
  rw [after1_2]
  unfold out1_2
  rw [View.canon_unit_zero hz1]
  simp only [View.ld_unit_zero (S := S8000x64) hz1, View.ld_unit_zero (S := S64x64) hz1]
  obtain ⟨e0, e1, e2, e3, e4, e5⟩ := idx_facts1 t
  funext y
  show k1_pay1 (iblk1 V c 0 t) (iblk1 V c 1 t) y = G1 (V c main_arg1) (V c main_arg5) (((cfg1.win 2).blk t).view.emb y)
  refine block_G1 (V c main_arg1) (V c main_arg5) (iblk1 V c 0 t) (iblk1 V c 1 t) y (((cfg1.win 2).blk t).view.emb y) (fun k => ?_) (fun k => ?_)
  · show V c main_arg1 (((cfg1.win 0).blk t).view.emb (erow1 y k)) = _
    refine congrArg (V c main_arg1) (funext fun a => Fin.ext ?_)
    match a with
    | ⟨0, _⟩ => show win1_0.index t (0 : Fin 2) * 8000 + 1 * (y 0).val = win1_2.index t (0 : Fin 2) * 8000 + 1 * (y 0).val; omega
    | ⟨1, _⟩ => show win1_0.index t (1 : Fin 2) * 64 + 1 * k.val = k.val; omega
  · show V c main_arg5 (((cfg1.win 1).blk t).view.emb (wcol1 y k)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 64 + 1 * (y 1).val = win1_2.index t (1 : Fin 2) * 64 + 1 * (y 1).val; omega

/-- An index of the output is in point `t`'s block iff each coordinate is in the block's range on its axis. -/
theorem mem_blk1 (t : Fin cfg1.N) (i : S800000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v12).slice (win1_2.rect t)).set ↔ _
  rw [View.set_slice_whole, Rect.mem_set_unit]
  exact Iff.rfl

/-- The 100 row blocks tile the output: edge row `r` lies in the block of point `r / 8000`. -/
theorem cover1 (i : S800000x64.Idx) : ∃ t : Fin cfg1.N, (cfg1.win 2).flush t = true ∧ i ∈ ((cfg1.win 2).blk t).view.set := by
  have hi0 : (i 0).val < 800000 := (i 0).isLt
  have hi1 : (i 1).val < 64 := (i 1).isLt
  obtain ⟨t, ht⟩ : ∃ t : Fin cfg1.N, t.val = (i 0).val / 8000 := ⟨⟨(i 0).val / 8000, by show (i 0).val / 8000 < 100; omega⟩, rfl⟩
  obtain ⟨e0, e1, -⟩ := idx_facts1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- After the region the output array is `G1` of the edge features and the edge weights as the region finds them. -/
theorem final1 (c : Dev nD) : (dat1 V c).arrAt 2 cfg1.N = G1 (V c main_arg1) (V c main_arg5) :=
  (dat1 V c).arrAt_eq_of_cover 2 (G1 (V c main_arg1) (V c main_arg5)) (fun t _ => flushed1_eq V c t) cover1

end Cert.KernelIdeal.Val

end
-- ==== Proof.Val.Mat.lean ====
/-
  The two projections and the host glue around them, at the extended reals. Before the first call the host sets the
  three 64 x 64 projection weights side by side; after it, it cuts the call's 192 output columns into the query, key and
  value thirds and splits each row of 64 into 4 heads of 16; after the edge call it splits the edge projection's rows
  the same way. The first call's output is the product of the features with the concatenated weights, so its three
  thirds are the three separate products the reference computes, and the reshapes are the reference's own: the
  kernel's Q, K, V and projected edge features are the reference's stages.
-/
import proofs.«412595_j11476152615032_3_alg».proof.Proof.Val.Mat0
import proofs.«412595_j11476152615032_3_alg».proof.Proof.Val.Mat1
import proofs.«412595_j11476152615032_3_alg».proof.Proof.RefReadP
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Idealize.ShloMosaic.ValueIdx
open Idealize.ShloMosaic.Pipeline (Dat)
open scoped BigOperators
open Idealize.ShloMosaic.StableHlo

/-! ## The host glue around the two projections -/

/-- The three projection weights side by side: columns 0..63 the query weights, 64..127 the key weights, 128..191 the value weights. -/
def wqkvF (x3 x4 x6 : (⟨S64x64, .f32⟩ : BufTy).Contents (Elt Ideal)) : (⟨S64x192, .f32⟩ : BufTy).Contents (Elt Ideal) :=
  concatenate S64x192 1 [⟨S64x64, x3⟩, ⟨S64x64, x4⟩, ⟨S64x64, x6⟩] concatenates_S64x64_S64x64_S64x64_S64x192_d1

/-- Columns 0..63 of the joint projection, each row split into 4 heads of 16. -/
def qF (y : (⟨S100000x192, .f32⟩ : BufTy).Contents (Elt Ideal)) : (⟨S100000x4x16, .f32⟩ : BufTy).Contents (Elt Ideal) :=
  shapeCast S100000x4x16 (extractStridedSlice S100000x64 ![0, 0] y slices_S100000x192_S100000x64_0_0) shapeCasts_S100000x64_S100000x4x16
/-- Columns 64..127 of the joint projection, each row split into 4 heads of 16. -/
def kF (y : (⟨S100000x192, .f32⟩ : BufTy).Contents (Elt Ideal)) : (⟨S100000x4x16, .f32⟩ : BufTy).Contents (Elt Ideal) :=
  shapeCast S100000x4x16 (extractStridedSlice S100000x64 ![0, 64] y slices_S100000x192_S100000x64_0_64) shapeCasts_S100000x64_S100000x4x16
/-- Columns 128..191 of the joint projection, each row split into 4 heads of 16. -/
def vF (y : (⟨S100000x192, .f32⟩ : BufTy).Contents (Elt Ideal)) : (⟨S100000x4x16, .f32⟩ : BufTy).Contents (Elt Ideal) :=
  shapeCast S100000x4x16 (extractStridedSlice S100000x64 ![0, 128] y slices_S100000x192_S100000x64_0_128) shapeCasts_S100000x64_S100000x4x16
/-- The edge projection, each row split into 4 heads of 16. -/
def eF (y : (⟨S800000x64, .f32⟩ : BufTy).Contents (Elt Ideal)) : (⟨S800000x4x16, .f32⟩ : BufTy).Contents (Elt Ideal) :=
  shapeCast S800000x4x16 y shapeCasts_S800000x64_S800000x4x16

/-- A host operation of three operands leaves its result buffer at its function of the three operands' contents, each read at its own reference. -/
theorem nary3_result {T : Topo} {sg : RefSig} {Val : EltTy → Type} {x a b y : Ref sg .tc}
    (f : ((k : Fin 3) → ((![x, a, b] : Fin 3 → Ref sg .tc) k).ty.Contents Val) → y.ty.Contents Val) (hxs hy)
    (F : Valuation T sg Val) :
    (StableHlo.nary (τ := T) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Before the first call the host concatenates the three weights; the four operations before it (on the edge index) write other buffers. -/
theorem host0_v4 (W : Valuation τ sig (Elt Ideal)) :
    StableHlo.after hostOps0 W (Proc.devRef .tc main_v4)
      = wqkvF (W (Proc.devRef .tc main_arg3)) (W (Proc.devRef .tc main_arg4)) (W (Proc.devRef .tc main_arg6)) := by
  simp only [after_cons, after_nil]
  rw [nary3_result]
  repeat (first
    | (rw [reshape_result_ne]; rotate_left; decide)
    | (rw [unary_result_ne]; rotate_left; decide))
  rfl

/-- After the first call the host slices the query columns off its output and splits each row into heads. -/
theorem host1_v7 (W : Valuation τ sig (Elt Ideal)) :
    StableHlo.after hostOps1 W (Proc.devRef .tc main_v7) = qF (W (Proc.devRef .tc main_v5)) := by
  after_results
  rfl
/-- Likewise the key columns. -/
theorem host1_v9 (W : Valuation τ sig (Elt Ideal)) :
    StableHlo.after hostOps1 W (Proc.devRef .tc main_v9) = kF (W (Proc.devRef .tc main_v5)) := by
  after_results
  rfl
/-- Likewise the value columns. -/
theorem host1_v11 (W : Valuation τ sig (Elt Ideal)) :
    StableHlo.after hostOps1 W (Proc.devRef .tc main_v11) = vF (W (Proc.devRef .tc main_v5)) := by
  after_results
  rfl
/-- After the edge call the host splits each row of its output into heads. -/
theorem host2_v13 (W : Valuation τ sig (Elt Ideal)) :
    StableHlo.after hostOps2 W (Proc.devRef .tc main_v13) = eF (W (Proc.devRef .tc main_v12)) := by
  after_results
  rfl

/-! ## The bridges to the reference's stages -/

open Cert.ReferenceIdeal.Read

/-- The concatenated weights read in the query columns: column `c < 64` of row `k` is the query weights' `(k, c)`. -/
theorem wqkvF_q (x3 x4 x6 : (⟨S64x64, .f32⟩ : BufTy).Contents (Elt Ideal)) (k c : Fin 64) (j : S64x192.Idx)
    (h0 : (j 0).val = k.val) (h1 : (j 1).val = c.val) : wqkvF x3 x4 x6 j = x3 (ix2 k c) := by
  unfold wqkvF
  exact concatenate_apply_piece (1 : Fin S64x192.rank) ([⟨S64x64, x3⟩, ⟨S64x64, x4⟩, ⟨S64x64, x6⟩] : List ((s : Shape) × (s.Idx → Elt Ideal .f32))) concatenates_S64x64_S64x64_S64x64_S64x192_d1 j 0 (by show (0 : Nat) < 3; omega) S64x64 x3 rfl rfl 0 rfl (ix2 k c)
    (fun b hb => match b with | ⟨0, _⟩ => h0.symm | ⟨1, _⟩ => absurd rfl hb)
    (by show 0 + c.val = (j 1).val; omega)
/-- In the key columns: column `64 + c` of row `k` is the key weights' `(k, c)`. -/
theorem wqkvF_k (x3 x4 x6 : (⟨S64x64, .f32⟩ : BufTy).Contents (Elt Ideal)) (k c : Fin 64) (j : S64x192.Idx)
    (h0 : (j 0).val = k.val) (h1 : (j 1).val = 64 + c.val) : wqkvF x3 x4 x6 j = x4 (ix2 k c) := by
  unfold wqkvF
  exact concatenate_apply_piece (1 : Fin S64x192.rank) ([⟨S64x64, x3⟩, ⟨S64x64, x4⟩, ⟨S64x64, x6⟩] : List ((s : Shape) × (s.Idx → Elt Ideal .f32))) concatenates_S64x64_S64x64_S64x64_S64x192_d1 j 1 (by show (1 : Nat) < 3; omega) S64x64 x4 rfl rfl 64 rfl (ix2 k c)
    (fun b hb => match b with | ⟨0, _⟩ => h0.symm | ⟨1, _⟩ => absurd rfl hb)
    (by show 64 + c.val = (j 1).val; omega)
/-- In the value columns: column `128 + c` of row `k` is the value weights' `(k, c)`. -/
theorem wqkvF_v (x3 x4 x6 : (⟨S64x64, .f32⟩ : BufTy).Contents (Elt Ideal)) (k c : Fin 64) (j : S64x192.Idx)
    (h0 : (j 0).val = k.val) (h1 : (j 1).val = 128 + c.val) : wqkvF x3 x4 x6 j = x6 (ix2 k c) := by
  unfold wqkvF
  exact concatenate_apply_piece (1 : Fin S64x192.rank) ([⟨S64x64, x3⟩, ⟨S64x64, x4⟩, ⟨S64x64, x6⟩] : List ((s : Shape) × (s.Idx → Elt Ideal .f32))) concatenates_S64x64_S64x64_S64x64_S64x192_d1 j 2 (by show (2 : Nat) < 3; omega) S64x64 x6 rfl rfl 128 rfl (ix2 k c)
    (fun b hb => match b with | ⟨0, _⟩ => h0.symm | ⟨1, _⟩ => absurd rfl hb)
    (by show 128 + c.val = (j 1).val; omega)

/-- The query columns of the joint product are the features times the query weights: the reference's first product. -/
theorem slice_q (x0 : (⟨S100000x64, .f32⟩ : BufTy).Contents (Elt Ideal)) (x3 x4 x6 : (⟨S64x64, .f32⟩ : BufTy).Contents (Elt Ideal)) :
    extractStridedSlice S100000x64 ![0, 0] (G0 x0 (wqkvF x3 x4 x6)) slices_S100000x192_S100000x64_0_0 = val_main_v4 x0 x3 := by
  funext j
  have hj0 : (j 0).val < 100000 := (j 0).isLt
  have hj1 : (j 1).val < 64 := (j 1).isLt
  rw [val_main_v4_apply]
  refine (extractStridedSlice_apply ![0, 0] _ slices_S100000x192_S100000x64_0_0 j
    (ix2 (n0 := 100000) (n1 := 192) ⟨(j 0).val, hj0⟩ ⟨(j 1).val, by omega⟩) (fun a => match a with
    | ⟨0, _⟩ => by show (j 0).val = 0 + (j 0).val; omega
    | ⟨1, _⟩ => by show (j 1).val = 0 + (j 1).val; omega)).trans ?_
  unfold G0
  refine Finset.sum_congr rfl fun k _ => congrArg₂ (· * ·) ?_ ?_
  · exact congrArg x0 (funext fun a => match a with | ⟨0, _⟩ => rfl | ⟨1, _⟩ => rfl)
  · exact (wqkvF_q x3 x4 x6 k ⟨(j 1).val, hj1⟩ _ rfl rfl).trans
      (congrArg x3 (funext fun a => match a with | ⟨0, _⟩ => rfl | ⟨1, _⟩ => rfl))
/-- The key columns are the features times the key weights: the reference's second product. -/
theorem slice_k (x0 : (⟨S100000x64, .f32⟩ : BufTy).Contents (Elt Ideal)) (x3 x4 x6 : (⟨S64x64, .f32⟩ : BufTy).Contents (Elt Ideal)) :
    extractStridedSlice S100000x64 ![0, 64] (G0 x0 (wqkvF x3 x4 x6)) slices_S100000x192_S100000x64_0_64 = val_main_v6 x0 x4 := by
  funext j
  have hj0 : (j 0).val < 100000 := (j 0).isLt
  have hj1 : (j 1).val < 64 := (j 1).isLt
  rw [val_main_v6_apply]
  refine (extractStridedSlice_apply ![0, 64] _ slices_S100000x192_S100000x64_0_64 j
    (ix2 (n0 := 100000) (n1 := 192) ⟨(j 0).val, hj0⟩ ⟨64 + (j 1).val, by omega⟩) (fun a => match a with
    | ⟨0, _⟩ => by show (j 0).val = 0 + (j 0).val; omega
    | ⟨1, _⟩ => by show 64 + (j 1).val = 64 + (j 1).val; omega)).trans ?_
  unfold G0
  refine Finset.sum_congr rfl fun k _ => congrArg₂ (· * ·) ?_ ?_
  · exact congrArg x0 (funext fun a => match a with | ⟨0, _⟩ => rfl | ⟨1, _⟩ => rfl)
  · exact (wqkvF_k x3 x4 x6 k ⟨(j 1).val, hj1⟩ _ rfl rfl).trans
      (congrArg x4 (funext fun a => match a with | ⟨0, _⟩ => rfl | ⟨1, _⟩ => rfl))
/-- The value columns are the features times the value weights: the reference's third product. -/
theorem slice_v (x0 : (⟨S100000x64, .f32⟩ : BufTy).Contents (Elt Ideal)) (x3 x4 x6 : (⟨S64x64, .f32⟩ : BufTy).Contents (Elt Ideal)) :
    extractStridedSlice S100000x64 ![0, 128] (G0 x0 (wqkvF x3 x4 x6)) slices_S100000x192_S100000x64_0_128 = val_main_v8 x0 x6 := by
  funext j
  have hj0 : (j 0).val < 100000 := (j 0).isLt
  have hj1 : (j 1).val < 64 := (j 1).isLt
  rw [val_main_v8_apply]
  refine (extractStridedSlice_apply ![0, 128] _ slices_S100000x192_S100000x64_0_128 j
    (ix2 (n0 := 100000) (n1 := 192) ⟨(j 0).val, hj0⟩ ⟨128 + (j 1).val, by omega⟩) (fun a => match a with
    | ⟨0, _⟩ => by show (j 0).val = 0 + (j 0).val; omega
    | ⟨1, _⟩ => by show 128 + (j 1).val = 128 + (j 1).val; omega)).trans ?_
  unfold G0
  refine Finset.sum_congr rfl fun k _ => congrArg₂ (· * ·) ?_ ?_
  · exact congrArg x0 (funext fun a => match a with | ⟨0, _⟩ => rfl | ⟨1, _⟩ => rfl)
  · exact (wqkvF_v x3 x4 x6 k ⟨(j 1).val, hj1⟩ _ rfl rfl).trans
      (congrArg x6 (funext fun a => match a with | ⟨0, _⟩ => rfl | ⟨1, _⟩ => rfl))

/-- The kernel's queries (columns 0..63 of the joint product, split into heads) are the reference's. -/
theorem proj_q (x0 : (⟨S100000x64, .f32⟩ : BufTy).Contents (Elt Ideal)) (x3 x4 x6 : (⟨S64x64, .f32⟩ : BufTy).Contents (Elt Ideal)) :
    qF (G0 x0 (wqkvF x3 x4 x6)) = val_main_v5 x0 x3 := by
  unfold qF val_main_v5
  rw [slice_q]
/-- The kernel's keys (columns 64..127, split into heads) are the reference's. -/
theorem proj_k (x0 : (⟨S100000x64, .f32⟩ : BufTy).Contents (Elt Ideal)) (x3 x4 x6 : (⟨S64x64, .f32⟩ : BufTy).Contents (Elt Ideal)) :
    kF (G0 x0 (wqkvF x3 x4 x6)) = val_main_v7 x0 x4 := by
  unfold kF val_main_v7
  rw [slice_k]
/-- The kernel's values (columns 128..191, split into heads) are the reference's. -/
theorem proj_v (x0 : (⟨S100000x64, .f32⟩ : BufTy).Contents (Elt Ideal)) (x3 x4 x6 : (⟨S64x64, .f32⟩ : BufTy).Contents (Elt Ideal)) :
    vF (G0 x0 (wqkvF x3 x4 x6)) = val_main_v9 x0 x6 := by
  unfold vF val_main_v9
  rw [slice_v]

/-- The kernel's edge product is the reference's. -/
theorem G1_eq (x1 : (⟨S800000x64, .f32⟩ : BufTy).Contents (Elt Ideal)) (x5 : (⟨S64x64, .f32⟩ : BufTy).Contents (Elt Ideal)) :
    G1 x1 x5 = val_main_v10 x1 x5 := by
  funext j
  rw [val_main_v10_apply]
  unfold G1
  refine Finset.sum_congr rfl fun k _ => congrArg₂ (· * ·) ?_ ?_
  · exact congrArg x1 (funext fun a => match a with | ⟨0, _⟩ => rfl | ⟨1, _⟩ => rfl)
  · exact congrArg x5 (funext fun a => match a with | ⟨0, _⟩ => rfl | ⟨1, _⟩ => rfl)
/-- The kernel's edge projection, split into heads, is the reference's. -/
theorem proj_e (x1 : (⟨S800000x64, .f32⟩ : BufTy).Contents (Elt Ideal)) (x5 : (⟨S64x64, .f32⟩ : BufTy).Contents (Elt Ideal)) :
    eF (G1 x1 x5) = val_main_v11 x1 x5 := by
  unfold eF val_main_v11
  rw [G1_eq]

end Cert.KernelIdeal.Val

end
-- ==== Proof.Val.Take.lean ====
/-
  The edge indices and the three row gathers of the attention stage, read at the extended reals.

  The precondition's last conjunct says that every word of the [2 x 800000] edge-index array, read as a signed
  integer, lies in [0, 100000). The kernel's host code takes the source row and the target row of that array and
  reads rows of the key, query and value tables at them by a take: a negative index is first wrapped by adding the
  table's 100000 rows, the gather clamps the index it is given into the table, and a row whose wrapped index falls
  outside [0, 99999] is afterwards overwritten with a not-a-number pattern. Under the range fact no index is negative
  and none passes the table's end, so the wrap is the identity, nothing is overwritten, and each take is the plain
  gather the reference performs at the same wrapped index.
-/
import proofs.«412595_j11476152615032_3_alg».proof.Defs
import proofs.«412595_j11476152615032_3_alg».proof.Proof.Gen.KernelIdeal.Launch
import proofs.«412595_j11476152615032_3_alg».proof.Proof.Gen.Pre_finite_inputs
import proofs.«412595_j11476152615032_3_alg».proof.Proof.RefReadP
import Idealize.ShloMosaic.Lib.StableHlo.Run
import Idealize.ShloMosaic.Lib.ReduceAll
import Idealize.ShloMosaic.Lib.Affine

set_option maxRecDepth 16384

noncomputable section

namespace Cert.KernelIdeal.Val

open Cert.KernelIdeal Cert.KernelIdeal.Gen
open Idealize.ShloMosaic Idealize.ShloMosaic.TcCoe Idealize.ShloMosaic.StableHlo
open Idealize.SL.Sem

/-! ## The index range -/

/-- Every word of the edge-index array reads, as a signed integer, in [0, 100000). -/
def InRange (ei : (⟨S2x800000, .i32⟩ : BufTy).Contents (Elt Ideal)) : Prop :=
  ∀ k : S2x800000.Idx, 0 ≤ (ei k).toInt ∧ (ei k).toInt < 100000

/-- The last stretch of the printed precondition ends in the conjunct
    `all ((edge_index ≥ 0) ∧ (edge_index < 100000))`: when the whole conjunction is one, that conjunct is one, its
    reduction by `and` met only ones, and so every word passes both signed comparisons. -/
theorem inRange_of_part4 [Cert.Pre_finite_inputs.Facts] (a2 : IVec Cert.Pre_finite_inputs.S2x800000 32)
    (p q : IVec Cert.Pre_finite_inputs.S_ 1)
    (h : Cert.Pre_finite_inputs.fn_part4 (F := Ideal) a2 p q = fun _ => 1#1) : InRange a2 := by
  intro k
  have e := congrFun h (fun a => a.elim0)
  unfold Cert.Pre_finite_inputs.fn_part4 at e
  dsimp only at e
  have e3 := (IntOp.andi_eq_one.1 e).2
  have e4 := Host.reduce_andi_eq_one _ _ _ _ _ e3 k (funext fun a => a.elim0)
  obtain ⟨h0, h1⟩ := IntOp.andi_eq_one.1 e4
  have h0' : (0#32 : BitVec 32).toInt ≤ (a2 k).toInt := IntOp.cmpi_sge.1 h0
  have h1' : (a2 k).toInt < (100000#32 : BitVec 32).toInt := IntOp.cmpi_slt.1 h1
  rw [show (0#32 : BitVec 32).toInt = 0 from by decide] at h0'
  rw [show (100000#32 : BitVec 32).toInt = 100000 from by decide] at h1'
  exact ⟨h0', h1'⟩

/-- The printed precondition is one chain of conjuncts cut into stretches; its value is the last stretch's. -/
theorem inRange_of_fn [Cert.Pre_finite_inputs.Facts]
    (a0 : FVec Ideal Cert.Pre_finite_inputs.S100000x64 .f32) (a1 : FVec Ideal Cert.Pre_finite_inputs.S800000x64 .f32)
    (a2 : IVec Cert.Pre_finite_inputs.S2x800000 32)
    (a3 a4 a5 a6 : FVec Ideal Cert.Pre_finite_inputs.S64x64 .f32) (a7 : FVec Ideal Cert.Pre_finite_inputs.S64x128 .f32)
    (a8 : FVec Ideal Cert.Pre_finite_inputs.S128 .f32) (a9 : FVec Ideal Cert.Pre_finite_inputs.S128x64 .f32)
    (a10 a11 a12 a13 a14 : FVec Ideal Cert.Pre_finite_inputs.S64 .f32)
    (h : Cert.Pre_finite_inputs.fn (F := Ideal) a0 a1 a2 a3 a4 a5 a6 a7 a8 a9 a10 a11 a12 a13 a14 = fun _ => 1#1) :
    InRange a2 :=
  inRange_of_part4 a2 _ _ h

/-- From the precondition of the kernel's memory to the range of its edge-index argument, on every device. -/
theorem inRange_of_pre [Cert.Pre_finite_inputs.Facts] (m : (ℓ : Loc nD τ sig) → Buf (Elt Ideal) ℓ)
    (h : Cert.Pre_KernelIdeal m) (c : Dev nD) : InRange (m ((c.tc : Thread nD τ).loc main_arg2)) :=
  inRange_of_fn _ _ _ _ _ _ _ _ _ _ _ _ _ _ _ (h c)

/-! ## The edge-index slices -/

/-- The source row of the edge-index array, as a vector of 800000 words. -/
def srcF (x2 : (⟨S2x800000, .i32⟩ : BufTy).Contents (Elt Ideal)) : (⟨S800000, .i32⟩ : BufTy).Contents (Elt Ideal) :=
  shapeCast S800000 (extractStridedSlice S1x800000 ![0, 0] x2 slices_S2x800000_S1x800000_0_0) shapeCasts_S1x800000_S800000

/-- The target row of the edge-index array, as a vector of 800000 words. -/
def dstF (x2 : (⟨S2x800000, .i32⟩ : BufTy).Contents (Elt Ideal)) : (⟨S800000, .i32⟩ : BufTy).Contents (Elt Ideal) :=
  shapeCast S800000 (extractStridedSlice S1x800000 ![1, 0] x2 slices_S2x800000_S1x800000_1_0) shapeCasts_S1x800000_S800000

theorem host0_v1 (W : Valuation τ sig (Elt Ideal)) :
    StableHlo.after (hostOps0 (F := Ideal)) W (Proc.devRef .tc main_v1) = srcF (W (Proc.devRef .tc main_arg2)) := by
  after_results
  rfl

theorem host0_v3 (W : Valuation τ sig (Elt Ideal)) :
    StableHlo.after (hostOps0 (F := Ideal)) W (Proc.devRef .tc main_v3) = dstF (W (Proc.devRef .tc main_arg2)) := by
  after_results
  rfl

/-! ## One take -/

/-- The index a take reads at, kept as a column: a negative word is wrapped by adding the table's 100000 rows. -/
def wrapIdx (idx : (⟨S800000, .i32⟩ : BufTy).Contents (Elt Ideal)) : (⟨S800000x1, .i32⟩ : BufTy).Contents (Elt Ideal) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The rows a take keeps: those whose wrapped index lies in [0, 99999], the two comparisons conjoined and reduced by
    `and` over the column's unit axis. -/
def takeMask (idx : (⟨S800000, .i32⟩ : BufTy).Contents (Elt Ideal)) : (⟨S800000, .i1⟩ : BufTy).Contents (Elt Ideal) :=
  Host.reduce IntOp.andi
    (andi (cmpi .sge (wrapIdx idx) (broadcastInDim S800000x1 ![] bcast_S_S800000x1 (constantI S_ 32 0#32)))
      (cmpi .sle (wrapIdx idx)
        (broadcastInDim S800000x1 ![0, 1] bcast_S1x1_S800000x1_0_1 (broadcastInDim S1x1 ![1] bcast_S1_S1x1_1 (constantI S1 32 99999#32)))))
    (constantI S_ 1 1#1) reducesTo_S800000x1_S800000_d1 h_S_

/-- A take of rows of a [100000 x 4 x 16] table at 800000 indices: the gather at the wrapped indices where the mask
    keeps the row, the not-a-number pattern elsewhere. -/
def takeF (tbl : (⟨S100000x4x16, .f32⟩ : BufTy).Contents (Elt Ideal)) (idx : (⟨S800000, .i32⟩ : BufTy).Contents (Elt Ideal)) :
    (⟨S800000x4x16, .f32⟩ : BufTy).Contents (Elt Ideal) :=
  select (broadcastInDim S800000x4x16 ![0] bcast_S800000_S800000x4x16_0 (takeMask idx))
    (Host.gather gather_S100000x4x16_S800000x1_S800000x4x16_12_0_n_n_0_1_1416 tbl (wrapIdx idx))
    (broadcastInDim S800000x4x16 ![] bcast_S_S800000x4x16 (constant (F := Ideal) S_ .f32 0x7FC00000#32))

/-! ## Typed references at literal buffers

A called function's operations read and write their buffers through references that carry the tensor's type; at a
literal buffer the transport along the type equation is the identity. -/

/-- Writing a value through a typed reference and reading it back gives the value. -/
theorem ofBuf_toBuf {T : BufTy} (x : TRef sig T) (v : T.Contents (Elt Ideal)) : x.ofBuf (x.toBuf v) = v := by
  obtain ⟨r, rfl, _, _⟩ := x
  rfl

theorem ofBuf_v1 (p1 p2 p3) (v : main_v1.ty.Contents (Elt Ideal)) :
    (TRef.of (T := ⟨S800000, .i32⟩) main_v1 p1 p2 p3).ofBuf v = v := rfl
theorem ofBuf_v3 (p1 p2 p3) (v : main_v3.ty.Contents (Elt Ideal)) :
    (TRef.of (T := ⟨S800000, .i32⟩) main_v3 p1 p2 p3).ofBuf v = v := rfl
theorem ofBuf_v7 (p1 p2 p3) (v : main_v7.ty.Contents (Elt Ideal)) :
    (TRef.of (T := ⟨S100000x4x16, .f32⟩) main_v7 p1 p2 p3).ofBuf v = v := rfl
theorem ofBuf_v9 (p1 p2 p3) (v : main_v9.ty.Contents (Elt Ideal)) :
    (TRef.of (T := ⟨S100000x4x16, .f32⟩) main_v9 p1 p2 p3).ofBuf v = v := rfl
theorem ofBuf_v11 (p1 p2 p3) (v : main_v11.ty.Contents (Elt Ideal)) :
    (TRef.of (T := ⟨S100000x4x16, .f32⟩) main_v11 p1 p2 p3).ofBuf v = v := rfl
theorem toBuf_v14 (p1 p2 p3) (v : (⟨S800000x4x16, .f32⟩ : BufTy).Contents (Elt Ideal)) :
    (TRef.of (T := ⟨S800000x4x16, .f32⟩) main_v14 p1 p2 p3).toBuf v = v := rfl
theorem toBuf_v15 (p1 p2 p3) (v : (⟨S800000x4x16, .f32⟩ : BufTy).Contents (Elt Ideal)) :
    (TRef.of (T := ⟨S800000x4x16, .f32⟩) main_v15 p1 p2 p3).toBuf v = v := rfl
theorem toBuf_v16 (p1 p2 p3) (v : (⟨S800000x4x16, .f32⟩ : BufTy).Contents (Elt Ideal)) :
    (TRef.of (T := ⟨S800000x4x16, .f32⟩) main_v16 p1 p2 p3).toBuf v = v := rfl

set_option maxHeartbeats 1000000 in
/-- The keys at the edges' sources. -/
theorem host21_v14 (W : Valuation τ sig (Elt Ideal)) :
    StableHlo.after (hostOps2_1 (F := Ideal)) W (Proc.devRef .tc main_v14)
      = takeF (W (Proc.devRef .tc main_v9)) (W (Proc.devRef .tc main_v1)) := by
  after_results_simp
  simp only [ofBuf_toBuf, ofBuf_v1, ofBuf_v9, toBuf_v14]
  rfl

set_option maxHeartbeats 1000000 in
/-- The queries at the edges' targets. -/
theorem host22_v15 (W : Valuation τ sig (Elt Ideal)) :
    StableHlo.after (hostOps2_2 (F := Ideal)) W (Proc.devRef .tc main_v15)
      = takeF (W (Proc.devRef .tc main_v7)) (W (Proc.devRef .tc main_v3)) := by
  after_results_simp
  simp only [ofBuf_toBuf, ofBuf_v3, ofBuf_v7, toBuf_v15]
  rfl

set_option maxHeartbeats 1000000 in
/-- The values at the edges' sources. -/
theorem host23_v16 (W : Valuation τ sig (Elt Ideal)) :
    StableHlo.after (hostOps2_3 (F := Ideal)) W (Proc.devRef .tc main_v16)
      = takeF (W (Proc.devRef .tc main_v11)) (W (Proc.devRef .tc main_v1)) := by
  after_results_simp
  simp only [ofBuf_toBuf, ofBuf_v1, ofBuf_v11, toBuf_v16]
  rfl

/-! ## Under the range fact a take is the gather -/

/-- A vector of 800000 index words each reading, as a signed integer, in [0, 100000). -/
def RowsInRange (idx : (⟨S800000, .i32⟩ : BufTy).Contents (Elt Ideal)) : Prop :=
  ∀ e : S800000.Idx, 0 ≤ (idx e).toInt ∧ (idx e).toInt < 100000

/-- A word that is not negative is not wrapped. -/
theorem wrap_of_nonneg (w : BitVec 32) (h : 0 ≤ w.toInt) :
    Scalar.select (IntOp.cmpi .slt w 0#32) (IntOp.addi w 100000#32) w = w := by
  unfold Scalar.select
  rw [if_neg]
  intro hc
  have hlt := IntOp.cmpi_slt.1 hc
  rw [show (0#32 : BitVec 32).toInt = 0 from by decide] at hlt
  omega

/-- Each entry of the wrapped column is one of the index words, unchanged. -/
theorem wrapIdx_mem (idx : (⟨S800000, .i32⟩ : BufTy).Contents (Elt Ideal)) (hr : RowsInRange idx) (i : S800000x1.Idx) :
    ∃ e, wrapIdx idx i = idx e := by
  obtain ⟨e, he⟩ : ∃ e, wrapIdx idx i
      = Scalar.select (IntOp.cmpi .slt (idx e) 0#32) (IntOp.addi (idx e) 100000#32) (idx e) := ⟨_, rfl⟩
  exact ⟨e, he.trans (wrap_of_nonneg _ (hr e).1)⟩

/-- A fold by `and` from one over ones is one. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih fun i hi => hf i (Finset.mem_cons_of_mem hi)]
    rfl

/-- With every index in range the mask keeps every row: the wrapped word is the index word, which passes both
    comparisons, so the conjunction is one at every entry of the column and its reduction is one. -/
theorem takeMask_eq_one (idx : (⟨S800000, .i32⟩ : BufTy).Contents (Elt Ideal)) (hr : RowsInRange idx) (e : S800000.Idx) :
    takeMask idx e = 1#1 := by
  unfold takeMask
  rw [Host.reduce_eq_fold]
  refine fold_andi_one _ _ fun i _ => ?_
  obtain ⟨e', he'⟩ := wrapIdx_mem idx hr i
  show IntOp.andi (IntOp.cmpi .sge (wrapIdx idx i) 0#32) (IntOp.cmpi .sle (wrapIdx idx i) 99999#32) = 1#1
  rw [he']
  refine IntOp.andi_eq_one.2 ⟨IntOp.cmpi_sge.2 ?_, IntOp.cmpi_sle.2 ?_⟩
  · rw [show (0#32 : BitVec 32).toInt = 0 from by decide]
    exact (hr e').1
  · rw [show (99999#32 : BitVec 32).toInt = 99999 from by decide]
    have := (hr e').2
    omega

/-- So the take is the gather at the wrapped indices. -/
theorem takeF_eq_gather (tbl : (⟨S100000x4x16, .f32⟩ : BufTy).Contents (Elt Ideal))
    (idx : (⟨S800000, .i32⟩ : BufTy).Contents (Elt Ideal)) (hr : RowsInRange idx) :
    takeF tbl idx = Host.gather gather_S100000x4x16_S800000x1_S800000x4x16_12_0_n_n_0_1_1416 tbl (wrapIdx idx) := by
  funext i
  have hm : broadcastInDim S800000x4x16 ![0] bcast_S800000_S800000x4x16_0 (takeMask idx) i = 1#1 :=
    takeMask_eq_one idx hr _
  unfold takeF select
  rw [hm]
  exact if_pos rfl

/-! ## The reference's stages -/

open Cert.ReferenceIdeal.Read

/-- The kernel's source and target rows are the reference's. -/
theorem src_bridge (x2 : (⟨S2x800000, .i32⟩ : BufTy).Contents (Elt Ideal)) : srcF x2 = val_main_v1 (F := Ideal) x2 := rfl
theorem dst_bridge (x2 : (⟨S2x800000, .i32⟩ : BufTy).Contents (Elt Ideal)) : dstF x2 = val_main_v3 (F := Ideal) x2 := rfl

theorem rows_src (x2 : (⟨S2x800000, .i32⟩ : BufTy).Contents (Elt Ideal)) (hr : InRange x2) :
    RowsInRange (val_main_v1 (F := Ideal) x2) := by
  intro e
  rw [val_main_v1_apply, val_main_v0_apply]
  exact hr _

theorem rows_dst (x2 : (⟨S2x800000, .i32⟩ : BufTy).Contents (Elt Ideal)) (hr : InRange x2) :
    RowsInRange (val_main_v3 (F := Ideal) x2) := by
  intro e
  rw [val_main_v3_apply, val_main_v2_apply]
  exact hr _

attribute [local irreducible] Host.gather in
/-- The keys gathered at the sources: the reference gathers the same table at the same wrapped column. -/
theorem take_k (x0 : (⟨S100000x64, .f32⟩ : BufTy).Contents (Elt Ideal)) (x2 : (⟨S2x800000, .i32⟩ : BufTy).Contents (Elt Ideal))
    (x4 : (⟨S64x64, .f32⟩ : BufTy).Contents (Elt Ideal)) (hr : InRange x2) :
    takeF (val_main_v7 (F := Ideal) x0 x4) (val_main_v1 (F := Ideal) x2) = val_main_v18 (F := Ideal) x0 x2 x4 := by
  rw [takeF_eq_gather _ _ (rows_src x2 hr)]
  rfl

attribute [local irreducible] Host.gather in
/-- The queries gathered at the targets. -/
theorem take_q (x0 : (⟨S100000x64, .f32⟩ : BufTy).Contents (Elt Ideal)) (x2 : (⟨S2x800000, .i32⟩ : BufTy).Contents (Elt Ideal))
    (x3 : (⟨S64x64, .f32⟩ : BufTy).Contents (Elt Ideal)) (hr : InRange x2) :
    takeF (val_main_v5 (F := Ideal) x0 x3) (val_main_v3 (F := Ideal) x2) = val_main_v25 (F := Ideal) x0 x2 x3 := by
  rw [takeF_eq_gather _ _ (rows_dst x2 hr)]
  rfl

attribute [local irreducible] Host.gather in
/-- The values gathered at the sources. -/
theorem take_v (x0 : (⟨S100000x64, .f32⟩ : BufTy).Contents (Elt Ideal)) (x2 : (⟨S2x800000, .i32⟩ : BufTy).Contents (Elt Ideal))
    (x6 : (⟨S64x64, .f32⟩ : BufTy).Contents (Elt Ideal)) (hr : InRange x2) :
    takeF (val_main_v9 (F := Ideal) x0 x6) (val_main_v1 (F := Ideal) x2) = val_main_v40 (F := Ideal) x0 x2 x6 := by
  rw [takeF_eq_gather _ _ (rows_src x2 hr)]
  rfl

end Cert.KernelIdeal.Val

end
-- ==== Proof.Val.EdgeSpec.lean ====
/-
  The per-edge attention score and message of the graph-transformer layer as functions of whole arrays, index by
  index on the extended reals. For an edge e and a head h, with k, q, a the sixteen entries of the gathered key row,
  the gathered query row and the projected edge features at (e, h):
      score (e, h) = exp (min 5 (max (-5) ((sum over d of k d * q d * a d) * 1/4))),
      message (e, h, d) = v (e, h, d) * score (e, h).
  The kernel body's two payloads, read at an index of a block of 1000 edges, are these functions of the block's
  entries; and the one algebraic law the comparison with the reference needs: dividing each product k d * q d by the
  real 4 before multiplying by a d and summing is multiplying the whole sum by 1/4, on every extended real.
-/
import proofs.«412595_j11476152615032_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx
open scoped BigOperators

/-! ## The score of one edge and head -/

/-- The score from the sixteen key, query and edge-feature entries of one edge and head; the three literals are the
    body's words for 1/4, -5 and 5. -/
def scoreOf (k q a : Fin 16 → EReal) : EReal :=
  Ideal.exp (min (Ideal.ofBits .f32 0x40A00000#32) (max (Ideal.ofBits .f32 0xC0A00000#32)
    ((∑ d : Fin 16, k d * q d * a d) * Ideal.ofBits .f32 0x3E800000#32)))

/-- The scores of all edges and heads. -/
def G2score (K Q E : FVec Ideal S800000x4x16 .f32) : FVec Ideal S800000x4 .f32 := fun i =>
  scoreOf (fun d => K (ix3 (n0 := 800000) (n1 := 4) (n2 := 16) (i 0) (i 1) d))
    (fun d => Q (ix3 (n0 := 800000) (n1 := 4) (n2 := 16) (i 0) (i 1) d))
    (fun d => E (ix3 (n0 := 800000) (n1 := 4) (n2 := 16) (i 0) (i 1) d))

/-- The messages: each value entry times its edge's and head's score. -/
def G2msg (K Q E V : FVec Ideal S800000x4x16 .f32) : FVec Ideal S800000x4x16 .f32 := fun i =>
  V i * G2score K Q E (ix2 (n0 := 800000) (n1 := 4) (i 0) (i 1))

/-! ## The body's payloads at an index of a block -/

/-- The inserted index of the lane sum over the last axis of a 1000 x 4 x 16 block is (r, h, d). -/
theorem lift_blk (j : S1000x4.Idx) (d : Fin 16) :
    reduces_S1000x4x16_S1000x4.lift j d = ix3 (n0 := 1000) (n1 := 4) (n2 := 16) (j 0) (j 1) d :=
  funext fun a => Fin.ext (by match a with | ⟨0, _⟩ => rfl | ⟨1, _⟩ => rfl | ⟨2, _⟩ => rfl)

/-- The body's lane sum over the sixteen entries, at (r, h) of a block. -/
theorem laneSum_apply (v : FVec Ideal S1000x4x16 .f32) (hφ : FKind.Formats .f32)
    (hacc : (0x00000000#32 : BitVec 32) = 0x00000000#32) (j : S1000x4.Idx) :
    multiReduction (F := Ideal) .add [2] S1000x4 v 0x00000000#32 reduces_S1000x4x16_S1000x4 hφ hacc j
      = ∑ d : Fin 16, v (ix3 (n0 := 1000) (n1 := 4) (n2 := 16) (j 0) (j 1) d) :=
  (Ideal.multiReduction_add_single v 0x00000000#32 reduces_S1000x4x16_S1000x4 hφ hacc j).trans
    (Finset.sum_congr rfl fun d _ => congrArg v (lift_blk j d))

/-- The score payload at (r, h) of a block is the score of the blocks' entries at (r, h, ·). -/
theorem k2_pay1_apply (x0 x1 x2 : Vec Ideal S1000x4x16 .f32) (j : S1000x4.Idx) :
    k2_pay1 (F := Ideal) x0 x1 x2 j
      = scoreOf (fun d => x0 (ix3 (n0 := 1000) (n1 := 4) (n2 := 16) (j 0) (j 1) d))
          (fun d => x1 (ix3 (n0 := 1000) (n1 := 4) (n2 := 16) (j 0) (j 1) d))
          (fun d => x2 (ix3 (n0 := 1000) (n1 := 4) (n2 := 16) (j 0) (j 1) d)) := by
  unfold k2_pay1 scoreOf
  simp only [shapeCast_self]
  show Ideal.exp (min _ (max _ (multiReduction (F := Ideal) .add [2] S1000x4 (mulf (mulf x0 x1) x2) 0x00000000#32 reduces_S1000x4x16_S1000x4 (.inl rfl) rfl j * _))) = _
  rw [laneSum_apply]
  rfl

/-- The message payload at (r, h, d) of a block is the value entry there times the score payload at (r, h). -/
theorem k2_pay2_apply (x0 x1 x2 x3 : Vec Ideal S1000x4x16 .f32) (i : S1000x4x16.Idx) :
    k2_pay2 (F := Ideal) x0 x1 x2 x3 i
      = x3 i * k2_pay1 (F := Ideal) x0 x1 x2 (ix2 (n0 := 1000) (n1 := 4) (i 0) (i 1)) := by
  unfold k2_pay2
  simp only [shapeCast_self]
  show x3 i * broadcastTo S1000x4x16 (shapeCast S1000x4x1 (k2_pay1 (F := Ideal) x0 x1 x2) shapeCasts_S1000x4_S1000x4x1)
      broadcasts_S1000x4x1_S1000x4x16 i = _
  rw [broadcastTo_apply _ broadcasts_S1000x4x1_S1000x4x16 i (ix3 (n0 := 1000) (n1 := 4) (n2 := 1) (i 0) (i 1) 0) (fun a => by
      match a with
      | ⟨0, _⟩ => show (i 0).val = if (1000 : Nat) = 1 then 0 else (i 0).val; rw [if_neg (by decide)]
      | ⟨1, _⟩ => show (i 1).val = if (4 : Nat) = 1 then 0 else (i 1).val; rw [if_neg (by decide)]
      | ⟨2, _⟩ => show 0 = if (1 : Nat) = 1 then 0 else (i 2).val; rw [if_pos rfl]),
    shapeCast_apply _ shapeCasts_S1000x4_S1000x4x1 _ (ix2 (n0 := 1000) (n1 := 4) (i 0) (i 1)) (by
      rewrite [Shape.rowMajor_val_two, Shape.rowMajor_val_three]
      show (i 0).val * 4 + (i 1).val = ((i 0).val * 4 + (i 1).val) * 1 + 0
      omega)]

/-! ## Dividing each term by four is multiplying the sum by a quarter -/

/-- The word `0x3E800000` is the real 1/4. -/
theorem ofBits_quarter : Ideal.ofBits .f32 0x3E800000#32 = (((1 : ℝ) / 4 : ℝ) : EReal) := by
  simp [Ideal.ofBits, Ideal.ieee, -EReal.coe_mul]; norm_num

/-- The word `0x40800000` is the real 4. -/
theorem ofBits_four : Ideal.ofBits .f32 0x40800000#32 = ((4 : ℝ) : EReal) := by
  simp [Ideal.ofBits, Ideal.ieee, -EReal.coe_mul]; norm_num

/-- A real factor that is not negative distributes over a finite sum of extended reals, whatever infinities the
    terms hold: it does over a sum of two, and the sum over a finite set is built one term at a time. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- From zero, the sum over the sixteen entries of (p d / 4) * a d is (the sum of p d * a d) * 1/4, with no
    finiteness asked of p or a: division by the real 4 is multiplication by the real 1/4, which commutes to the
    front of each term and then leaves the sum. -/
theorem sum_div_four_mul (p a : Fin 16 → EReal) :
    (0 : EReal) + ∑ d : Fin 16, Ideal.div (p d) (Ideal.ofBits .f32 0x40800000#32) * a d
      = (∑ d : Fin 16, p d * a d) * Ideal.ofBits .f32 0x3E800000#32 := by
  rw [zero_add, ofBits_four, ofBits_quarter, mul_comm, coe_mul_sum _ (by norm_num)]
  refine Finset.sum_congr rfl fun d _ => ?_
  rw [Ideal.div_coe (by norm_num), mul_comm (p d), mul_assoc]

end Cert.KernelIdeal.Val

end
-- ==== Proof.Val.EdgeRef.lean ====
/-
  The reference's score and message stages are the score and the message of its gathered rows. The reference
  divides each product key * query by 4 before it multiplies by the edge feature and sums over the sixteen
  entries from zero, clips by a maximum with -5 then a minimum with 5, exponentiates, and keeps the score as an
  [E, 4, 1] array that it broadcasts along the entries for the message; the kernel multiplies the whole sum by 1/4.
  The two sums agree on every extended real (the law of the specification module), the clip's two operations take
  their arguments in the same order, and the exponential is the same function.
-/
import proofs.«412595_j11476152615032_3_alg».proof.Proof.RefReadP
import proofs.«412595_j11476152615032_3_alg».proof.Proof.Val.EdgeSpec

noncomputable section

namespace Cert.KernelIdeal.Val

open Cert.KernelIdeal Cert.KernelIdeal.Gen
open Idealize.ShloMosaic Idealize.ShloMosaic.ValueIdx
open Cert.ReferenceIdeal.Read
open scoped BigOperators

/-- The reference's lane-sum index at (e, h, 0) of its [E, 4, 1] score and entry d is (e, h, d). -/
theorem ref_lane (e : Fin 800000) (h : Fin 4) (d : Fin 16) :
    idx_main_v30 (idx_main_v31 (ix3 (n0 := 800000) (n1 := 4) (n2 := 1) e h 0)) d = ix3 (n0 := 800000) (n1 := 4) (n2 := 16) e h d :=
  funext fun a => Fin.ext (by match a with | ⟨0, _⟩ => rfl | ⟨1, _⟩ => rfl | ⟨2, _⟩ => rfl)

/-- The score of the reference's gathered key and query rows and its edge features, at (e, h), is the
    reference's exponentiated clipped score at (e, h, 0). -/
theorem edge_score (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 : (⟨S64x64, .f32⟩ : BufTy).Contents (Elt Ideal))
    (e : Fin 800000) (h : Fin 4) :
    G2score (val_main_v18 (F := Ideal) x0 x2 x4) (val_main_v25 (F := Ideal) x0 x2 x3) (val_main_v11 (F := Ideal) x1 x5) (ix2 (n0 := 800000) (n1 := 4) e h)
      = val_main_v33 (F := Ideal) x0 x1 x2 x3 x4 x5 (ix3 (n0 := 800000) (n1 := 4) (n2 := 1) e h 0) := by
  rw [val_main_v33_apply, val_main_v32_apply, val_main_call0_v4_apply, val_main_call0_v3_apply, val_main_cst_5_apply,
    val_main_call0_v2_apply, val_main_call0_v1_apply, val_main_call0_v0_apply, val_main_cst_4_apply,
    val_main_v31_apply, val_main_v30_apply, val_main_cst_3_apply]
  simp only [val_main_v29_apply, val_main_v28_apply, val_main_v26_apply, val_main_v27_apply, val_main_cst_apply, ref_lane]
  simp only [Ideal.hostUnary_exp_def, Ideal.minimumf_def, Ideal.maximumf_def, Ideal.ofBits_def, Ideal.hostDivf_def,
    Ideal.mulf_def, Ideal.ofBits_zero_f32]
  exact congrArg (fun s => Ideal.exp (min (Ideal.ofBits .f32 0x40A00000#32) (max (Ideal.ofBits .f32 0xC0A00000#32) s)))
    (sum_div_four_mul
      (fun d => val_main_v18 (F := Ideal) x0 x2 x4 (ix3 (n0 := 800000) (n1 := 4) (n2 := 16) e h d)
        * val_main_v25 (F := Ideal) x0 x2 x3 (ix3 (n0 := 800000) (n1 := 4) (n2 := 16) e h d))
      (fun d => val_main_v11 (F := Ideal) x1 x5 (ix3 (n0 := 800000) (n1 := 4) (n2 := 16) e h d))).symm

/-- The reference's broadcast of its [E, 4, 1] score along the entries reads (e, h, 0) at (e, h, d). -/
theorem ref_bcast (i : S800000x4x16.Idx) :
    idx_main_v41 i = ix3 (n0 := 800000) (n1 := 4) (n2 := 1) (i 0) (i 1) 0 :=
  funext fun a => Fin.ext (by match a with | ⟨0, _⟩ => rfl | ⟨1, _⟩ => rfl | ⟨2, _⟩ => rfl)

/-- The message of the reference's gathered rows is the reference's message stage. -/
theorem edge_msg (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal)) :
    G2msg (val_main_v18 (F := Ideal) x0 x2 x4) (val_main_v25 (F := Ideal) x0 x2 x3) (val_main_v11 (F := Ideal) x1 x5)
        (val_main_v40 (F := Ideal) x0 x2 x6)
      = val_main_v42 (F := Ideal) x0 x1 x2 x3 x4 x5 x6 := by
  funext i
  rw [val_main_v42_apply, val_main_v41_apply, ref_bcast]
  exact congrArg (val_main_v40 (F := Ideal) x0 x2 x6 i * ·) (edge_score x0 x1 x2 x3 x4 x5 (i 0) (i 1))

end Cert.KernelIdeal.Val

end
-- ==== Proof.Val.Edge.lean ====
/-
  The per-edge call's two output arrays after its 800 grid points, on the extended reals: the score array holds
  the score of every edge and head, and the message array each value entry times its edge's and head's score, as
  functions of the four input arrays the call finds (the gathered keys, the gathered queries, the projected edge
  features, the gathered values). Point t reads rows 1000 t .. 1000 t + 999 of each input and writes the same rows
  of each output; row r lies in the block of point r / 1000, so the blocks cover the arrays. With them, the two
  identities between these functions of the reference's gathered rows and the reference's own score and message
  stages.
-/
import proofs.«412595_j11476152615032_3_alg».proof.Proof.KI.Region2
import proofs.«412595_j11476152615032_3_alg».proof.Proof.Val.EdgeSpec
import proofs.«412595_j11476152615032_3_alg».proof.Proof.Val.EdgeRef
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The six windows' block indices at point t: t along the edges, zero along the heads and the lanes. -/
theorem blockIdx2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0
    ∧ win2_5.index t (0 : Fin 2) = t.val ∧ win2_5.index t (1 : Fin 2) = 0 :=
  (by decide +kernel : ∀ t : Fin grid2.N, _)

/-! ## A block's payloads are the functions of the arrays the blocks are rows of -/

/-- If three blocks are rows 1000 b .. 1000 b + 999 of the key, query and edge-feature arrays, the score payload
    at (r, h) is the score at (1000 b + r, h). -/
theorem score_block (K Q E : FVec Ideal S800000x4x16 .f32) (x0 x1 x2 : Vec Ideal S1000x4x16 .f32) (b : Nat)
    (h0 : ∀ (y : S1000x4x16.Idx) (z : S800000x4x16.Idx), (z 0).val = b * 1000 + (y 0).val → (z 1).val = (y 1).val
      → (z 2).val = (y 2).val → x0 y = K z)
    (h1 : ∀ (y : S1000x4x16.Idx) (z : S800000x4x16.Idx), (z 0).val = b * 1000 + (y 0).val → (z 1).val = (y 1).val
      → (z 2).val = (y 2).val → x1 y = Q z)
    (h2 : ∀ (y : S1000x4x16.Idx) (z : S800000x4x16.Idx), (z 0).val = b * 1000 + (y 0).val → (z 1).val = (y 1).val
      → (z 2).val = (y 2).val → x2 y = E z)
    (j : S1000x4.Idx) (i : S800000x4.Idx) (hi0 : (i 0).val = b * 1000 + (j 0).val) (hi1 : (i 1).val = (j 1).val) :
    k2_pay1 (F := Ideal) x0 x1 x2 j = G2score K Q E i := by
  rw [k2_pay1_apply]
  unfold G2score
  exact congr (congr (congrArg scoreOf (funext fun d => h0 _ _ hi0 hi1 rfl)) (funext fun d => h1 _ _ hi0 hi1 rfl))
    (funext fun d => h2 _ _ hi0 hi1 rfl)

/-- With the value block too, the message payload at (r, h, d) is the message at (1000 b + r, h, d). -/
theorem msg_block (K Q E W : FVec Ideal S800000x4x16 .f32) (x0 x1 x2 x3 : Vec Ideal S1000x4x16 .f32) (b : Nat)
    (h0 : ∀ (y : S1000x4x16.Idx) (z : S800000x4x16.Idx), (z 0).val = b * 1000 + (y 0).val → (z 1).val = (y 1).val
      → (z 2).val = (y 2).val → x0 y = K z)
    (h1 : ∀ (y : S1000x4x16.Idx) (z : S800000x4x16.Idx), (z 0).val = b * 1000 + (y 0).val → (z 1).val = (y 1).val
      → (z 2).val = (y 2).val → x1 y = Q z)
    (h2 : ∀ (y : S1000x4x16.Idx) (z : S800000x4x16.Idx), (z 0).val = b * 1000 + (y 0).val → (z 1).val = (y 1).val
      → (z 2).val = (y 2).val → x2 y = E z)
    (h3 : ∀ (y : S1000x4x16.Idx) (z : S800000x4x16.Idx), (z 0).val = b * 1000 + (y 0).val → (z 1).val = (y 1).val
      → (z 2).val = (y 2).val → x3 y = W z)
    (y : S1000x4x16.Idx) (z : S800000x4x16.Idx) (hz0 : (z 0).val = b * 1000 + (y 0).val) (hz1 : (z 1).val = (y 1).val)
    (hz2 : (z 2).val = (y 2).val) :
    k2_pay2 (F := Ideal) x0 x1 x2 x3 y = G2msg K Q E W z := by
  rw [k2_pay2_apply, h3 y z hz0 hz1 hz2]
  unfold G2msg
  exact congrArg (W z * ·) (score_block K Q E x0 x1 x2 b h0 h1 h2 _ _ hz0 hz1)

/-! ## Point t's input blocks are rows 1000 t .. 1000 t + 999 of the arrays the call finds -/

theorem keyBlock (c : Dev nD) (t : Fin cfg2.N) (y : S1000x4x16.Idx) (z : S800000x4x16.Idx)
    (hz0 : (z 0).val = t.val * 1000 + (y 0).val) (hz1 : (z 1).val = (y 1).val) (hz2 : (z 2).val = (y 2).val) :
    iblk2 V c 0 t y = V c main_v14 z := by
  obtain ⟨e0, e1, e2, -⟩ := blockIdx2 t
  show V c main_v14 (((cfg2.win 0).blk t).view.emb y) = V c main_v14 z
  refine congrArg _ (funext fun a => Fin.ext ?_)
  match a with
  | ⟨0, _⟩ => show win2_0.index t (0 : Fin 3) * 1000 + 1 * (y 0).val = (z 0).val; omega
  | ⟨1, _⟩ => show win2_0.index t (1 : Fin 3) * 4 + 1 * (y 1).val = (z 1).val; omega
  | ⟨2, _⟩ => show win2_0.index t (2 : Fin 3) * 16 + 1 * (y 2).val = (z 2).val; omega

theorem queryBlock (c : Dev nD) (t : Fin cfg2.N) (y : S1000x4x16.Idx) (z : S800000x4x16.Idx)
    (hz0 : (z 0).val = t.val * 1000 + (y 0).val) (hz1 : (z 1).val = (y 1).val) (hz2 : (z 2).val = (y 2).val) :
    iblk2 V c 1 t y = V c main_v15 z := by
  obtain ⟨-, -, -, e0, e1, e2, -⟩ := blockIdx2 t
  show V c main_v15 (((cfg2.win 1).blk t).view.emb y) = V c main_v15 z
  refine congrArg _ (funext fun a => Fin.ext ?_)
  match a with
  | ⟨0, _⟩ => show win2_1.index t (0 : Fin 3) * 1000 + 1 * (y 0).val = (z 0).val; omega
  | ⟨1, _⟩ => show win2_1.index t (1 : Fin 3) * 4 + 1 * (y 1).val = (z 1).val; omega
  | ⟨2, _⟩ => show win2_1.index t (2 : Fin 3) * 16 + 1 * (y 2).val = (z 2).val; omega

theorem edgeBlock (c : Dev nD) (t : Fin cfg2.N) (y : S1000x4x16.Idx) (z : S800000x4x16.Idx)
    (hz0 : (z 0).val = t.val * 1000 + (y 0).val) (hz1 : (z 1).val = (y 1).val) (hz2 : (z 2).val = (y 2).val) :
    iblk2 V c 2 t y = V c main_v13 z := by
  obtain ⟨-, -, -, -, -, -, e0, e1, e2, -⟩ := blockIdx2 t
  show V c main_v13 (((cfg2.win 2).blk t).view.emb y) = V c main_v13 z
  refine congrArg _ (funext fun a => Fin.ext ?_)
  match a with
  | ⟨0, _⟩ => show win2_2.index t (0 : Fin 3) * 1000 + 1 * (y 0).val = (z 0).val; omega
  | ⟨1, _⟩ => show win2_2.index t (1 : Fin 3) * 4 + 1 * (y 1).val = (z 1).val; omega
  | ⟨2, _⟩ => show win2_2.index t (2 : Fin 3) * 16 + 1 * (y 2).val = (z 2).val; omega

theorem valueBlock (c : Dev nD) (t : Fin cfg2.N) (y : S1000x4x16.Idx) (z : S800000x4x16.Idx)
    (hz0 : (z 0).val = t.val * 1000 + (y 0).val) (hz1 : (z 1).val = (y 1).val) (hz2 : (z 2).val = (y 2).val) :
    iblk2 V c 3 t y = V c main_v16 z := by
  obtain ⟨-, -, -, -, -, -, -, -, -, e0, e1, e2, -⟩ := blockIdx2 t
  show V c main_v16 (((cfg2.win 3).blk t).view.emb y) = V c main_v16 z
  refine congrArg _ (funext fun a => Fin.ext ?_)
  match a with
  | ⟨0, _⟩ => show win2_3.index t (0 : Fin 3) * 1000 + 1 * (y 0).val = (z 0).val; omega
  | ⟨1, _⟩ => show win2_3.index t (1 : Fin 3) * 4 + 1 * (y 1).val = (z 1).val; omega
  | ⟨2, _⟩ => show win2_3.index t (2 : Fin 3) * 16 + 1 * (y 2).val = (z 2).val; omega

/-! ## What point t writes back -/

/-- Point t writes back block t of the score array. -/
theorem flushedScore (c : Dev nD) (t : Fin cfg2.N) :
    (dat2 V c).flushed 5 t
      = ((cfg2.win 5).blk t).view.read (Elt Ideal) (G2score (V c main_v14) (V c main_v15) (V c main_v13)) := by
  show (cfg2.win 5).cut (grid2.coords t) ((dat2 V c).after 5 t) = _
  rw [after2_5]
  unfold out2_5
  rw [View.canon_unit_zero zeros2]
  simp only [View.ld_unit_zero (S := S1000x4x16) zeros3]
  obtain ⟨-, -, -, -, -, -, -, -, -, -, -, -, -, -, -, e0, e1⟩ := blockIdx2 t
  funext j
  show k2_pay1 (F := Ideal) (iblk2 V c 0 t) (iblk2 V c 1 t) (iblk2 V c 2 t) j
    = G2score (V c main_v14) (V c main_v15) (V c main_v13) (((cfg2.win 5).blk t).view.emb j)
  refine score_block _ _ _ _ _ _ t.val (keyBlock V c t) (queryBlock V c t) (edgeBlock V c t) j _ ?_ ?_
  · show win2_5.index t (0 : Fin 2) * 1000 + 1 * (j 0).val = t.val * 1000 + (j 0).val; omega
  · show win2_5.index t (1 : Fin 2) * 4 + 1 * (j 1).val = (j 1).val; omega

/-- Point t writes back block t of the message array. -/
theorem flushedMsg (c : Dev nD) (t : Fin cfg2.N) :
    (dat2 V c).flushed 4 t
      = ((cfg2.win 4).blk t).view.read (Elt Ideal) (G2msg (V c main_v14) (V c main_v15) (V c main_v13) (V c main_v16)) := by
  show (cfg2.win 4).cut (grid2.coords t) ((dat2 V c).after 4 t) = _
  rw [after2_4]
  unfold out2_4
  rw [View.canon_unit_zero zeros3]
  simp only [View.ld_unit_zero (S := S1000x4x16) zeros3]
  obtain ⟨-, -, -, -, -, -, -, -, -, -, -, -, e0, e1, e2, -⟩ := blockIdx2 t
  funext y
  show k2_pay2 (F := Ideal) (iblk2 V c 0 t) (iblk2 V c 1 t) (iblk2 V c 2 t) (iblk2 V c 3 t) y
    = G2msg (V c main_v14) (V c main_v15) (V c main_v13) (V c main_v16) (((cfg2.win 4).blk t).view.emb y)
  refine msg_block _ _ _ _ _ _ _ _ t.val (keyBlock V c t) (queryBlock V c t) (edgeBlock V c t) (valueBlock V c t) y _ ?_ ?_ ?_
  · show win2_4.index t (0 : Fin 3) * 1000 + 1 * (y 0).val = t.val * 1000 + (y 0).val; omega
  · show win2_4.index t (1 : Fin 3) * 4 + 1 * (y 1).val = (y 1).val; omega
  · show win2_4.index t (2 : Fin 3) * 16 + 1 * (y 2).val = (y 2).val; omega

/-! ## The blocks cover the arrays -/

/-- An index of the score array is in point t's block iff each coordinate is in the block's range on its axis. -/
theorem mem_scoreBlk (t : Fin cfg2.N) (i : S800000x4.Idx) :
    i ∈ ((cfg2.win 5).blk t).view.set
      ↔ ∀ a : Fin 2, win2_5.index t a * S1000x4.size a ≤ (i a).val ∧ (i a).val < win2_5.index t a * S1000x4.size a + S1000x4.size a := by
  show i ∈ ((View.whole main_v17_1).slice (win2_5.rect t)).set ↔ _
  rw [View.set_slice_whole, Rect.mem_set_unit]
  exact Iff.rfl

/-- The same for the message array. -/
theorem mem_msgBlk (t : Fin cfg2.N) (i : S800000x4x16.Idx) :
    i ∈ ((cfg2.win 4).blk t).view.set
      ↔ ∀ a : Fin 3, win2_4.index t a * S1000x4x16.size a ≤ (i a).val ∧ (i a).val < win2_4.index t a * S1000x4x16.size a + S1000x4x16.size a := by
  show i ∈ ((View.whole main_v17_0).slice (win2_4.rect t)).set ↔ _
  rw [View.set_slice_whole, Rect.mem_set_unit]
  exact Iff.rfl

/-- Edge r lies in the block of point r / 1000. -/
theorem pointOf (r : Nat) (hr : r < 800000) : r / 1000 < cfg2.N := by
  show r / 1000 < grid2.N
  rw [N_2]; omega

theorem coverScore (i : S800000x4.Idx) :
    ∃ t : Fin cfg2.N, (cfg2.win 5).flush t = true ∧ i ∈ ((cfg2.win 5).blk t).view.set := by
  have hi0 : (i 0).val < 800000 := (i 0).isLt
  have hi1 : (i 1).val < 4 := (i 1).isLt
  refine ⟨⟨(i 0).val / 1000, pointOf _ hi0⟩, flush2_5 _, ?_⟩
  rw [mem_scoreBlk]
  obtain ⟨-, -, -, -, -, -, -, -, -, -, -, -, -, -, -, e0, e1⟩ := blockIdx2 ⟨(i 0).val / 1000, pointOf _ hi0⟩
  have e0' : win2_5.index ⟨(i 0).val / 1000, pointOf _ hi0⟩ (0 : Fin 2) = (i 0).val / 1000 := e0
  intro a
  match a with
  | ⟨0, _⟩ =>
    show win2_5.index ⟨(i 0).val / 1000, pointOf _ hi0⟩ (0 : Fin 2) * 1000 ≤ (i 0).val
      ∧ (i 0).val < win2_5.index ⟨(i 0).val / 1000, pointOf _ hi0⟩ (0 : Fin 2) * 1000 + 1000
    omega
  | ⟨1, _⟩ =>
    show win2_5.index ⟨(i 0).val / 1000, pointOf _ hi0⟩ (1 : Fin 2) * 4 ≤ (i 1).val
      ∧ (i 1).val < win2_5.index ⟨(i 0).val / 1000, pointOf _ hi0⟩ (1 : Fin 2) * 4 + 4
    omega

theorem coverMsg (i : S800000x4x16.Idx) :
    ∃ t : Fin cfg2.N, (cfg2.win 4).flush t = true ∧ i ∈ ((cfg2.win 4).blk t).view.set := by
  have hi0 : (i 0).val < 800000 := (i 0).isLt
  have hi1 : (i 1).val < 4 := (i 1).isLt
  have hi2 : (i 2).val < 16 := (i 2).isLt
  refine ⟨⟨(i 0).val / 1000, pointOf _ hi0⟩, flush2_4 _, ?_⟩
  rw [mem_msgBlk]
  obtain ⟨-, -, -, -, -, -, -, -, -, -, -, -, e0, e1, e2, -⟩ := blockIdx2 ⟨(i 0).val / 1000, pointOf _ hi0⟩
  have e0' : win2_4.index ⟨(i 0).val / 1000, pointOf _ hi0⟩ (0 : Fin 3) = (i 0).val / 1000 := e0
  intro a
  match a with
  | ⟨0, _⟩ =>
    show win2_4.index ⟨(i 0).val / 1000, pointOf _ hi0⟩ (0 : Fin 3) * 1000 ≤ (i 0).val
      ∧ (i 0).val < win2_4.index ⟨(i 0).val / 1000, pointOf _ hi0⟩ (0 : Fin 3) * 1000 + 1000
    omega
  | ⟨1, _⟩ =>
    show win2_4.index ⟨(i 0).val / 1000, pointOf _ hi0⟩ (1 : Fin 3) * 4 ≤ (i 1).val
      ∧ (i 1).val < win2_4.index ⟨(i 0).val / 1000, pointOf _ hi0⟩ (1 : Fin 3) * 4 + 4
    omega
  | ⟨2, _⟩ =>
    show win2_4.index ⟨(i 0).val / 1000, pointOf _ hi0⟩ (2 : Fin 3) * 16 ≤ (i 2).val
      ∧ (i 2).val < win2_4.index ⟨(i 0).val / 1000, pointOf _ hi0⟩ (2 : Fin 3) * 16 + 16
    omega

/-! ## The two output arrays after the call -/

/-- The message array ends holding the messages of the four input arrays the call finds. -/
theorem final2_4 (c : Dev nD) :
    (dat2 V c).arrAt 4 cfg2.N = G2msg (V c main_v14) (V c main_v15) (V c main_v13) (V c main_v16) :=
  (dat2 V c).arrAt_eq_of_cover 4 _ (fun t _ => flushedMsg V c t) coverMsg

/-- The score array ends holding the scores of the three input arrays the call finds. -/
theorem final2_5 (c : Dev nD) :
    (dat2 V c).arrAt 5 cfg2.N = G2score (V c main_v14) (V c main_v15) (V c main_v13) :=
  (dat2 V c).arrAt_eq_of_cover 5 _ (fun t _ => flushedScore V c t) coverScore

end Cert.KernelIdeal.Val

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.Val.Scatter.lean ====
/-
  The aggregation step of the layer: the messages and the scores are summed per destination node, the summed
  messages are divided by the summed scores plus a small constant, and the quotient, laid out as one row of 64 per
  node, is added to the node features.

  The kernel's program sums the scores as a table [E × 4] into [N × 4] and then gives the result a trailing unit axis;
  the reference sums them as [E × 4 × 1] into [N × 4 × 1]. The two are read at one element: either way element (n, h)
  is the sum of the scores of head h over the edges whose destination word reads n. Everything else is the same chain
  of operations on both sides, applied to equal operands.
-/
import proofs.«412595_j11476152615032_3_alg».proof.Proof.Gen.KernelIdeal.Launch
import proofs.«412595_j11476152615032_3_alg».proof.Proof.RefReadP
import proofs.«412595_j11476152615032_3_alg».proof.Proof.LibRowGatherScatter
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

/-! ## A slab scatter-add read at one element -/

/-- Element (i, q, r) after a slab scatter-add at the extended reals: the old value plus the updates of the rows sent to `i`. -/
theorem scatterAdd_slabs {N E C D w : Nat} (d : ScatterDims ⟨3, ![N, C, D]⟩ ⟨2, ![E, 1]⟩ ⟨3, ![E, C, D]⟩)
    (huw : d.updateWindowDims = [1, 2]) (hiw : d.insertedWindowDims = [0]) (hsd : d.scatterDimsToOperandDims = [0])
    (hivd : d.indexVectorDim = 1)
    (x : (⟨3, ![N, C, D]⟩ : Shape).Idx → EReal) (idx : IVec ⟨2, ![E, 1]⟩ w) (upd : (⟨3, ![E, C, D]⟩ : Shape).Idx → EReal)
    (i : Fin N) (q : Fin C) (r : Fin D) :
    (Host.scatterAdd (F := Ideal) (φ := .f32) d x idx upd : (⟨3, ![N, C, D]⟩ : Shape).Idx → EReal) (ix3 i q r)
      = x (ix3 i q r) + ∑ e ∈ Finset.univ.filter (fun e : Fin E => (idx (ix2 e (0 : Fin 1))).toInt = (i.val : ℤ)), upd (ix3 e q r) := by
  -- the updates' one scatter axis is axis 0
  have hus : ∀ X : Fin 3, X ∈ d.uScatter → X = 0 := by
    intro X hX
    have hX' : X ∈ (⟨3, ![E, C, D]⟩ : Shape).kept [1, 2] := by rw [← huw]; exact hX
    simp [Shape.kept, List.mem_filter] at hX'
    omega
  -- the row axis starts at the row's index word read signed, with no window coordinate (it is inserted)
  have hs0 : ∀ j : (⟨3, ![E, C, D]⟩ : Shape).Idx, d.start j idx 0 = (idx (ix2 (j 0) (0 : Fin 1))).toInt := by
    intro j
    have hm : (0 : Fin 3) ∈ d.scatterDimsToOperandDims := by rw [hsd]; exact List.mem_singleton.mpr rfl
    have e0 : ∀ X : Fin 3, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 3) d.scatterDimsToOperandDims = 0
      rw [hsd]; simp
  have hw0 : ∀ j : (⟨3, ![E, C, D]⟩ : Shape).Idx, d.window j 0 = 0 := by
    intro j
    have hk : (0 : Fin 3) ∉ d.sKept := by simp [ScatterDims.sKept, Shape.kept, hiw]
    unfold ScatterDims.window
    rw [dif_neg hk]
  -- the two other axes start at 0 (the map does not name them), their window coordinates the update's own
  have hs1 : ∀ j : (⟨3, ![E, C, D]⟩ : Shape).Idx, d.start j idx 1 = 0 := by
    intro j
    have hm : (1 : Fin 3) ∉ d.scatterDimsToOperandDims := by rw [hsd]; simp
    unfold ScatterDims.start
    rw [dif_neg hm]
  have hs2 : ∀ j : (⟨3, ![E, C, D]⟩ : Shape).Idx, d.start j idx 2 = 0 := by
    intro j
    have hm : (2 : Fin 3) ∉ d.scatterDimsToOperandDims := by rw [hsd]; simp
    unfold ScatterDims.start
    rw [dif_neg hm]
  have hw1 : ∀ j : (⟨3, ![E, C, D]⟩ : Shape).Idx, d.window j 1 = (j 1).val := by
    intro j
    obtain ⟨uw, iw, sd, iv, wf⟩ := d
    dsimp only at huw hiw
    subst huw hiw
    have hk : (1 : Fin 3) ∈ (⟨3, ![N, C, D]⟩ : Shape).kept [0] := by simp [Shape.kept]
    unfold ScatterDims.window
    rw [dif_pos hk]
    rfl
  have hw2 : ∀ j : (⟨3, ![E, C, D]⟩ : Shape).Idx, d.window j 2 = (j 2).val := by
    intro j
    obtain ⟨uw, iw, sd, iv, wf⟩ := d
    dsimp only at huw hiw
    subst huw hiw
    have hk : (2 : Fin 3) ∈ (⟨3, ![N, C, D]⟩ : Shape).kept [0] := by simp [Shape.kept]
    unfold ScatterDims.window
    rw [dif_pos hk]
    rfl
  -- an update lands at (i, q, r) exactly when its row's index word reads i and its two other coordinates are q and r
  have key : ∀ j : (⟨3, ![E, C, D]⟩ : Shape).Idx, d.resultIdx? j idx = some (ix3 i q r) ↔
      (idx (ix2 (j 0) (0 : Fin 1))).toInt = (i.val : ℤ) ∧ j 1 = q ∧ j 2 = r := by
    intro j
    have l1 : (j 1).val < C := (j 1).isLt
    have l2 : (j 2).val < D := (j 2).isLt
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have h2 : (d.start j idx 2 + d.window j 2).toNat = r.val := congrArg Fin.val (congrFun hf 2)
        have r0 := (hr 0).1
        rw [hs0, hw0] at h0 r0
        rw [hs1, hw1] at h1
        rw [hs2, hw2] at h2
        exact ⟨by omega, Fin.ext (by omega), Fin.ext (by omega)⟩
      · exact absurd h (by simp)
    · rintro ⟨h0, h1, h2⟩
      have hr : ∀ a, 0 ≤ d.start j idx a + d.window j a ∧
          d.start j idx a + d.window j a < (⟨3, ![N, C, D]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          omega
        | ⟨2, _⟩ =>
          show 0 ≤ d.start j idx 2 + d.window j 2 ∧ d.start j idx 2 + d.window j 2 < (D : ℤ)
          rw [hs2, hw2]
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
      | ⟨2, _⟩ =>
        apply Fin.ext
        show (d.start j idx 2 + d.window j 2).toNat = r.val
        rw [hs2, hw2, ← h2]
        omega
  show Ideal.hostScatterAdd d x idx upd (ix3 i q r) = _
  unfold Ideal.hostScatterAdd
  congr 1
  -- re-index the updates landing at (i, q, r) by their row
  refine Finset.sum_bij' (fun j _ => (j 0 : Fin E)) (fun e _ => ix3 e q r) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl, rfl⟩⟩
  · intro j hj
    obtain ⟨-, hq, hr⟩ := (key j).1 (Finset.mem_filter.1 hj).2
    rw [← hq, ← hr]
    exact (eq_ix3 j).symm
  · intro e _
    rfl
  · intro j hj
    obtain ⟨-, hq, hr⟩ := (key j).1 (Finset.mem_filter.1 hj).2
    rw [← hq, ← hr]
    exact congrArg upd (eq_ix3 j)

/-! ## The aggregation as one function -/

/-- The destination words as a column of row indices. -/
def dstCol (dst : (⟨S800000, .i32⟩ : BufTy).Contents (Elt Ideal)) : (⟨S800000x1, .i32⟩ : BufTy).Contents (Elt Ideal) :=
  broadcastInDim S800000x1 ![0] bcast_S800000_S800000x1_0 dst

/-- The messages summed per destination node. -/
def wVF (msg : (⟨S800000x4x16, .f32⟩ : BufTy).Contents (Elt Ideal)) (dst : (⟨S800000, .i32⟩ : BufTy).Contents (Elt Ideal)) :
    (⟨S100000x4x16, .f32⟩ : BufTy).Contents (Elt Ideal) :=
  Host.scatterAdd (F := Ideal) scatter_S100000x4x16_S800000x1_S800000x4x16_12_0_0_1
    (broadcastInDim S100000x4x16 ![] bcast_S_S100000x4x16 (constant (F := Ideal) S_ .f32 0x00000000#32)) (dstCol dst) msg

/-- The scores summed per destination node and head. -/
def zF (score : (⟨S800000x4, .f32⟩ : BufTy).Contents (Elt Ideal)) (dst : (⟨S800000, .i32⟩ : BufTy).Contents (Elt Ideal)) :
    (⟨S100000x4, .f32⟩ : BufTy).Contents (Elt Ideal) :=
  Host.scatterAdd (F := Ideal) scatter_S100000x4_S800000x1_S800000x4_1_0_0_1
    (broadcastInDim S100000x4 ![] bcast_S_S100000x4 (constant (F := Ideal) S_ .f32 0x00000000#32)) (dstCol dst) score

/-- The summed scores with a trailing unit axis. -/
def zCol (score : (⟨S800000x4, .f32⟩ : BufTy).Contents (Elt Ideal)) (dst : (⟨S800000, .i32⟩ : BufTy).Contents (Elt Ideal)) :
    (⟨S100000x4x1, .f32⟩ : BufTy).Contents (Elt Ideal) :=
  broadcastInDim S100000x4x1 ![0, 1] bcast_S100000x4_S100000x4x1_0_1 (zF score dst)

/-- The quotient of summed messages by the summed scores plus the small constant, one row of 64 per node, added to the features. -/
def hOf (x : (⟨S100000x64, .f32⟩ : BufTy).Contents (Elt Ideal)) (wV : (⟨S100000x4x16, .f32⟩ : BufTy).Contents (Elt Ideal))
    (z : (⟨S100000x4x1, .f32⟩ : BufTy).Contents (Elt Ideal)) : (⟨S100000x64, .f32⟩ : BufTy).Contents (Elt Ideal) :=
  addf (F := Ideal) x (shapeCast S100000x64
    (Host.divf (F := Ideal) wV
      (broadcastInDim S100000x4x16 ![0, 1, 2] bcast_S100000x4x1_S100000x4x16_0_1_2
        (addf (F := Ideal) z (broadcastInDim S100000x4x1 ![] bcast_S_S100000x4x1 (constant (F := Ideal) S_ .f32 0x358637BD#32)))))
    shapeCasts_S100000x4x16_S100000x64)

/-- The node features after the aggregation, from the features, the messages, the scores and the destination words. -/
def hF (x : (⟨S100000x64, .f32⟩ : BufTy).Contents (Elt Ideal)) (msg : (⟨S800000x4x16, .f32⟩ : BufTy).Contents (Elt Ideal))
    (score : (⟨S800000x4, .f32⟩ : BufTy).Contents (Elt Ideal)) (dst : (⟨S800000, .i32⟩ : BufTy).Contents (Elt Ideal)) :
    (⟨S100000x64, .f32⟩ : BufTy).Contents (Elt Ideal) :=
  hOf x (wVF msg dst) (zCol score dst)

/-- The host stretch after the score region leaves `hF` of the features, the region's two results and the destination words. -/
theorem host3_v30 (W : Valuation τ sig (Elt Ideal)) :
    StableHlo.after hostOps3 W (Proc.devRef .tc main_v30)
      = hF (W (Proc.devRef .tc main_arg0)) (W (Proc.devRef .tc main_v17_0)) (W (Proc.devRef .tc main_v17_1)) (W (Proc.devRef .tc main_v3)) := by
  after_results_simp
  rfl

/-! ## The summed scores, either way round -/

section Bridge

variable (x0 : (⟨Cert.ReferenceIdeal.S100000x64, .f32⟩ : BufTy).Contents (Elt Ideal))
  (x1 : (⟨Cert.ReferenceIdeal.S800000x64, .f32⟩ : BufTy).Contents (Elt Ideal))
  (x2 : (⟨Cert.ReferenceIdeal.S2x800000, .i32⟩ : BufTy).Contents (Elt Ideal))
  (x3 x4 x5 x6 : (⟨Cert.ReferenceIdeal.S64x64, .f32⟩ : BufTy).Contents (Elt Ideal))

/-- Scores that agree element by element with the reference's [E × 4 × 1] scores sum, per destination node and head,
    to the reference's summed scores: element (n, h, 0) is on both sides the sum of the scores of head h over the edges
    whose destination word reads n. -/
theorem z_bridge (S : FVec Ideal S800000x4 .f32)
    (hS : ∀ (e : Fin 800000) (h : Fin 4), S (ix2 e h) = Cert.ReferenceIdeal.Read.val_main_v33 x0 x1 x2 x3 x4 x5 (ix3 e h 0)) :
    zCol S (Cert.ReferenceIdeal.Read.val_main_v3 x2) = Cert.ReferenceIdeal.Read.val_main_v48 x0 x1 x2 x3 x4 x5 := by
  funext j
  obtain ⟨n, h, z, rfl⟩ : ∃ (n : Fin 100000) (h : Fin 4) (z : Fin 1), j = ix3 n h z := ⟨j 0, j 1, j 2, eq_ix3 j⟩
  obtain rfl : z = 0 := Subsingleton.elim _ _
  -- the trailing unit axis reads the table at (n, h)
  have hl : zCol S (Cert.ReferenceIdeal.Read.val_main_v3 x2) (ix3 n h 0)
      = zF S (Cert.ReferenceIdeal.Read.val_main_v3 x2) (ix2 n h) := by
    unfold zCol
    exact broadcastInDim_apply _ bcast_S100000x4_S100000x4x1_0_1 _ (ix3 n h 0) (ix2 n h) (fun a => match a with
      | ⟨0, _⟩ => by show n.val = if (100000 : Nat) = 1 then 0 else n.val; rw [if_neg (by decide)]
      | ⟨1, _⟩ => by show h.val = if (4 : Nat) = 1 then 0 else h.val; rw [if_neg (by decide)])
  rw [hl]
  unfold zF Cert.ReferenceIdeal.Read.val_main_v48
  refine (Cert.Gcn.scatterAdd_rows scatter_S100000x4_S800000x1_S800000x4_1_0_0_1 rfl rfl rfl rfl _ _ _ n h).trans ?_
  refine Eq.trans ?_ (scatterAdd_slabs Cert.ReferenceIdeal.scatter_S100000x4x1_S800000x1_S800000x4x1_12_0_0_1 rfl rfl rfl rfl _ _ _ n h 0).symm
  refine congrArg₂ (· + ·) rfl ?_
  exact Finset.sum_congr rfl (fun e _ => hS e h)

/-- The aggregation of the reference's messages and of scores that agree with the reference's is the reference's. -/
theorem h_bridge (S : FVec Ideal S800000x4 .f32)
    (hS : ∀ (e : Fin 800000) (h : Fin 4), S (ix2 e h) = Cert.ReferenceIdeal.Read.val_main_v33 x0 x1 x2 x3 x4 x5 (ix3 e h 0)) :
    hF x0 (Cert.ReferenceIdeal.Read.val_main_v42 x0 x1 x2 x3 x4 x5 x6) S (Cert.ReferenceIdeal.Read.val_main_v3 x2)
      = Cert.ReferenceIdeal.Read.val_main_v54 x0 x1 x2 x3 x4 x5 x6 := by
  unfold hF
  rw [z_bridge x0 x1 x2 x3 x4 x5 S hS]
  rfl

end Bridge

end Cert.KernelIdeal.Val

end
-- ==== Proof.Val.FfnFn.lean ====
/-
  The feed-forward call as a function. Per row of 64 features: normalise the row with the batch statistics, scale
  and shift it (the first batch-norm affine), and add to the result the two-layer feed-forward of it: a 64 x 128
  product plus a bias, the positive part, a 128 x 64 product plus a bias. Stated for any number of rows, so that
  one definition reads both a block of rows and the whole array.
-/
import Idealize.ShloMosaic.Lib.ValueIdx
import Idealize.ShloMosaic.PureOps.Ideal.Laws

noncomputable section

namespace Cert.KernelIdeal.Val

open Idealize.ShloMosaic Idealize.ShloMosaic.ValueIdx

/-- The first batch-norm affine of row `n` at feature `j`: the entry less the mean, times the reciprocal square
    root of the variance plus epsilon, times the scale, plus the shift. -/
def bnRow {R : Nat} (h : FVec Ideal ⟨2, ![R, 64]⟩ .f32) (mu var g be : FVec Ideal ⟨2, ![1, 64]⟩ .f32)
    (n : Fin R) (j : Fin 64) : EReal :=
  (h (ix2 n j) - mu (ix2 (0 : Fin 1) j)) * Ideal.rsqrt (var (ix2 (0 : Fin 1) j) + Ideal.ofBits .f32 0x3727C5AC#32)
    * g (ix2 (0 : Fin 1) j) + be (ix2 (0 : Fin 1) j)

/-- The hidden layer of row `n` at unit `k`: the positive part of the normalised row times the first weight
    matrix's column `k`, plus the first bias. -/
def hidRow {R : Nat} (h : FVec Ideal ⟨2, ![R, 64]⟩ .f32) (mu var g be : FVec Ideal ⟨2, ![1, 64]⟩ .f32)
    (W1 : FVec Ideal ⟨2, ![64, 128]⟩ .f32) (b1 : FVec Ideal ⟨2, ![1, 128]⟩ .f32) (n : Fin R) (k : Fin 128) : EReal :=
  max ((∑ a : Fin 64, bnRow h mu var g be n a * W1 (ix2 a k)) + b1 (ix2 (0 : Fin 1) k)) 0

/-- The call's output: the normalised row plus its feed-forward (the second product plus the second bias). -/
def ffnRows {R : Nat} (h : FVec Ideal ⟨2, ![R, 64]⟩ .f32) (mu var g be : FVec Ideal ⟨2, ![1, 64]⟩ .f32)
    (W1 : FVec Ideal ⟨2, ![64, 128]⟩ .f32) (b1 : FVec Ideal ⟨2, ![1, 128]⟩ .f32)
    (W2 : FVec Ideal ⟨2, ![128, 64]⟩ .f32) (b2 : FVec Ideal ⟨2, ![1, 64]⟩ .f32) : FVec Ideal ⟨2, ![R, 64]⟩ .f32 :=
  fun i => bnRow h mu var g be (i 0) (i 1)
    + ((∑ k : Fin 128, hidRow h mu var g be W1 b1 (i 0) k * W2 (ix2 k (i 1))) + b2 (ix2 (0 : Fin 1) (i 1)))

/-- The feed-forward call's output array, all 100000 rows: a function of the residual stream, the batch statistics
    as rows, and the parameters. -/
def G3 (h : FVec Ideal ⟨2, ![100000, 64]⟩ .f32) (mu var g be : FVec Ideal ⟨2, ![1, 64]⟩ .f32)
    (W1 : FVec Ideal ⟨2, ![64, 128]⟩ .f32) (b1 : FVec Ideal ⟨2, ![1, 128]⟩ .f32)
    (W2 : FVec Ideal ⟨2, ![128, 64]⟩ .f32) (b2 : FVec Ideal ⟨2, ![1, 64]⟩ .f32) : FVec Ideal ⟨2, ![100000, 64]⟩ .f32 :=
  ffnRows (R := 100000) h mu var g be W1 b1 W2 b2

end Cert.KernelIdeal.Val

end
-- ==== Proof.Val.FfnPay.lean ====
/-
  The feed-forward call's body, read at an index: the value the body stores — the normalised block plus its
  two-layer feed-forward — is the call's function (`ffnRows`, at 5000 rows) of the loaded blocks. Each of the two
  matrix products accumulates from zero, so at an index it is the plain sum over the contracted axis; narrowing
  an operand to bf16 changes nothing at the extended reals.
-/
import proofs.«412595_j11476152615032_3_alg».proof.Proof.Gen.KernelIdeal.Skeleton
import proofs.«412595_j11476152615032_3_alg».proof.Proof.Val.FfnFn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx Idealize.SL.Sem

/-! ## The body's two matrix products at an index -/

theorem lhs_D1_0 (i : S5000x128.Idx) (q : (dot_S5000x64_S64x128_S5000x128_1_0_0_1_n_n).contr.Idx) :
    ((dot_S5000x64_S64x128_S5000x128_1_0_0_1_n_n).lhsIdx i q 0).val = (i 0).val := by
  unfold DotDims.lhsIdx
  rw [dif_neg (show ¬(0 : Fin S5000x64.rank) ∈ (dot_S5000x64_S64x128_S5000x128_1_0_0_1_n_n).lhsBatch by decide), dif_pos (show (0 : Fin S5000x64.rank) ∈ (dot_S5000x64_S64x128_S5000x128_1_0_0_1_n_n).lhsNonContracting by decide)]
  rfl
theorem lhs_D1_1 (i : S5000x128.Idx) (q : (dot_S5000x64_S64x128_S5000x128_1_0_0_1_n_n).contr.Idx) :
    ((dot_S5000x64_S64x128_S5000x128_1_0_0_1_n_n).lhsIdx i q 1).val = (q ⟨0, by decide⟩).val :=
  (dot_S5000x64_S64x128_S5000x128_1_0_0_1_n_n).lhsIdx_val_of_single rfl i q
theorem rhs_D1_0 (i : S5000x128.Idx) (q : (dot_S5000x64_S64x128_S5000x128_1_0_0_1_n_n).contr.Idx) :
    ((dot_S5000x64_S64x128_S5000x128_1_0_0_1_n_n).rhsIdx i q 0).val = (q ⟨0, by decide⟩).val :=
  (dot_S5000x64_S64x128_S5000x128_1_0_0_1_n_n).rhsIdx_val_of_single rfl i q
theorem rhs_D1_1 (i : S5000x128.Idx) (q : (dot_S5000x64_S64x128_S5000x128_1_0_0_1_n_n).contr.Idx) :
    ((dot_S5000x64_S64x128_S5000x128_1_0_0_1_n_n).rhsIdx i q 1).val = (i 1).val := by
  unfold DotDims.rhsIdx
  rw [dif_neg (show ¬(1 : Fin S64x128.rank) ∈ (dot_S5000x64_S64x128_S5000x128_1_0_0_1_n_n).rhsBatch by decide), dif_pos (show (1 : Fin S64x128.rank) ∈ (dot_S5000x64_S64x128_S5000x128_1_0_0_1_n_n).rhsNonContracting by decide)]
  rfl

/-- The first product into the zero accumulator, at row `p` and unit `k`: the sum over the 64 features. -/
theorem matmul_D1_apply (A : FVec Ideal S5000x64 .bf16) (B : FVec Ideal S64x128 .bf16) (p : Fin 5000) (k : Fin 128) :
    matmul dot_S5000x64_S64x128_S5000x128_1_0_0_1_n_n none A B (constant S5000x128 .f32 0x00000000#32) (ix2 p k)
      = ∑ a : Fin 64, A (ix2 p a) * B (ix2 a k) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun a _ => ?_
  have ha := ValueIdx.contrEquiv1_symm_val dot_S5000x64_S64x128_S5000x128_1_0_0_1_n_n 64 rfl rfl a
  have el : (dot_S5000x64_S64x128_S5000x128_1_0_0_1_n_n).lhsIdx (ix2 p k) ((ValueIdx.contrEquiv1 dot_S5000x64_S64x128_S5000x128_1_0_0_1_n_n 64 rfl rfl).symm a) = ix2 p a := funext fun x => Fin.ext (by
    match x with
    | ⟨0, _⟩ => exact lhs_D1_0 _ _
    | ⟨1, _⟩ => exact (lhs_D1_1 _ _).trans ha)
  have er : (dot_S5000x64_S64x128_S5000x128_1_0_0_1_n_n).rhsIdx (ix2 p k) ((ValueIdx.contrEquiv1 dot_S5000x64_S64x128_S5000x128_1_0_0_1_n_n 64 rfl rfl).symm a) = ix2 a k := funext fun x => Fin.ext (by
    match x with
    | ⟨0, _⟩ => exact (rhs_D1_0 _ _).trans ha
    | ⟨1, _⟩ => exact rhs_D1_1 _ _)
  rw [el, er]

theorem lhs_D2_0 (i : S5000x64.Idx) (q : (dot_S5000x128_S128x64_S5000x64_1_0_0_1_n_n).contr.Idx) :
    ((dot_S5000x128_S128x64_S5000x64_1_0_0_1_n_n).lhsIdx i q 0).val = (i 0).val := by
  unfold DotDims.lhsIdx
  rw [dif_neg (show ¬(0 : Fin S5000x128.rank) ∈ (dot_S5000x128_S128x64_S5000x64_1_0_0_1_n_n).lhsBatch by decide), dif_pos (show (0 : Fin S5000x128.rank) ∈ (dot_S5000x128_S128x64_S5000x64_1_0_0_1_n_n).lhsNonContracting by decide)]
  rfl
theorem lhs_D2_1 (i : S5000x64.Idx) (q : (dot_S5000x128_S128x64_S5000x64_1_0_0_1_n_n).contr.Idx) :
    ((dot_S5000x128_S128x64_S5000x64_1_0_0_1_n_n).lhsIdx i q 1).val = (q ⟨0, by decide⟩).val :=
  (dot_S5000x128_S128x64_S5000x64_1_0_0_1_n_n).lhsIdx_val_of_single rfl i q
theorem rhs_D2_0 (i : S5000x64.Idx) (q : (dot_S5000x128_S128x64_S5000x64_1_0_0_1_n_n).contr.Idx) :
    ((dot_S5000x128_S128x64_S5000x64_1_0_0_1_n_n).rhsIdx i q 0).val = (q ⟨0, by decide⟩).val :=
  (dot_S5000x128_S128x64_S5000x64_1_0_0_1_n_n).rhsIdx_val_of_single rfl i q
theorem rhs_D2_1 (i : S5000x64.Idx) (q : (dot_S5000x128_S128x64_S5000x64_1_0_0_1_n_n).contr.Idx) :
    ((dot_S5000x128_S128x64_S5000x64_1_0_0_1_n_n).rhsIdx i q 1).val = (i 1).val := by
  unfold DotDims.rhsIdx
  rw [dif_neg (show ¬(1 : Fin S128x64.rank) ∈ (dot_S5000x128_S128x64_S5000x64_1_0_0_1_n_n).rhsBatch by decide), dif_pos (show (1 : Fin S128x64.rank) ∈ (dot_S5000x128_S128x64_S5000x64_1_0_0_1_n_n).rhsNonContracting by decide)]
  rfl

/-- The second product into the zero accumulator, at row `p` and feature `q`: the sum over the 128 hidden units. -/
theorem matmul_D2_apply (A : FVec Ideal S5000x128 .bf16) (B : FVec Ideal S128x64 .bf16) (p : Fin 5000) (q : Fin 64) :
    matmul dot_S5000x128_S128x64_S5000x64_1_0_0_1_n_n none A B (constant S5000x64 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : (dot_S5000x128_S128x64_S5000x64_1_0_0_1_n_n).lhsIdx (ix2 p q) ((ValueIdx.contrEquiv1 dot_S5000x128_S128x64_S5000x64_1_0_0_1_n_n 128 rfl rfl).symm k) = ix2 p k := funext fun x => Fin.ext (by
    match x with
    | ⟨0, _⟩ => exact lhs_D2_0 _ _
    | ⟨1, _⟩ => exact (lhs_D2_1 _ _).trans hk)
  have er : (dot_S5000x128_S128x64_S5000x64_1_0_0_1_n_n).rhsIdx (ix2 p q) ((ValueIdx.contrEquiv1 dot_S5000x128_S128x64_S5000x64_1_0_0_1_n_n 128 rfl rfl).symm k) = ix2 k q := funext fun x => Fin.ext (by
    match x with
    | ⟨0, _⟩ => exact (rhs_D2_0 _ _).trans hk
    | ⟨1, _⟩ => exact rhs_D2_1 _ _)
  rw [el, er]

/-! ## The body's payloads at an index -/

/-- The normalised block at row `p`, feature `q`. -/
theorem pay2_apply (x0 : Vec Ideal S5000x64 .f32) (x1 x2 x3 x4 : Vec Ideal S1x64 .f32) (p : Fin 5000) (q : Fin 64) :
    k3_pay2 x0 x1 x2 x3 x4 (ix2 p q) = bnRow (R := 5000) x0 x1 x2 x3 x4 p q := by
  unfold k3_pay2 bnRow
  simp only [shapeCast_self]
  rw [addf_apply, mulf_apply, mulf_apply, subf_apply, broadcastTo_1b_ab_apply, broadcastTo_1b_ab_apply,
    broadcastTo_1b_ab_apply, broadcastTo_1b_ab_apply]
  rfl

/-- The feed-forward block before its last bias, at row `p`, feature `q`. -/
theorem pay3_apply (x0 : Vec Ideal S5000x64 .f32) (x1 x2 x3 x4 : Vec Ideal S1x64 .f32) (x5 : Vec Ideal S64x128 .f32)
    (x6 : Vec Ideal S1x128 .f32) (x7 : Vec Ideal S128x64 .f32) (p : Fin 5000) (q : Fin 64) :
    k3_pay3 x0 x1 x2 x3 x4 x5 x6 x7 (ix2 p q)
      = ∑ k : Fin 128, hidRow (R := 5000) x0 x1 x2 x3 x4 x5 x6 p k * x7 (ix2 k q) := by
  unfold k3_pay3
  simp only [shapeCast_self]
  rw [matmul_D2_apply]
  refine Finset.sum_congr rfl fun k _ => ?_
  rw [truncf_apply, truncf_apply, maximumf_apply, addf_apply, matmul_D1_apply, broadcastTo_1b_ab_apply, broadcast_apply]
  unfold hidRow
  simp only [truncf_apply, pay2_apply]
  rw [show Scalar.ofBits (F := Ideal) .f32 0x00000000#32 = (0 : EReal) from Ideal.ofBits_zero_f32]

/-- The stored block at an index: the call's function of the loaded blocks. -/
theorem payload_apply (x0 : Vec Ideal S5000x64 .f32) (x1 x2 x3 x4 : Vec Ideal S1x64 .f32) (x5 : Vec Ideal S64x128 .f32)
    (x6 : Vec Ideal S1x128 .f32) (x7 : Vec Ideal S128x64 .f32) (x8 : Vec Ideal S1x64 .f32) (i : S5000x64.Idx) :
    k3_pay1 (k3_pay2 x0 x1 x2 x3 x4) (k3_pay3 x0 x1 x2 x3 x4 x5 x6 x7) (k3_pay4 x8) i
      = ffnRows (R := 5000) x0 x1 x2 x3 x4 x5 x6 x7 x8 i := by
  obtain ⟨p, q, rfl⟩ : ∃ (p : Fin 5000) (q : Fin 64), i = ix2 p q := ⟨i 0, i 1, eq_ix2 i⟩
  unfold k3_pay1 k3_pay4 ffnRows
  simp only [shapeCast_self]
  rw [addf_apply, addf_apply, broadcastTo_1b_ab_apply, pay2_apply, pay3_apply]

end Cert.KernelIdeal.Val

end
-- ==== Proof.Val.Ffn.lean ====
/-
  The feed-forward call's output array. Point `t` of the call's 20 grid points loads rows 5000 t ... 5000 t + 4999
  of the residual stream and every parameter array whole, and writes back the call's function of them as the same
  rows of the output. Those row blocks are restrictions of one function of the whole arrays (`G3`: a row of the
  output depends on the same row of the input only), and they tile the 100000 rows, so the array ends at `G3`.
-/
import proofs.«412595_j11476152615032_3_alg».proof.Proof.KI.Region3
import proofs.«412595_j11476152615032_3_alg».proof.Proof.Val.FfnPay
import Idealize.ShloMosaic.Lib.Pipeline.Value

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

-- the TensorCore's buffer contents when the call is entered
variable (V : (c : Dev nD) → (b : Ref sig .tc) → Buf (Elt Ideal) ((c : Thread nD τ).loc b))

/-! ## A block of rows of the function -/

/-- The function of a 5000-row block is the function of the whole array on those rows: a row of the output reads
    the same row of the input (`hrow`) and the parameters only. -/
theorem ffnRows_rows (H : FVec Ideal ⟨2, ![100000, 64]⟩ .f32) (hb : FVec Ideal ⟨2, ![5000, 64]⟩ .f32)
    (mu var g be : FVec Ideal ⟨2, ![1, 64]⟩ .f32) (W1 : FVec Ideal ⟨2, ![64, 128]⟩ .f32) (b1 : FVec Ideal ⟨2, ![1, 128]⟩ .f32)
    (W2 : FVec Ideal ⟨2, ![128, 64]⟩ .f32) (b2 : FVec Ideal ⟨2, ![1, 64]⟩ .f32)
    (j : (⟨2, ![5000, 64]⟩ : Shape).Idx) (i : (⟨2, ![100000, 64]⟩ : Shape).Idx)
    (hrow : ∀ a : Fin 64, hb (ix2 (j 0) a) = H (ix2 (i 0) a)) (hcol : j 1 = i 1) :
    ffnRows hb mu var g be W1 b1 W2 b2 j = G3 H mu var g be W1 b1 W2 b2 i := by
  unfold G3 ffnRows hidRow bnRow
  rw [hrow (j 1)]
  simp only [hrow]
  rw [hcol]

/-! ## The schedule -/

theorem zero_off : (![0, 0] : Fin 2 → Nat) = fun _ => 0 := funext fun a => by fin_cases a <;> rfl

/-- The printed index maps, decided over the 20 grid points: the row-block windows (the residual stream in, the
    output) sit at block (t, 0); each parameter window stays at block (0, 0). -/
theorem index_facts3 : ∀ t : Fin cfg3.N,
    (win3_0.index t (0 : Fin 2) = t.val ∧ win3_0.index t (1 : Fin 2) = 0)
    ∧ (win3_9.index t (0 : Fin 2) = t.val ∧ win3_9.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

/-! ## The input blocks read off their arrays -/

/-- The residual stream's block at point `t` is its rows 5000 t ... 5000 t + 4999. -/
theorem blk3_0_apply (c : Dev nD) (t : Fin cfg3.N) (y : S5000x64.Idx) (k : S100000x64.Idx)
    (hk0 : (k 0).val = 5000 * t.val + (y 0).val) (hk1 : (k 1).val = (y 1).val) :
    (iblk3 V c 0 t : Vec Ideal S5000x64 .f32) y = (V c main_v30 : S100000x64.Idx → Elt Ideal .f32) k := by
  obtain ⟨e0, e1⟩ := (index_facts3 t).1
  show V c main_v30 (((cfg3.win 0).blk t).view.emb y) = V c main_v30 k
  refine congrArg (V c main_v30) (funext fun a => Fin.ext ?_)
  match a with
  | ⟨0, _⟩ => show win3_0.index t (0 : Fin 2) * 5000 + 1 * (y 0).val = (k 0).val; rw [e0, hk0]; omega
  | ⟨1, _⟩ => show win3_0.index t (1 : Fin 2) * 64 + 1 * (y 1).val = (k 1).val; rw [e1, hk1]; omega

/-- Each parameter window's block, at every point, is its whole array. -/
theorem blk3_1 (c : Dev nD) (t : Fin cfg3.N) :
    (iblk3 V c 1 t : Vec Ideal S1x64 .f32) = (V c main_v41 : S1x64.Idx → Elt Ideal .f32) := by
  obtain ⟨e0, e1⟩ := (index_facts3 t).2.2.1
  funext y
  show V c main_v41 (((cfg3.win 1).blk t).view.emb y) = V c main_v41 y
  refine congrArg (V c main_v41) (funext fun a => Fin.ext ?_)
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega
theorem blk3_2 (c : Dev nD) (t : Fin cfg3.N) :
    (iblk3 V c 2 t : Vec Ideal S1x64 .f32) = (V c main_v42 : S1x64.Idx → Elt Ideal .f32) := by
  obtain ⟨e0, e1⟩ := (index_facts3 t).2.2.2.1
  funext y
  show V c main_v42 (((cfg3.win 2).blk t).view.emb y) = V c main_v42 y
  refine congrArg (V c main_v42) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega
theorem blk3_3 (c : Dev nD) (t : Fin cfg3.N) :
    (iblk3 V c 3 t : Vec Ideal S1x64 .f32) = (V c main_v43 : S1x64.Idx → Elt Ideal .f32) := by
  obtain ⟨e0, e1⟩ := (index_facts3 t).2.2.2.2.1
  funext y
  show V c main_v43 (((cfg3.win 3).blk t).view.emb y) = V c main_v43 y
  refine congrArg (V c main_v43) (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega
theorem blk3_4 (c : Dev nD) (t : Fin cfg3.N) :
    (iblk3 V c 4 t : Vec Ideal S1x64 .f32) = (V c main_v44 : S1x64.Idx → Elt Ideal .f32) := by
  obtain ⟨e0, e1⟩ := (index_facts3 t).2.2.2.2.2.1
  funext y
  show V c main_v44 (((cfg3.win 4).blk t).view.emb y) = V c main_v44 y
  refine congrArg (V c main_v44) (funext fun a => Fin.ext ?_)
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega
theorem blk3_5 (c : Dev nD) (t : Fin cfg3.N) :
    (iblk3 V c 5 t : Vec Ideal S64x128 .f32) = (V c main_arg7 : S64x128.Idx → Elt Ideal .f32) := by
  obtain ⟨e0, e1⟩ := (index_facts3 t).2.2.2.2.2.2.1
  funext y
  show V c main_arg7 (((cfg3.win 5).blk t).view.emb y) = V c main_arg7 y
  refine congrArg (V c main_arg7) (funext fun a => Fin.ext ?_)
  match a with
  | ⟨0, _⟩ => show win3_5.index t (0 : Fin 2) * 64 + 1 * (y 0).val = (y 0).val; rw [e0]; omega
  | ⟨1, _⟩ => show win3_5.index t (1 : Fin 2) * 128 + 1 * (y 1).val = (y 1).val; rw [e1]; omega
theorem blk3_6 (c : Dev nD) (t : Fin cfg3.N) :
    (iblk3 V c 6 t : Vec Ideal S1x128 .f32) = (V c main_v45 : S1x128.Idx → Elt Ideal .f32) := by
  obtain ⟨e0, e1⟩ := (index_facts3 t).2.2.2.2.2.2.2.1
  funext y
  show V c main_v45 (((cfg3.win 6).blk t).view.emb y) = V c main_v45 y
  refine congrArg (V c main_v45) (funext fun a => Fin.ext ?_)
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega
theorem blk3_7 (c : Dev nD) (t : Fin cfg3.N) :
    (iblk3 V c 7 t : Vec Ideal S128x64 .f32) = (V c main_arg9 : S128x64.Idx → Elt Ideal .f32) := by
  obtain ⟨e0, e1⟩ := (index_facts3 t).2.2.2.2.2.2.2.2.1
  funext y
  show V c main_arg9 (((cfg3.win 7).blk t).view.emb y) = V c main_arg9 y
  refine congrArg (V c main_arg9) (funext fun a => Fin.ext ?_)
  match a with
  | ⟨0, _⟩ => show win3_7.index t (0 : Fin 2) * 128 + 1 * (y 0).val = (y 0).val; rw [e0]; omega
  | ⟨1, _⟩ => show win3_7.index t (1 : Fin 2) * 64 + 1 * (y 1).val = (y 1).val; rw [e1]; omega
theorem blk3_8 (c : Dev nD) (t : Fin cfg3.N) :
    (iblk3 V c 8 t : Vec Ideal S1x64 .f32) = (V c main_v46 : S1x64.Idx → Elt Ideal .f32) := by
  obtain ⟨e0, e1⟩ := (index_facts3 t).2.2.2.2.2.2.2.2.2
  funext y
  show V c main_v46 (((cfg3.win 8).blk t).view.emb y) = V c main_v46 y
  refine congrArg (V c main_v46) (funext fun a => Fin.ext ?_)
  match a with
  | ⟨0, _⟩ => show win3_8.index t (0 : Fin 2) * 1 + 1 * (y 0).val = (y 0).val; rw [e0]; omega
  | ⟨1, _⟩ => show win3_8.index t (1 : Fin 2) * 64 + 1 * (y 1).val = (y 1).val; rw [e1]; omega

/-! ## What each point writes back, and the array -/

/-- Point `t` writes back block `t` of `G3` of the arrays as the call finds them. -/
theorem flushed3_eq (c : Dev nD) (t : Fin cfg3.N) :
    (dat3 V c).flushed 9 t = ((cfg3.win 9).blk t).view.read (Elt Ideal)
      (G3 (V c main_v30) (V c main_v41) (V c main_v42) (V c main_v43) (V c main_v44) (V c main_arg7) (V c main_v45) (V c main_arg9) (V c main_v46)) := by
  show (cfg3.win 9).cut (grid3.coords t) ((dat3 V c).after 9 t) = _
  rw [after3_9]
  unfold out3_9
  rw [View.canon_unit_zero zero_off]
  simp only [View.ld_unit_zero (S := S5000x64) zero_off, View.ld_unit_zero (S := S1x64) zero_off,
    View.ld_unit_zero (S := S64x128) zero_off, View.ld_unit_zero (S := S1x128) zero_off, View.ld_unit_zero (S := S128x64) zero_off]
  funext j
  show k3_pay1 (k3_pay2 (iblk3 V c 0 t) (iblk3 V c 1 t) (iblk3 V c 2 t) (iblk3 V c 3 t) (iblk3 V c 4 t))
      (k3_pay3 (iblk3 V c 0 t) (iblk3 V c 1 t) (iblk3 V c 2 t) (iblk3 V c 3 t) (iblk3 V c 4 t) (iblk3 V c 5 t) (iblk3 V c 6 t) (iblk3 V c 7 t))
      (k3_pay4 (iblk3 V c 8 t)) j
    = G3 (V c main_v30) (V c main_v41) (V c main_v42) (V c main_v43) (V c main_v44) (V c main_arg7) (V c main_v45) (V c main_arg9) (V c main_v46)
      (((cfg3.win 9).blk t).view.emb j)
  refine (payload_apply (iblk3 V c 0 t) (iblk3 V c 1 t) (iblk3 V c 2 t) (iblk3 V c 3 t) (iblk3 V c 4 t) (iblk3 V c 5 t)
    (iblk3 V c 6 t) (iblk3 V c 7 t) (iblk3 V c 8 t) j).trans ?_
  rw [blk3_1 V c t, blk3_2 V c t, blk3_3 V c t, blk3_4 V c t, blk3_5 V c t, blk3_6 V c t, blk3_7 V c t, blk3_8 V c t]
  obtain ⟨e0, e1⟩ := (index_facts3 t).2.1
  have hj0 : (j 0).val < 5000 := (j 0).isLt
  have hr : ((((cfg3.win 9).blk t).view.emb j) 0).val = 5000 * t.val + (j 0).val := by
    show win3_9.index t (0 : Fin 2) * 5000 + 1 * (j 0).val = _; rw [e0]; omega
  have hc : ((((cfg3.win 9).blk t).view.emb j) 1).val = (j 1).val := by
    show win3_9.index t (1 : Fin 2) * 64 + 1 * (j 1).val = _; rw [e1]; omega
  refine ffnRows_rows _ _ _ _ _ _ _ _ _ _ j _ (fun a => ?_) (Fin.ext hc.symm)
  exact blk3_0_apply V c t (ix2 (j 0) a) (ix2 ((((cfg3.win 9).blk t).view.emb j) 0) a) hr rfl

/-- An index of the output array is in point `t`'s block iff each coordinate is in the block's range on its axis. -/
theorem mem_blk3 (t : Fin cfg3.N) (i : S100000x64.Idx) :
    i ∈ ((cfg3.win 9).blk t).view.set ↔ ∀ a : Fin 2, win3_9.index t a * S5000x64.size a ≤ (i a).val
      ∧ (i a).val < win3_9.index t a * S5000x64.size a + S5000x64.size a := by
  show i ∈ ((View.whole main_v47).slice (win3_9.rect t)).set ↔ _
  rw [View.set_slice_whole, Rect.mem_set_unit]
  exact Iff.rfl

/-- Row `r` lies in the block of point `r / 5000`: the 20 blocks tile the 100000 rows. -/
theorem cover3 (i : S100000x64.Idx) :
    ∃ t : Fin cfg3.N, (cfg3.win 9).flush t = true ∧ i ∈ ((cfg3.win 9).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨e0, e1⟩ := (index_facts3 t).2.1
  refine ⟨t, flush3_9 t, ?_⟩
  rw [mem_blk3]
  intro a
  match a with
  | ⟨0, _⟩ =>
    show win3_9.index t (0 : Fin 2) * 5000 ≤ (i 0).val ∧ (i 0).val < win3_9.index t (0 : Fin 2) * 5000 + 5000
    rw [e0, ht]; omega
  | ⟨1, _⟩ =>
    show win3_9.index t (1 : Fin 2) * 64 ≤ (i 1).val ∧ (i 1).val < win3_9.index t (1 : Fin 2) * 64 + 64
    rw [e1]; omega

/-- THE OUTPUT ARRAY after the call: `G3` of the arrays as the call finds them. -/
theorem final3 (c : Dev nD) :
    (dat3 V c).arrAt 9 cfg3.N
      = G3 (V c main_v30) (V c main_v41) (V c main_v42) (V c main_v43) (V c main_v44) (V c main_arg7) (V c main_v45) (V c main_arg9) (V c main_v46) :=
  (dat3 V c).arrAt_eq_of_cover 9 _ (fun t _ => flushed3_eq V c t) cover3

end Cert.KernelIdeal.Val

end
-- ==== Proof.Val.FfnRef.lean ====
/-
  The reference's feed-forward stretch is the same function. The reference normalises the residual stream `h`
  with the batch mean and variance (each [64] vector broadcast to a row and then to every row), scales and
  shifts, and adds the two-layer feed-forward with the positive part between; both programs associate the
  affine as ((d * rsqrt) * gamma) + beta and the sums the same way, so with the row parameters identified the
  two sides are one expression, index by index.
-/
import proofs.«412595_j11476152615032_3_alg».proof.Proof.Val.FfnFn
import proofs.«412595_j11476152615032_3_alg».proof.Proof.RefReadP

noncomputable section

namespace Cert.KernelIdeal.Val

open Idealize.ShloMosaic Idealize.ShloMosaic.ValueIdx Idealize.SL.Sem
open Cert.ReferenceIdeal.Read

/-! ## Where the reference's broadcasts read -/

theorem row_v65 (n : Fin 100000) (j : Fin 64) : idx_main_v65 (idx_main_v66 (ix2 n j)) = ix1 j :=
  funext fun a => match a with | ⟨0, _⟩ => rfl
theorem row_v71 (n : Fin 100000) (j : Fin 64) : idx_main_v71 (idx_main_v72 (ix2 n j)) = ix1 j :=
  funext fun a => match a with | ⟨0, _⟩ => rfl
theorem row_v74 (n : Fin 100000) (j : Fin 64) : idx_main_v74 (idx_main_v75 (ix2 n j)) = ix1 j :=
  funext fun a => match a with | ⟨0, _⟩ => rfl
theorem row_v77 (n : Fin 100000) (j : Fin 64) : idx_main_v77 (idx_main_v78 (ix2 n j)) = ix1 j :=
  funext fun a => match a with | ⟨0, _⟩ => rfl
theorem row_v81 (n : Fin 100000) (k : Fin 128) : idx_main_v81 (idx_main_v82 (ix2 n k)) = ix1 k :=
  funext fun a => match a with | ⟨0, _⟩ => rfl
theorem row_v86 (n : Fin 100000) (j : Fin 64) : idx_main_v86 (idx_main_v87 (ix2 n j)) = ix1 j :=
  funext fun a => match a with | ⟨0, _⟩ => rfl
theorem lidx_v80 (n : Fin 100000) (k : Fin 128) (a : Fin 64) : lidx_main_v80 (ix2 n k) a = ix2 n a :=
  funext fun d => match d with | ⟨0, _⟩ => rfl | ⟨1, _⟩ => rfl
theorem ridx_v80 (n : Fin 100000) (k : Fin 128) (a : Fin 64) : ridx_main_v80 (ix2 n k) a = ix2 a k :=
  funext fun d => match d with | ⟨0, _⟩ => rfl | ⟨1, _⟩ => rfl
theorem lidx_v85 (n : Fin 100000) (j : Fin 64) (k : Fin 128) : lidx_main_v85 (ix2 n j) k = ix2 n k :=
  funext fun d => match d with | ⟨0, _⟩ => rfl | ⟨1, _⟩ => rfl
theorem ridx_v85 (n : Fin 100000) (j : Fin 64) (k : Fin 128) : ridx_main_v85 (ix2 n j) k = ix2 k j :=
  funext fun d => match d with | ⟨0, _⟩ => rfl | ⟨1, _⟩ => rfl

/-! ## The reference's stages at an index -/

section
variable (x0 : (⟨Cert.ReferenceIdeal.S100000x64, .f32⟩ : BufTy).Contents (Elt Ideal)) (x1 : (⟨Cert.ReferenceIdeal.S800000x64, .f32⟩ : BufTy).Contents (Elt Ideal)) (x2 : (⟨Cert.ReferenceIdeal.S2x800000, .i32⟩ : BufTy).Contents (Elt Ideal)) (x3 x4 x5 x6 : (⟨Cert.ReferenceIdeal.S64x64, .f32⟩ : BufTy).Contents (Elt Ideal)) (x7 : (⟨Cert.ReferenceIdeal.S64x128, .f32⟩ : BufTy).Contents (Elt Ideal)) (x8 : (⟨Cert.ReferenceIdeal.S128, .f32⟩ : BufTy).Contents (Elt Ideal)) (x9 : (⟨Cert.ReferenceIdeal.S128x64, .f32⟩ : BufTy).Contents (Elt Ideal)) (x10 x11 x12 : (⟨Cert.ReferenceIdeal.S64, .f32⟩ : BufTy).Contents (Elt Ideal))
  (mu var g be b2 : FVec Ideal ⟨2, ![1, 64]⟩ .f32) (b1 : FVec Ideal ⟨2, ![1, 128]⟩ .f32)
  (hmu : ∀ j : Fin 64, mu (ix2 (0 : Fin 1) j) = val_main_v57 (F := Ideal) x0 x1 x2 x3 x4 x5 x6 (ix1 j))
  (hvar : ∀ j : Fin 64, var (ix2 (0 : Fin 1) j) = val_main_v64 (F := Ideal) x0 x1 x2 x3 x4 x5 x6 (ix1 j))
  (hg : ∀ j : Fin 64, g (ix2 (0 : Fin 1) j) = x11 (ix1 j))
  (hbe : ∀ j : Fin 64, be (ix2 (0 : Fin 1) j) = x12 (ix1 j))
  (hb1 : ∀ k : Fin 128, b1 (ix2 (0 : Fin 1) k) = x8 (ix1 k))
  (hb2 : ∀ j : Fin 64, b2 (ix2 (0 : Fin 1) j) = x10 (ix1 j))

include hmu hvar hg hbe in
/-- The reference's normalised stream is the first batch-norm affine of `h`. -/
theorem ref_bn (n : Fin 100000) (j : Fin 64) :
    val_main_v79 (F := Ideal) x0 x1 x2 x3 x4 x5 x6 x11 x12 (ix2 n j)
      = bnRow (R := 100000) (val_main_v54 (F := Ideal) x0 x1 x2 x3 x4 x5 x6) mu var g be n j := by
  rw [val_main_v79_apply, val_main_v76_apply, val_main_v73_apply, val_main_v67_apply, val_main_v66_apply, val_main_v65_apply,
    val_main_v72_apply, val_main_v71_apply, val_main_v70_apply, val_main_v69_apply, val_main_v68_apply, val_main_cst_15_apply,
    val_main_v75_apply, val_main_v74_apply, val_main_v78_apply, val_main_v77_apply]
  rw [row_v65, row_v71, row_v74, row_v77]
  unfold bnRow
  rw [hmu, hvar, hg, hbe]
  rfl

include hmu hvar hg hbe hb1 in
/-- The reference's hidden layer is the positive part of the first product plus the first bias. -/
theorem ref_hid (n : Fin 100000) (k : Fin 128) :
    val_main_v84 (F := Ideal) x0 x1 x2 x3 x4 x5 x6 x7 x8 x11 x12 (ix2 n k)
      = hidRow (R := 100000) (val_main_v54 (F := Ideal) x0 x1 x2 x3 x4 x5 x6) mu var g be x7 b1 n k := by
  rw [val_main_v84_apply, val_main_v83_apply, val_main_v80_apply, val_main_v82_apply, val_main_v81_apply,
    val_main_call1_v0_apply, val_main_call1_cst_apply, row_v81]
  unfold hidRow
  rw [hb1]
  simp only [lidx_v80, ridx_v80, ref_bn x0 x1 x2 x3 x4 x5 x6 x11 x12 mu var g be hmu hvar hg hbe]
  rw [show FloatOps.ofBits (F := Ideal) .f32 0x00000000#32 = (0 : EReal) from Ideal.ofBits_zero_f32]
  rfl

include hmu hvar hg hbe hb1 hb2 in
/-- The reference's feed-forward stretch is `G3` of the residual stream `h`, the statistics and the parameters. -/
theorem ffn_bridge :
    G3 (val_main_v54 (F := Ideal) x0 x1 x2 x3 x4 x5 x6) mu var g be x7 b1 x9 b2
      = val_main_v89 (F := Ideal) x0 x1 x2 x3 x4 x5 x6 x7 x8 x9 x10 x11 x12 := by
  funext i
  obtain ⟨n, j, rfl⟩ : ∃ (n : Fin 100000) (j : Fin 64), i = ix2 n j := ⟨i 0, i 1, eq_ix2 i⟩
  rw [val_main_v89_apply, val_main_v88_apply, val_main_v85_apply, val_main_v87_apply, val_main_v86_apply, row_v86]
  unfold G3 ffnRows
  rw [hb2]
  simp only [lidx_v85, ridx_v85, ref_bn x0 x1 x2 x3 x4 x5 x6 x11 x12 mu var g be hmu hvar hg hbe,
    ref_hid x0 x1 x2 x3 x4 x5 x6 x7 x8 x11 x12 mu var g be b1 hmu hvar hg hbe hb1]
  rfl

end

end Cert.KernelIdeal.Val

end
-- ==== Proof.Val.Bn.lean ====
/-
  The batch statistics of the two normalisations and the last call, at the extended reals.

  Both batch normalisations take, per column of a 100000 x 64 array `h`, the mean `(sum_n h(n,j)) / 100000` and the
  biased variance `(sum_n (h(n,j) - mean(j))^2) / 100000`; the host computes them between the calls and hands them, and
  the affine parameters, to the next call as 1 x 64 rows (1 x 128 for the hidden bias). This module names those
  functions (`meanF`, `varF`, `rowF`, `row128F`), reads the two host stretches at their results for any incoming
  contents, shows that the last call leaves in its output array, entry by entry,
  `(x - mean) * rsqrt (variance + eps) * scale + shift` (`G4`, `final4`), and identifies all of these with the
  reference's stages of the same operations.
-/
import proofs.«412595_j11476152615032_3_alg».proof.Proof.KI.Region4
import proofs.«412595_j11476152615032_3_alg».proof.Proof.RefReadP
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe
open Idealize.SL.Sem
open Idealize.ShloMosaic.Pipeline (Dat Cfg Window)

/-! ## Batch statistics on the host -/

/-- The column means over the nodes: each column's sum (from zero), divided by the node count 100000. -/
def meanF (h : FVec Ideal S100000x64 .f32) : FVec Ideal S64 .f32 :=
  Host.divf (Host.reduceAdd h (constant (F := Ideal) S_ .f32 0x00000000#32) reducesTo_S100000x64_S64_d0 h_S_)
    (broadcastInDim S64 ![] bcast_S_S64 (constant (F := Ideal) S_ .f32 0x47C35000#32))

/-- A vector of 64 column values laid along every one of the 100000 rows. -/
def overRows (m : FVec Ideal S64 .f32) : FVec Ideal S100000x64 .f32 :=
  broadcastInDim S100000x64 ![0, 1] bcast_S1x64_S100000x64_0_1 (broadcastInDim S1x64 ![1] bcast_S64_S1x64_1 m)

/-- The column variances (biased): each column's sum of squared deviations from its mean, divided by 100000. -/
def varF (h : FVec Ideal S100000x64 .f32) : FVec Ideal S64 .f32 :=
  Host.divf (Host.reduceAdd (mulf (subf h (overRows (meanF h))) (subf h (overRows (meanF h))))
      (constant (F := Ideal) S_ .f32 0x00000000#32) reducesTo_S100000x64_S64_d0 h_S_)
    (broadcastInDim S64 ![] bcast_S_S64 (constant (F := Ideal) S_ .f32 0x47C35000#32))

/-- A vector of 64 entries as a single row. -/
def rowF (v : FVec Ideal S64 .f32) : FVec Ideal S1x64 .f32 := shapeCast S1x64 v shapeCasts_S64_S1x64

/-- A vector of 128 entries as a single row. -/
def row128F (v : FVec Ideal S128 .f32) : FVec Ideal S1x128 .f32 := shapeCast S1x128 v shapeCasts_S128_S1x128

/-! ## The host stretch before the feed-forward call: the first batch statistics and the parameters as rows -/

/-- The contents after a line of host operations are the contents after its operations from the `n`-th on, run from
    the contents after the first `n`. -/
theorem after_take_drop (n : Nat) (l : List (HloOp τ sig (Elt Ideal))) (W : Valuation τ sig (Elt Ideal)) :
    StableHlo.after l W = StableHlo.after (l.drop n) (StableHlo.after (l.take n) W) := by
  rw [← StableHlo.after_append, List.take_append_drop]

/-- The column means of the residual sum `h` (the stretch's sixteenth result), as a row: the first sixteen operations
    build `h`, and the later ones read it and never write it. -/
theorem host3_v41 (W : Valuation τ sig (Elt Ideal)) :
    StableHlo.after hostOps3 W (Proc.devRef .tc main_v41) = rowF (meanF (StableHlo.after hostOps3 W (Proc.devRef .tc main_v30))) := by
  rw [after_take_drop 16 hostOps3 W]
  generalize StableHlo.after (List.take 16 hostOps3) W = W'
  simp only [hostOps3, List.drop_succ_cons, List.drop_zero]
  after_results
  rfl

set_option maxHeartbeats 1000000 in
/-- The column variances of `h`, as a row. -/
theorem host3_v42 (W : Valuation τ sig (Elt Ideal)) :
    StableHlo.after hostOps3 W (Proc.devRef .tc main_v42) = rowF (varF (StableHlo.after hostOps3 W (Proc.devRef .tc main_v30))) := by
  rw [after_take_drop 16 hostOps3 W]
  generalize StableHlo.after (List.take 16 hostOps3) W = W'
  simp only [hostOps3, List.drop_succ_cons, List.drop_zero]
  after_results
  rfl

/-- The first normalisation's scale, -/
theorem host3_v43 (W : Valuation τ sig (Elt Ideal)) :
    StableHlo.after hostOps3 W (Proc.devRef .tc main_v43) = rowF (W (Proc.devRef .tc main_arg11)) := by
  dsimp only [hostOps3]
  after_results_simp
  rfl

/-- its shift, -/
theorem host3_v44 (W : Valuation τ sig (Elt Ideal)) :
    StableHlo.after hostOps3 W (Proc.devRef .tc main_v44) = rowF (W (Proc.devRef .tc main_arg12)) := by
  dsimp only [hostOps3]
  after_results_simp
  rfl

/-- the hidden layer's bias, -/
theorem host3_v45 (W : Valuation τ sig (Elt Ideal)) :
    StableHlo.after hostOps3 W (Proc.devRef .tc main_v45) = row128F (W (Proc.devRef .tc main_arg8)) := by
  dsimp only [hostOps3]
  after_results_simp
  rfl

/-- and the output layer's bias, each as a row. -/
theorem host3_v46 (W : Valuation τ sig (Elt Ideal)) :
    StableHlo.after hostOps3 W (Proc.devRef .tc main_v46) = rowF (W (Proc.devRef .tc main_arg10)) := by
  dsimp only [hostOps3]
  after_results_simp
  rfl

/-! ## The host stretch before the last call: the second batch statistics and the affine parameters as rows -/

theorem host4_v58 (W : Valuation τ sig (Elt Ideal)) :
    StableHlo.after hostOps4 W (Proc.devRef .tc main_v58) = rowF (meanF (W (Proc.devRef .tc main_v47))) := by
  dsimp only [hostOps4]
  after_results
  rfl

theorem host4_v59 (W : Valuation τ sig (Elt Ideal)) :
    StableHlo.after hostOps4 W (Proc.devRef .tc main_v59) = rowF (varF (W (Proc.devRef .tc main_v47))) := by
  dsimp only [hostOps4]
  after_results
  rfl

theorem host4_v60 (W : Valuation τ sig (Elt Ideal)) :
    StableHlo.after hostOps4 W (Proc.devRef .tc main_v60) = rowF (W (Proc.devRef .tc main_arg13)) := by
  dsimp only [hostOps4]
  after_results
  rfl

theorem host4_v61 (W : Valuation τ sig (Elt Ideal)) :
    StableHlo.after hostOps4 W (Proc.devRef .tc main_v61) = rowF (W (Proc.devRef .tc main_arg14)) := by
  dsimp only [hostOps4]
  after_results
  rfl

/-! ## Rows read at an entry -/

theorem rowF_apply (v : FVec Ideal S64 .f32) (j : Fin 64) : rowF v (ValueIdx.ix2 (0 : Fin 1) j) = v (ValueIdx.ix1 j) := by
  unfold rowF
  refine shapeCast_apply v shapeCasts_S64_S1x64 (ValueIdx.ix2 (0 : Fin 1) j) (ValueIdx.ix1 j) ?_
  rw [Shape.rowMajor_val_one, Shape.rowMajor_val_two]
  show j.val = (0 : Fin 1).val * 64 + j.val
  simp

theorem row128F_apply (v : FVec Ideal S128 .f32) (j : Fin 128) : row128F v (ValueIdx.ix2 (0 : Fin 1) j) = v (ValueIdx.ix1 j) := by
  unfold row128F
  refine shapeCast_apply v shapeCasts_S128_S1x128 (ValueIdx.ix2 (0 : Fin 1) j) (ValueIdx.ix1 j) ?_
  rw [Shape.rowMajor_val_one, Shape.rowMajor_val_two]
  show j.val = (0 : Fin 1).val * 128 + j.val
  simp

/-! ## The last call: the normalising affine map, from blocks to the array -/

/-- The entry of a single row that lies in the column of `i`. -/
abbrev rowEntry (i : S100000x64.Idx) : S1x64.Idx := ValueIdx.ix2 (0 : Fin 1) (⟨(i 1).val, (i 1).isLt⟩ : Fin 64)

/-- The same within a block of 10000 rows. -/
abbrev rowEntryBlk (j : S10000x64.Idx) : S1x64.Idx := ValueIdx.ix2 (0 : Fin 1) (⟨(j 1).val, (j 1).isLt⟩ : Fin 64)

/-- Per entry `(n, j)`: `(x(n,j) - mu(0,j)) * rsqrt (var(0,j) + eps) * g(0,j) + be(0,j)`, with `eps` the f32 word
    nearest to 1e-5. -/
def G4 (x : FVec Ideal S100000x64 .f32) (mu var g be : FVec Ideal S1x64 .f32) : FVec Ideal S100000x64 .f32 := fun i =>
  FloatOps.addf (FloatOps.mulf (FloatOps.mulf (FloatOps.subf (x i) (mu (rowEntry i)))
    (FloatOps.rsqrt (FloatOps.addf (var (rowEntry i)) (FloatOps.ofBits .f32 0x3727C5AC#32)))) (g (rowEntry i))) (be (rowEntry i))

/-- A row laid along the 10000 rows of a block, read at an entry. -/
theorem overBlock_apply (x : FVec Ideal S1x64 .f32) (j : S10000x64.Idx) :
    broadcastTo S10000x64 x broadcasts_S1x64_S10000x64 j = x (rowEntryBlk j) :=
  broadcastTo_apply x broadcasts_S1x64_S10000x64 j (rowEntryBlk j) (fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)])

/-- The body's stored value at an entry of the block. -/
theorem pay4_apply (x0 : FVec Ideal S10000x64 .f32) (x1 x2 x3 x4 : FVec Ideal S1x64 .f32) (j : S10000x64.Idx) :
    k4_pay1 x0 x1 x2 x3 x4 j
      = FloatOps.addf (FloatOps.mulf (FloatOps.mulf (FloatOps.subf (x0 j) (x1 (rowEntryBlk j)))
          (FloatOps.rsqrt (FloatOps.addf (x2 (rowEntryBlk j)) (FloatOps.ofBits .f32 0x3727C5AC#32)))) (x3 (rowEntryBlk j))) (x4 (rowEntryBlk j)) := by
  unfold k4_pay1
  simp only [shapeCast_self]
  show FloatOps.addf (F := Ideal) (FloatOps.mulf (FloatOps.mulf (FloatOps.subf (x0 j) (broadcastTo S10000x64 x1 broadcasts_S1x64_S10000x64 j))
      (broadcastTo S10000x64 (rsqrt (addf x2 (broadcast S1x64 (FloatOps.ofBits .f32 0x3727C5AC#32)))) broadcasts_S1x64_S10000x64 j))
      (broadcastTo S10000x64 x3 broadcasts_S1x64_S10000x64 j)) (broadcastTo S10000x64 x4 broadcasts_S1x64_S10000x64 j) = _
  rw [overBlock_apply, overBlock_apply, overBlock_apply, overBlock_apply]
  rfl

section Array

-- the TensorCore's buffer contents when the last call is entered
variable (V : (c : Dev nD) → (b : Ref sig .tc) → Buf (Elt Ideal) ((c : Thread nD τ).loc b))

theorem offsets_zero4 : (![0, 0] : Fin 2 → Nat) = fun _ => 0 := funext fun a => by fin_cases a <;> rfl

/-- The printed index maps, decided over the ten grid points: the row-block input moves with the output, block `t` at
    point `t`, column block zero; the four rows stay at block zero. -/
theorem blockIdx4 : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- What point `t` writes back is block `t` of `G4` of the five arrays as the call finds them. -/
theorem flushed4_eq (c : Dev nD) (t : Fin cfg4.N) :
    (dat4 V c).flushed 5 t = ((cfg4.win 5).blk t).view.read (Elt Ideal)
      (G4 (V c main_v47) (V c main_v58) (V c main_v59) (V c main_v60) (V c main_v61)) := by
  show (cfg4.win 5).cut (grid4.coords t) ((dat4 V c).after 5 t) = _
  rw [after4_5]
  unfold out4_5
  rw [View.canon_unit_zero offsets_zero4]
  simp only [View.ld_unit_zero (S := S10000x64) offsets_zero4, View.ld_unit_zero (S := S1x64) offsets_zero4]
  obtain ⟨o0, o1, a0, a1, b0, b1, c0, c1, d0, d1, e0, e1⟩ := blockIdx4 t
  funext j
  refine (pay4_apply (iblk4 V c 0 t) (iblk4 V c 1 t) (iblk4 V c 2 t) (iblk4 V c 3 t) (iblk4 V c 4 t) _).trans ?_
  have hj0 : (j 0).val < 10000 := (j 0).isLt
  have hj1 : (j 1).val < 64 := (j 1).isLt
  have hx : ((cfg4.win 0).blk t).view.emb j = ((cfg4.win 5).blk t).view.emb j := by
    funext a; apply Fin.ext
    match a with
    | ⟨0, _⟩ => show win4_0.index t (0 : Fin 2) * 10000 + 1 * (j 0).val = win4_5.index t (0 : Fin 2) * 10000 + 1 * (j 0).val; omega
    | ⟨1, _⟩ => show win4_0.index t (1 : Fin 2) * 64 + 1 * (j 1).val = win4_5.index t (1 : Fin 2) * 64 + 1 * (j 1).val; omega
  have h1 : ((cfg4.win 1).blk t).view.emb (rowEntryBlk j) = rowEntry (((cfg4.win 5).blk t).view.emb j) := by
    funext a; apply Fin.ext
    match a with
    | ⟨0, _⟩ => show win4_1.index t (0 : Fin 2) * 1 + 1 * 0 = 0; omega
    | ⟨1, _⟩ => show win4_1.index t (1 : Fin 2) * 64 + 1 * (j 1).val = win4_5.index t (1 : Fin 2) * 64 + 1 * (j 1).val; omega
  have h2 : ((cfg4.win 2).blk t).view.emb (rowEntryBlk j) = rowEntry (((cfg4.win 5).blk t).view.emb j) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_5.index t (1 : Fin 2) * 64 + 1 * (j 1).val; omega
  have h3 : ((cfg4.win 3).blk t).view.emb (rowEntryBlk j) = rowEntry (((cfg4.win 5).blk t).view.emb j) := by
    funext a; apply Fin.ext
    match a with
    | ⟨0, _⟩ => show win4_3.index t (0 : Fin 2) * 1 + 1 * 0 = 0; omega
    | ⟨1, _⟩ => show win4_3.index t (1 : Fin 2) * 64 + 1 * (j 1).val = win4_5.index t (1 : Fin 2) * 64 + 1 * (j 1).val; omega
  have h4 : ((cfg4.win 4).blk t).view.emb (rowEntryBlk j) = rowEntry (((cfg4.win 5).blk t).view.emb j) := by
    funext a; apply Fin.ext
    match a with
    | ⟨0, _⟩ => show win4_4.index t (0 : Fin 2) * 1 + 1 * 0 = 0; omega
    | ⟨1, _⟩ => show win4_4.index t (1 : Fin 2) * 64 + 1 * (j 1).val = win4_5.index t (1 : Fin 2) * 64 + 1 * (j 1).val; omega
  show FloatOps.addf (FloatOps.mulf (FloatOps.mulf (FloatOps.subf (V c main_v47 (((cfg4.win 0).blk t).view.emb j))
        (V c main_v58 (((cfg4.win 1).blk t).view.emb (rowEntryBlk j))))
      (FloatOps.rsqrt (FloatOps.addf (V c main_v59 (((cfg4.win 2).blk t).view.emb (rowEntryBlk j))) (FloatOps.ofBits .f32 0x3727C5AC#32))))
      (V c main_v60 (((cfg4.win 3).blk t).view.emb (rowEntryBlk j)))) (V c main_v61 (((cfg4.win 4).blk t).view.emb (rowEntryBlk j)))
    = G4 (V c main_v47) (V c main_v58) (V c main_v59) (V c main_v60) (V c main_v61) (((cfg4.win 5).blk t).view.emb j)
  rw [hx, h1, h2, h3, h4]
  rfl

/-- An index of the array is in point `t`'s block iff each coordinate is in the block's range on its axis. -/
theorem mem_blk4 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v62).slice (win4_5.rect t)).set ↔ _
  rw [View.set_slice_whole, Rect.mem_set_unit]
  exact Iff.rfl

/-- Row `r` lies in the block of point `r / 10000`: the ten blocks cover the array. -/
theorem cover4 (c : Dev nD) (i : ((cfg4.win 5).arr.view.loc (c.tc : Thread nD τ)).2.ty.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have ht : (i 0).val / 10000 < cfg4.N := by show _ < 10; omega
  refine ⟨⟨(i 0).val / 10000, ht⟩, flush4_5 _, ?_⟩
  obtain ⟨o0, o1, -⟩ := blockIdx4 ⟨(i 0).val / 10000, ht⟩
  have o0' : win4_5.index ⟨(i 0).val / 10000, ht⟩ (0 : Fin 2) = (i 0).val / 10000 := o0
  rw [mem_blk4]
  intro a
  match a with
  | ⟨0, _⟩ => show win4_5.index ⟨(i 0).val / 10000, ht⟩ (0 : Fin 2) * 10000 ≤ (i 0).val ∧ (i 0).val < win4_5.index ⟨(i 0).val / 10000, ht⟩ (0 : Fin 2) * 10000 + 10000; omega
  | ⟨1, _⟩ => show win4_5.index ⟨(i 0).val / 10000, ht⟩ (1 : Fin 2) * 64 ≤ (i 1).val ∧ (i 1).val < win4_5.index ⟨(i 0).val / 10000, ht⟩ (1 : Fin 2) * 64 + 64; omega

/-- The output array after the call: `G4` of the five input arrays. -/
theorem final4 (c : Dev nD) :
    (dat4 V c).arrAt 5 cfg4.N = G4 (V c main_v47) (V c main_v58) (V c main_v59) (V c main_v60) (V c main_v61) :=
  (dat4 V c).arrAt_eq_of_cover 5 (G4 (V c main_v47) (V c main_v58) (V c main_v59) (V c main_v60) (V c main_v61))
    (fun t _ => flushed4_eq V c t) (cover4 c)

end Array

/-! ## The reference's statistics and its last stage are the same functions -/

/-- The reference's first column means are `meanF` of its residual sum: the same operations in the same order. -/
theorem mean1_bridge (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal)) :
    meanF (Cert.ReferenceIdeal.Read.val_main_v54 x0 x1 x2 x3 x4 x5 x6) = Cert.ReferenceIdeal.Read.val_main_v57 x0 x1 x2 x3 x4 x5 x6 := rfl

/-- Its first column variances likewise (its square of the deviations is their product with themselves). -/
theorem var1_bridge (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal)) :
    varF (Cert.ReferenceIdeal.Read.val_main_v54 x0 x1 x2 x3 x4 x5 x6) = Cert.ReferenceIdeal.Read.val_main_v64 x0 x1 x2 x3 x4 x5 x6 := rfl

/-- The second statistics, of the feed-forward block's output. -/
theorem mean2_bridge (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal))
    (x7 : (⟨S64x128, .f32⟩ : BufTy).Contents (Elt Ideal)) (x8 : (⟨S128, .f32⟩ : BufTy).Contents (Elt Ideal))
    (x9 : (⟨S128x64, .f32⟩ : BufTy).Contents (Elt Ideal)) (x10 x11 x12 : (⟨S64, .f32⟩ : BufTy).Contents (Elt Ideal)) :
    meanF (Cert.ReferenceIdeal.Read.val_main_v89 x0 x1 x2 x3 x4 x5 x6 x7 x8 x9 x10 x11 x12) = Cert.ReferenceIdeal.Read.val_main_v92 x0 x1 x2 x3 x4 x5 x6 x7 x8 x9 x10 x11 x12 := rfl

theorem var2_bridge (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal))
    (x7 : (⟨S64x128, .f32⟩ : BufTy).Contents (Elt Ideal)) (x8 : (⟨S128, .f32⟩ : BufTy).Contents (Elt Ideal))
    (x9 : (⟨S128x64, .f32⟩ : BufTy).Contents (Elt Ideal)) (x10 x11 x12 : (⟨S64, .f32⟩ : BufTy).Contents (Elt Ideal)) :
    varF (Cert.ReferenceIdeal.Read.val_main_v89 x0 x1 x2 x3 x4 x5 x6 x7 x8 x9 x10 x11 x12) = Cert.ReferenceIdeal.Read.val_main_v99 x0 x1 x2 x3 x4 x5 x6 x7 x8 x9 x10 x11 x12 := rfl

/-- The column of a row's entry, through the reference's two broadcasts `[64] -> [1, 64] -> [100000, 64]`. -/
theorem colIdx_eq (i : S100000x64.Idx) (k : S64.Idx) (hk : (k 0).val = (i 1).val) :
    k = ValueIdx.ix1 (⟨(i 1).val, (i 1).isLt⟩ : Fin 64) :=
  funext fun d => match d with | ⟨0, _⟩ => Fin.ext hk

/-- The reference's last stage is `G4` of its second residual sum, its second statistics and the affine parameters
    as rows. -/
theorem bn_bridge (x0 : (⟨S100000x64, .f32⟩ : BufTy).Contents (Elt Ideal)) (x1 : (⟨S800000x64, .f32⟩ : BufTy).Contents (Elt Ideal))
    (x2 : (⟨S2x800000, .i32⟩ : BufTy).Contents (Elt Ideal)) (x3 x4 x5 x6 : (⟨S64x64, .f32⟩ : BufTy).Contents (Elt Ideal))
    (x7 : (⟨S64x128, .f32⟩ : BufTy).Contents (Elt Ideal)) (x8 : (⟨S128, .f32⟩ : BufTy).Contents (Elt Ideal))
    (x9 : (⟨S128x64, .f32⟩ : BufTy).Contents (Elt Ideal)) (x10 x11 x12 : (⟨S64, .f32⟩ : BufTy).Contents (Elt Ideal))
    (x13 x14 : (⟨S64, .f32⟩ : BufTy).Contents (Elt Ideal)) :
    G4 (Cert.ReferenceIdeal.Read.val_main_v89 x0 x1 x2 x3 x4 x5 x6 x7 x8 x9 x10 x11 x12) (rowF (Cert.ReferenceIdeal.Read.val_main_v92 x0 x1 x2 x3 x4 x5 x6 x7 x8 x9 x10 x11 x12)) (rowF (Cert.ReferenceIdeal.Read.val_main_v99 x0 x1 x2 x3 x4 x5 x6 x7 x8 x9 x10 x11 x12)) (rowF x13) (rowF x14)
      = Cert.ReferenceIdeal.Read.val_main_v114 x0 x1 x2 x3 x4 x5 x6 x7 x8 x9 x10 x11 x12 x13 x14 := by
  funext i
  rw [Cert.ReferenceIdeal.Read.val_main_v114_apply, Cert.ReferenceIdeal.Read.val_main_v111_apply, Cert.ReferenceIdeal.Read.val_main_v108_apply, Cert.ReferenceIdeal.Read.val_main_v102_apply,
    Cert.ReferenceIdeal.Read.val_main_v101_apply, Cert.ReferenceIdeal.Read.val_main_v100_apply, Cert.ReferenceIdeal.Read.val_main_v107_apply, Cert.ReferenceIdeal.Read.val_main_v106_apply,
    Cert.ReferenceIdeal.Read.val_main_v105_apply, Cert.ReferenceIdeal.Read.val_main_v104_apply, Cert.ReferenceIdeal.Read.val_main_v103_apply, Cert.ReferenceIdeal.Read.val_main_cst_20_apply,
    Cert.ReferenceIdeal.Read.val_main_v110_apply, Cert.ReferenceIdeal.Read.val_main_v109_apply, Cert.ReferenceIdeal.Read.val_main_v113_apply, Cert.ReferenceIdeal.Read.val_main_v112_apply]
  rw [colIdx_eq i (Cert.ReferenceIdeal.Read.idx_main_v100 (Cert.ReferenceIdeal.Read.idx_main_v101 i)) rfl, colIdx_eq i (Cert.ReferenceIdeal.Read.idx_main_v106 (Cert.ReferenceIdeal.Read.idx_main_v107 i)) rfl,
    colIdx_eq i (Cert.ReferenceIdeal.Read.idx_main_v109 (Cert.ReferenceIdeal.Read.idx_main_v110 i)) rfl, colIdx_eq i (Cert.ReferenceIdeal.Read.idx_main_v112 (Cert.ReferenceIdeal.Read.idx_main_v113 i)) rfl]
  show FloatOps.addf (F := Ideal) (FloatOps.mulf (FloatOps.mulf (FloatOps.subf (Cert.ReferenceIdeal.Read.val_main_v89 x0 x1 x2 x3 x4 x5 x6 x7 x8 x9 x10 x11 x12 i)
        (rowF (Cert.ReferenceIdeal.Read.val_main_v92 x0 x1 x2 x3 x4 x5 x6 x7 x8 x9 x10 x11 x12) (ValueIdx.ix2 (0 : Fin 1) (⟨(i 1).val, (i 1).isLt⟩ : Fin 64))))
      (FloatOps.rsqrt (FloatOps.addf (rowF (Cert.ReferenceIdeal.Read.val_main_v99 x0 x1 x2 x3 x4 x5 x6 x7 x8 x9 x10 x11 x12) (ValueIdx.ix2 (0 : Fin 1) (⟨(i 1).val, (i 1).isLt⟩ : Fin 64))) (FloatOps.ofBits .f32 0x3727C5AC#32))))
      (rowF x13 (ValueIdx.ix2 (0 : Fin 1) (⟨(i 1).val, (i 1).isLt⟩ : Fin 64)))) (rowF x14 (ValueIdx.ix2 (0 : Fin 1) (⟨(i 1).val, (i 1).isLt⟩ : Fin 64))) = _
  rw [rowF_apply, rowF_apply, rowF_apply, rowF_apply]
  rfl

end Cert.KernelIdeal.Val

end
-- ==== Proof.Val.Assemble.lean ====
/-
  The kernel's result as a function of its fifteen argument arrays, at the extended reals: boundary by boundary, each
  buffer the later items read is identified with a stage of the reference. The three projected tables and the edge
  projection are the reference's matrix products reshaped; under the index range the three row gathers return the
  gathered rows; the per-edge call's message and score are the reference's; the segment sums, the normalisation and the
  residual give the reference's residual stream; its column statistics are the reference's; the feed-forward call's
  output is the reference's second residual stream; and the last call's output is the reference's result.
-/
import proofs.«412595_j11476152615032_3_alg».proof.Proof.KI.Carry
import proofs.«412595_j11476152615032_3_alg».proof.Proof.Val.Mat
import proofs.«412595_j11476152615032_3_alg».proof.Proof.Val.Take
import proofs.«412595_j11476152615032_3_alg».proof.Proof.Val.Edge
import proofs.«412595_j11476152615032_3_alg».proof.Proof.Val.EdgeRef
import proofs.«412595_j11476152615032_3_alg».proof.Proof.Val.Scatter
import proofs.«412595_j11476152615032_3_alg».proof.Proof.Val.Ffn
import proofs.«412595_j11476152615032_3_alg».proof.Proof.Val.FfnRef
import proofs.«412595_j11476152615032_3_alg».proof.Proof.Val.Bn
import proofs.«412595_j11476152615032_3_alg».proof.Proof.RefReadP

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem
open Cert.ReferenceIdeal.Read

variable (m : (ℓ : Loc nD τ sig) → Buf (Elt Ideal) ℓ) (c : Dev nD)

-- what a call leaves and what a host stretch leaves are used through their lemmas only, never unfolded
attribute [local irreducible] B2 B4 B9 B11 B13

/-- An argument array's launch contents on core `c`. -/
abbrev ar (r : Ref sig .tc) : Buf (Elt Ideal) ((c.tc : Thread nD τ).loc r) := m ((c.tc : Thread nD τ).loc r)

/-! ## Through the first projection call and the slices -/

theorem at_v1 : B1 m c (Proc.devRef .tc main_v1) = val_main_v1 (ar m c main_arg2) := (host0_v1 (B0 m c)).trans (src_bridge _)
theorem at_v3 : B1 m c (Proc.devRef .tc main_v3) = val_main_v3 (ar m c main_arg2) := (host0_v3 (B0 m c)).trans (dst_bridge _)
theorem at_v4 : B1 m c (Proc.devRef .tc main_v4) = wqkvF (ar m c main_arg3) (ar m c main_arg4) (ar m c main_arg6) := host0_v4 (B0 m c)

theorem at_v5 : B2 m c (Proc.devRef .tc main_v5) = G0 (ar m c main_arg0) (wqkvF (ar m c main_arg3) (ar m c main_arg4) (ar m c main_arg6)) := by
  refine ((B2_arr m c 2).trans (final0 (U1 m) c)).trans ?_
  show G0 (B1 m c (Proc.devRef .tc main_arg0)) (B1 m c (Proc.devRef .tc main_v4)) = _
  rw [show B1 m c (Proc.devRef .tc main_arg0) = ar m c main_arg0 from ((B1_keep m c main_arg0 (by decide))), at_v4]

theorem at_v7 : B3 m c (Proc.devRef .tc main_v7) = val_main_v5 (ar m c main_arg0) (ar m c main_arg3) := by
  refine (host1_v7 (B2 m c)).trans ?_; rw [at_v5]; exact proj_q _ _ _ _
theorem at_v9 : B3 m c (Proc.devRef .tc main_v9) = val_main_v7 (ar m c main_arg0) (ar m c main_arg4) := by
  refine (host1_v9 (B2 m c)).trans ?_; rw [at_v5]; exact proj_k _ _ _ _
theorem at_v11 : B3 m c (Proc.devRef .tc main_v11) = val_main_v9 (ar m c main_arg0) (ar m c main_arg6) := by
  refine (host1_v11 (B2 m c)).trans ?_; rw [at_v5]; exact proj_v _ _ _ _

/-! ## Through the edge projection call -/

theorem at_v12 : B4 m c (Proc.devRef .tc main_v12) = G1 (ar m c main_arg1) (ar m c main_arg5) := by
  refine ((B4_arr m c 2).trans (final1 (U3 m) c)).trans ?_
  show G1 (B3 m c (Proc.devRef .tc main_arg1)) (B3 m c (Proc.devRef .tc main_arg5)) = _
  rw [show B3 m c (Proc.devRef .tc main_arg1) = ar m c main_arg1 from ((B3_keep m c main_arg1 (by decide)).trans ((B2_keep m c main_arg1 (by decide)).trans (B1_keep m c main_arg1 (by decide)))), show B3 m c (Proc.devRef .tc main_arg5) = ar m c main_arg5 from ((B3_keep m c main_arg5 (by decide)).trans ((B2_keep m c main_arg5 (by decide)).trans (B1_keep m c main_arg5 (by decide))))]

theorem at_v13 : B5 m c (Proc.devRef .tc main_v13) = val_main_v11 (ar m c main_arg1) (ar m c main_arg5) := by
  refine (host2_v13 (B4 m c)).trans ?_; rw [at_v12]; exact proj_e _ _

/-! ## The three row gathers, under the index range -/

variable (hr : InRange (ar m c main_arg2))
include hr

theorem at_v14 : B6 m c (Proc.devRef .tc main_v14) = val_main_v18 (ar m c main_arg0) (ar m c main_arg2) (ar m c main_arg4) := by
  refine (host21_v14 (B5 m c)).trans ?_
  rw [show B5 m c (Proc.devRef .tc main_v9) = B3 m c (Proc.devRef .tc main_v9) from (B5_keep m c main_v9 (by decide)).trans (B4_keep m c main_v9 (by decide)), show B5 m c (Proc.devRef .tc main_v1) = B1 m c (Proc.devRef .tc main_v1) from (B5_keep m c main_v1 (by decide)).trans ((B4_keep m c main_v1 (by decide)).trans ((B3_keep m c main_v1 (by decide)).trans (B2_keep m c main_v1 (by decide)))),
    at_v9, at_v1]
  exact take_k _ _ _ hr
theorem at_v15 : B7 m c (Proc.devRef .tc main_v15) = val_main_v25 (ar m c main_arg0) (ar m c main_arg2) (ar m c main_arg3) := by
  refine (host22_v15 (B6 m c)).trans ?_
  rw [show B6 m c (Proc.devRef .tc main_v7) = B3 m c (Proc.devRef .tc main_v7) from (B6_keep m c main_v7 (by decide)).trans ((B5_keep m c main_v7 (by decide)).trans (B4_keep m c main_v7 (by decide))), show B6 m c (Proc.devRef .tc main_v3) = B1 m c (Proc.devRef .tc main_v3) from (B6_keep m c main_v3 (by decide)).trans ((B5_keep m c main_v3 (by decide)).trans ((B4_keep m c main_v3 (by decide)).trans ((B3_keep m c main_v3 (by decide)).trans (B2_keep m c main_v3 (by decide))))),
    at_v7, at_v3]
  exact take_q _ _ _ hr
theorem at_v16 : B8 m c (Proc.devRef .tc main_v16) = val_main_v40 (ar m c main_arg0) (ar m c main_arg2) (ar m c main_arg6) := by
  refine (host23_v16 (B7 m c)).trans ?_
  rw [show B7 m c (Proc.devRef .tc main_v11) = B3 m c (Proc.devRef .tc main_v11) from (B7_keep m c main_v11 (by decide)).trans ((B6_keep m c main_v11 (by decide)).trans ((B5_keep m c main_v11 (by decide)).trans (B4_keep m c main_v11 (by decide)))), show B7 m c (Proc.devRef .tc main_v1) = B1 m c (Proc.devRef .tc main_v1) from (B7_keep m c main_v1 (by decide)).trans ((B6_keep m c main_v1 (by decide)).trans ((B5_keep m c main_v1 (by decide)).trans ((B4_keep m c main_v1 (by decide)).trans ((B3_keep m c main_v1 (by decide)).trans (B2_keep m c main_v1 (by decide)))))),
    at_v11, at_v1]
  exact take_v _ _ _ hr

/-! ## Through the per-edge call -/

theorem at_v17_0 : B9 m c (Proc.devRef .tc main_v17_0) = val_main_v42 (ar m c main_arg0) (ar m c main_arg1) (ar m c main_arg2) (ar m c main_arg3) (ar m c main_arg4) (ar m c main_arg5) (ar m c main_arg6) := by
  refine ((B9_arr m c 4).trans (final2_4 (U8 m) c)).trans ?_
  show G2msg (B8 m c (Proc.devRef .tc main_v14)) (B8 m c (Proc.devRef .tc main_v15)) (B8 m c (Proc.devRef .tc main_v13)) (B8 m c (Proc.devRef .tc main_v16)) = _
  rw [show B8 m c (Proc.devRef .tc main_v14) = B6 m c (Proc.devRef .tc main_v14) from (B8_keep m c main_v14 (by decide)).trans (B7_keep m c main_v14 (by decide)), show B8 m c (Proc.devRef .tc main_v15) = B7 m c (Proc.devRef .tc main_v15) from (B8_keep m c main_v15 (by decide)),
    show B8 m c (Proc.devRef .tc main_v13) = B5 m c (Proc.devRef .tc main_v13) from (B8_keep m c main_v13 (by decide)).trans ((B7_keep m c main_v13 (by decide)).trans (B6_keep m c main_v13 (by decide))), at_v14 m c hr, at_v15 m c hr, at_v13, at_v16 m c hr]
  exact edge_msg _ _ _ _ _ _ _
theorem at_v17_1 : B9 m c (Proc.devRef .tc main_v17_1) = G2score (val_main_v18 (ar m c main_arg0) (ar m c main_arg2) (ar m c main_arg4)) (val_main_v25 (ar m c main_arg0) (ar m c main_arg2) (ar m c main_arg3)) (val_main_v11 (ar m c main_arg1) (ar m c main_arg5)) := by
  refine ((B9_arr m c 5).trans (final2_5 (U8 m) c)).trans ?_
  show G2score (B8 m c (Proc.devRef .tc main_v14)) (B8 m c (Proc.devRef .tc main_v15)) (B8 m c (Proc.devRef .tc main_v13)) = _
  rw [show B8 m c (Proc.devRef .tc main_v14) = B6 m c (Proc.devRef .tc main_v14) from (B8_keep m c main_v14 (by decide)).trans (B7_keep m c main_v14 (by decide)), show B8 m c (Proc.devRef .tc main_v15) = B7 m c (Proc.devRef .tc main_v15) from (B8_keep m c main_v15 (by decide)),
    show B8 m c (Proc.devRef .tc main_v13) = B5 m c (Proc.devRef .tc main_v13) from (B8_keep m c main_v13 (by decide)).trans ((B7_keep m c main_v13 (by decide)).trans (B6_keep m c main_v13 (by decide))), at_v14 m c hr, at_v15 m c hr, at_v13]

/-! ## The segment sums, the residual and its statistics -/

theorem at_v30 : B10 m c (Proc.devRef .tc main_v30) = val_main_v54 (ar m c main_arg0) (ar m c main_arg1) (ar m c main_arg2) (ar m c main_arg3) (ar m c main_arg4) (ar m c main_arg5) (ar m c main_arg6) := by
  refine (host3_v30 (B9 m c)).trans ?_
  rw [show B9 m c (Proc.devRef .tc main_arg0) = ar m c main_arg0 from ((B9_keep m c main_arg0 (by decide)).trans ((B8_keep m c main_arg0 (by decide)).trans ((B7_keep m c main_arg0 (by decide)).trans ((B6_keep m c main_arg0 (by decide)).trans ((B5_keep m c main_arg0 (by decide)).trans ((B4_keep m c main_arg0 (by decide)).trans ((B3_keep m c main_arg0 (by decide)).trans ((B2_keep m c main_arg0 (by decide)).trans (B1_keep m c main_arg0 (by decide)))))))))), show B9 m c (Proc.devRef .tc main_v3) = B1 m c (Proc.devRef .tc main_v3) from (B9_keep m c main_v3 (by decide)).trans ((B8_keep m c main_v3 (by decide)).trans ((B7_keep m c main_v3 (by decide)).trans ((B6_keep m c main_v3 (by decide)).trans ((B5_keep m c main_v3 (by decide)).trans ((B4_keep m c main_v3 (by decide)).trans ((B3_keep m c main_v3 (by decide)).trans (B2_keep m c main_v3 (by decide)))))))),
    at_v17_0 m c hr, at_v17_1 m c hr, at_v3]
  exact h_bridge _ _ _ _ _ _ _ _ (fun e h => edge_score _ _ _ _ _ _ e h)
theorem at_v41 : B10 m c (Proc.devRef .tc main_v41) = rowF (val_main_v57 (ar m c main_arg0) (ar m c main_arg1) (ar m c main_arg2) (ar m c main_arg3) (ar m c main_arg4) (ar m c main_arg5) (ar m c main_arg6)) := by
  refine (host3_v41 (B9 m c)).trans ?_
  show rowF (meanF (B10 m c (Proc.devRef .tc main_v30))) = _
  rw [at_v30 m c hr, mean1_bridge]
theorem at_v42 : B10 m c (Proc.devRef .tc main_v42) = rowF (val_main_v64 (ar m c main_arg0) (ar m c main_arg1) (ar m c main_arg2) (ar m c main_arg3) (ar m c main_arg4) (ar m c main_arg5) (ar m c main_arg6)) := by
  refine (host3_v42 (B9 m c)).trans ?_
  show rowF (varF (B10 m c (Proc.devRef .tc main_v30))) = _
  rw [at_v30 m c hr, var1_bridge]
omit hr in
theorem at_v43 : B10 m c (Proc.devRef .tc main_v43) = rowF (ar m c main_arg11) := by
  refine (host3_v43 (B9 m c)).trans ?_; rw [show B9 m c (Proc.devRef .tc main_arg11) = ar m c main_arg11 from ((B9_keep m c main_arg11 (by decide)).trans ((B8_keep m c main_arg11 (by decide)).trans ((B7_keep m c main_arg11 (by decide)).trans ((B6_keep m c main_arg11 (by decide)).trans ((B5_keep m c main_arg11 (by decide)).trans ((B4_keep m c main_arg11 (by decide)).trans ((B3_keep m c main_arg11 (by decide)).trans ((B2_keep m c main_arg11 (by decide)).trans (B1_keep m c main_arg11 (by decide))))))))))]
omit hr in
theorem at_v44 : B10 m c (Proc.devRef .tc main_v44) = rowF (ar m c main_arg12) := by
  refine (host3_v44 (B9 m c)).trans ?_; rw [show B9 m c (Proc.devRef .tc main_arg12) = ar m c main_arg12 from ((B9_keep m c main_arg12 (by decide)).trans ((B8_keep m c main_arg12 (by decide)).trans ((B7_keep m c main_arg12 (by decide)).trans ((B6_keep m c main_arg12 (by decide)).trans ((B5_keep m c main_arg12 (by decide)).trans ((B4_keep m c main_arg12 (by decide)).trans ((B3_keep m c main_arg12 (by decide)).trans ((B2_keep m c main_arg12 (by decide)).trans (B1_keep m c main_arg12 (by decide))))))))))]
omit hr in
theorem at_v45 : B10 m c (Proc.devRef .tc main_v45) = row128F (ar m c main_arg8) := by
  refine (host3_v45 (B9 m c)).trans ?_; rw [show B9 m c (Proc.devRef .tc main_arg8) = ar m c main_arg8 from ((B9_keep m c main_arg8 (by decide)).trans ((B8_keep m c main_arg8 (by decide)).trans ((B7_keep m c main_arg8 (by decide)).trans ((B6_keep m c main_arg8 (by decide)).trans ((B5_keep m c main_arg8 (by decide)).trans ((B4_keep m c main_arg8 (by decide)).trans ((B3_keep m c main_arg8 (by decide)).trans ((B2_keep m c main_arg8 (by decide)).trans (B1_keep m c main_arg8 (by decide))))))))))]
omit hr in
theorem at_v46 : B10 m c (Proc.devRef .tc main_v46) = rowF (ar m c main_arg10) := by
  refine (host3_v46 (B9 m c)).trans ?_; rw [show B9 m c (Proc.devRef .tc main_arg10) = ar m c main_arg10 from ((B9_keep m c main_arg10 (by decide)).trans ((B8_keep m c main_arg10 (by decide)).trans ((B7_keep m c main_arg10 (by decide)).trans ((B6_keep m c main_arg10 (by decide)).trans ((B5_keep m c main_arg10 (by decide)).trans ((B4_keep m c main_arg10 (by decide)).trans ((B3_keep m c main_arg10 (by decide)).trans ((B2_keep m c main_arg10 (by decide)).trans (B1_keep m c main_arg10 (by decide))))))))))]

/-! ## Through the feed-forward call and the second statistics -/

theorem at_v47 : B11 m c (Proc.devRef .tc main_v47) = val_main_v89 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) := by
  refine ((B11_arr m c 9).trans (final3 (U10 m) c)).trans ?_
  show G3 (B10 m c (Proc.devRef .tc main_v30)) (B10 m c (Proc.devRef .tc main_v41)) (B10 m c (Proc.devRef .tc main_v42)) (B10 m c (Proc.devRef .tc main_v43)) (B10 m c (Proc.devRef .tc main_v44))
    (B10 m c (Proc.devRef .tc main_arg7)) (B10 m c (Proc.devRef .tc main_v45)) (B10 m c (Proc.devRef .tc main_arg9)) (B10 m c (Proc.devRef .tc main_v46)) = _
  rw [at_v30 m c hr, at_v41 m c hr, at_v42 m c hr, at_v43, at_v44, at_v45, at_v46,
    show B10 m c (Proc.devRef .tc main_arg7) = ar m c main_arg7 from ((B10_keep m c main_arg7 (by decide)).trans ((B9_keep m c main_arg7 (by decide)).trans ((B8_keep m c main_arg7 (by decide)).trans ((B7_keep m c main_arg7 (by decide)).trans ((B6_keep m c main_arg7 (by decide)).trans ((B5_keep m c main_arg7 (by decide)).trans ((B4_keep m c main_arg7 (by decide)).trans ((B3_keep m c main_arg7 (by decide)).trans ((B2_keep m c main_arg7 (by decide)).trans (B1_keep m c main_arg7 (by decide))))))))))), show B10 m c (Proc.devRef .tc main_arg9) = ar m c main_arg9 from ((B10_keep m c main_arg9 (by decide)).trans ((B9_keep m c main_arg9 (by decide)).trans ((B8_keep m c main_arg9 (by decide)).trans ((B7_keep m c main_arg9 (by decide)).trans ((B6_keep m c main_arg9 (by decide)).trans ((B5_keep m c main_arg9 (by decide)).trans ((B4_keep m c main_arg9 (by decide)).trans ((B3_keep m c main_arg9 (by decide)).trans ((B2_keep m c main_arg9 (by decide)).trans (B1_keep m c main_arg9 (by decide)))))))))))]
  exact ffn_bridge _ _ _ _ _ _ _ _ _ _ _ _ _ _ _ _ _ _ _ (fun j => rowF_apply _ j) (fun j => rowF_apply _ j) (fun j => rowF_apply _ j)
    (fun j => rowF_apply _ j) (fun k => row128F_apply _ k) (fun j => rowF_apply _ j)
theorem at_v58 : B12 m c (Proc.devRef .tc main_v58) = rowF (val_main_v92 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12)) := by
  refine (host4_v58 (B11 m c)).trans ?_; rw [at_v47 m c hr, mean2_bridge]
theorem at_v59 : B12 m c (Proc.devRef .tc main_v59) = rowF (val_main_v99 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12)) := by
  refine (host4_v59 (B11 m c)).trans ?_; rw [at_v47 m c hr, var2_bridge]
omit hr in
theorem at_v60 : B12 m c (Proc.devRef .tc main_v60) = rowF (ar m c main_arg13) := by
  refine (host4_v60 (B11 m c)).trans ?_; rw [show B11 m c (Proc.devRef .tc main_arg13) = ar m c main_arg13 from ((B11_keep m c main_arg13 (by decide)).trans ((B10_keep m c main_arg13 (by decide)).trans ((B9_keep m c main_arg13 (by decide)).trans ((B8_keep m c main_arg13 (by decide)).trans ((B7_keep m c main_arg13 (by decide)).trans ((B6_keep m c main_arg13 (by decide)).trans ((B5_keep m c main_arg13 (by decide)).trans ((B4_keep m c main_arg13 (by decide)).trans ((B3_keep m c main_arg13 (by decide)).trans ((B2_keep m c main_arg13 (by decide)).trans (B1_keep m c main_arg13 (by decide))))))))))))]
omit hr in
theorem at_v61 : B12 m c (Proc.devRef .tc main_v61) = rowF (ar m c main_arg14) := by
  refine (host4_v61 (B11 m c)).trans ?_; rw [show B11 m c (Proc.devRef .tc main_arg14) = ar m c main_arg14 from ((B11_keep m c main_arg14 (by decide)).trans ((B10_keep m c main_arg14 (by decide)).trans ((B9_keep m c main_arg14 (by decide)).trans ((B8_keep m c main_arg14 (by decide)).trans ((B7_keep m c main_arg14 (by decide)).trans ((B6_keep m c main_arg14 (by decide)).trans ((B5_keep m c main_arg14 (by decide)).trans ((B4_keep m c main_arg14 (by decide)).trans ((B3_keep m c main_arg14 (by decide)).trans ((B2_keep m c main_arg14 (by decide)).trans (B1_keep m c main_arg14 (by decide))))))))))))]

/-! ## The result -/

/-- Under the index range, the kernel's result buffer at the last boundary is the reference's last stage of the
    argument arrays. -/
theorem result_eq : B13 m c (Proc.devRef .tc main_v62) = val_main_v114 (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) := by
  refine ((B13_arr m c 5).trans (final4 (U12 m) c)).trans ?_
  show G4 (B12 m c (Proc.devRef .tc main_v47)) (B12 m c (Proc.devRef .tc main_v58)) (B12 m c (Proc.devRef .tc main_v59)) (B12 m c (Proc.devRef .tc main_v60)) (B12 m c (Proc.devRef .tc main_v61)) = _
  rw [show B12 m c (Proc.devRef .tc main_v47) = B11 m c (Proc.devRef .tc main_v47) from (B12_keep m c main_v47 (by decide)), at_v47 m c hr, at_v58 m c hr, at_v59 m c hr, at_v60, at_v61]
  exact bn_bridge _ _ _ _ _ _ _ _ _ _ _ _ _ _ _

end Cert.KernelIdeal.Val

end
-- ==== Proof.RefRun.lean ====
/-
  The reference program's run, stated over its stages: every weakly fair execution terminates with the result buffer
  at the last stage's function of the fifteen argument arrays, and every argument unchanged. The fold of the 145 host
  operations over the launch contents, read at the result buffer, is that function (each operation's result rewritten
  to its function's value, every reference inequality decided); read at an argument buffer it is the launch contents,
  no operation writing an argument. Stated at any float instance.
-/
import proofs.«412595_j11476152615032_3_alg».proof.Proof.RefRunP
import proofs.«412595_j11476152615032_3_alg».proof.Proof.RefReadP

noncomputable section

namespace Cert.ReferenceIdeal.RefLink

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 58000000 in
/-- The fold of the operations at the result buffer is the last stage of the arguments' contents. -/
theorem ref_after (V : Valuation τ sig (Elt F)) :
    after (Cert.ReferenceIdeal.Value.ops (F := F)) V (Proc.devRef .tc main_v114)
      = Cert.ReferenceIdeal.Read.val_main_v114 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  after_results_simp <;> rfl

set_option maxRecDepth 16384 in
set_option maxHeartbeats 8000000 in
theorem ref_after_arg0 (V : Valuation τ sig (Elt F)) :
    after (Cert.ReferenceIdeal.Value.ops (F := F)) V (Proc.devRef .tc main_arg0) = V (Proc.devRef .tc main_arg0) := by
  after_results_simp <;> rfl
set_option maxRecDepth 16384 in
set_option maxHeartbeats 8000000 in
theorem ref_after_arg1 (V : Valuation τ sig (Elt F)) :
    after (Cert.ReferenceIdeal.Value.ops (F := F)) V (Proc.devRef .tc main_arg1) = V (Proc.devRef .tc main_arg1) := by
  after_results_simp <;> rfl
set_option maxRecDepth 16384 in
set_option maxHeartbeats 8000000 in
theorem ref_after_arg2 (V : Valuation τ sig (Elt F)) :
    after (Cert.ReferenceIdeal.Value.ops (F := F)) V (Proc.devRef .tc main_arg2) = V (Proc.devRef .tc main_arg2) := by
  after_results_simp <;> rfl
set_option maxRecDepth 16384 in
set_option maxHeartbeats 8000000 in
theorem ref_after_arg3 (V : Valuation τ sig (Elt F)) :
    after (Cert.ReferenceIdeal.Value.ops (F := F)) V (Proc.devRef .tc main_arg3) = V (Proc.devRef .tc main_arg3) := by
  after_results_simp <;> rfl
set_option maxRecDepth 16384 in
set_option maxHeartbeats 8000000 in
theorem ref_after_arg4 (V : Valuation τ sig (Elt F)) :
    after (Cert.ReferenceIdeal.Value.ops (F := F)) V (Proc.devRef .tc main_arg4) = V (Proc.devRef .tc main_arg4) := by
  after_results_simp <;> rfl
set_option maxRecDepth 16384 in
set_option maxHeartbeats 8000000 in
theorem ref_after_arg5 (V : Valuation τ sig (Elt F)) :
    after (Cert.ReferenceIdeal.Value.ops (F := F)) V (Proc.devRef .tc main_arg5) = V (Proc.devRef .tc main_arg5) := by
  after_results_simp <;> rfl
set_option maxRecDepth 16384 in
set_option maxHeartbeats 8000000 in
theorem ref_after_arg6 (V : Valuation τ sig (Elt F)) :
    after (Cert.ReferenceIdeal.Value.ops (F := F)) V (Proc.devRef .tc main_arg6) = V (Proc.devRef .tc main_arg6) := by
  after_results_simp <;> rfl
set_option maxRecDepth 16384 in
set_option maxHeartbeats 8000000 in
theorem ref_after_arg7 (V : Valuation τ sig (Elt F)) :
    after (Cert.ReferenceIdeal.Value.ops (F := F)) V (Proc.devRef .tc main_arg7) = V (Proc.devRef .tc main_arg7) := by
  after_results_simp <;> rfl
set_option maxRecDepth 16384 in
set_option maxHeartbeats 8000000 in
theorem ref_after_arg8 (V : Valuation τ sig (Elt F)) :
    after (Cert.ReferenceIdeal.Value.ops (F := F)) V (Proc.devRef .tc main_arg8) = V (Proc.devRef .tc main_arg8) := by
  after_results_simp <;> rfl
set_option maxRecDepth 16384 in
set_option maxHeartbeats 8000000 in
theorem ref_after_arg9 (V : Valuation τ sig (Elt F)) :
    after (Cert.ReferenceIdeal.Value.ops (F := F)) V (Proc.devRef .tc main_arg9) = V (Proc.devRef .tc main_arg9) := by
  after_results_simp <;> rfl
set_option maxRecDepth 16384 in
set_option maxHeartbeats 8000000 in
theorem ref_after_arg10 (V : Valuation τ sig (Elt F)) :
    after (Cert.ReferenceIdeal.Value.ops (F := F)) V (Proc.devRef .tc main_arg10) = V (Proc.devRef .tc main_arg10) := by
  after_results_simp <;> rfl
set_option maxRecDepth 16384 in
set_option maxHeartbeats 8000000 in
theorem ref_after_arg11 (V : Valuation τ sig (Elt F)) :
    after (Cert.ReferenceIdeal.Value.ops (F := F)) V (Proc.devRef .tc main_arg11) = V (Proc.devRef .tc main_arg11) := by
  after_results_simp <;> rfl
set_option maxRecDepth 16384 in
set_option maxHeartbeats 8000000 in
theorem ref_after_arg12 (V : Valuation τ sig (Elt F)) :
    after (Cert.ReferenceIdeal.Value.ops (F := F)) V (Proc.devRef .tc main_arg12) = V (Proc.devRef .tc main_arg12) := by
  after_results_simp <;> rfl
set_option maxRecDepth 16384 in
set_option maxHeartbeats 8000000 in
theorem ref_after_arg13 (V : Valuation τ sig (Elt F)) :
    after (Cert.ReferenceIdeal.Value.ops (F := F)) V (Proc.devRef .tc main_arg13) = V (Proc.devRef .tc main_arg13) := by
  after_results_simp <;> rfl
set_option maxRecDepth 16384 in
set_option maxHeartbeats 8000000 in
theorem ref_after_arg14 (V : Valuation τ sig (Elt F)) :
    after (Cert.ReferenceIdeal.Value.ops (F := F)) V (Proc.devRef .tc main_arg14) = V (Proc.devRef .tc main_arg14) := by
  after_results_simp <;> rfl

/-- The run: the result at the last stage of the launch contents of the arguments, every argument as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v114) = Cert.ReferenceIdeal.Read.val_main_v114 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v114).trans (ref_after (launchContents m c)),
      (h c main_arg0).trans (ref_after_arg0 (launchContents m c)),
      (h c main_arg1).trans (ref_after_arg1 (launchContents m c)),
      (h c main_arg2).trans (ref_after_arg2 (launchContents m c)),
      (h c main_arg3).trans (ref_after_arg3 (launchContents m c)),
      (h c main_arg4).trans (ref_after_arg4 (launchContents m c)),
      (h c main_arg5).trans (ref_after_arg5 (launchContents m c)),
      (h c main_arg6).trans (ref_after_arg6 (launchContents m c)),
      (h c main_arg7).trans (ref_after_arg7 (launchContents m c)),
      (h c main_arg8).trans (ref_after_arg8 (launchContents m c)),
      (h c main_arg9).trans (ref_after_arg9 (launchContents m c)),
      (h c main_arg10).trans (ref_after_arg10 (launchContents m c)),
      (h c main_arg11).trans (ref_after_arg11 (launchContents m c)),
      (h c main_arg12).trans (ref_after_arg12 (launchContents m c)),
      (h c main_arg13).trans (ref_after_arg13 (launchContents m c)),
      (h c main_arg14).trans (ref_after_arg14 (launchContents m c))⟩)
    (Cert.ReferenceIdeal.Value.run_after m ρ)

end Cert.ReferenceIdeal.RefLink

end
-- ==== Proof.lean ====
/-
  The certificate of a graph-transformer layer over 100000 nodes and 800000 edges of width 64 (4 heads of 16): the
  kernel runs five tiled calls — the three node projections as one product against the concatenated weights, the edge
  projection, the per-edge score exp (clip ((sum over the head's 16 lanes of key * query * edge) * 1/4)) with the
  message value * score, the first batch normalisation with the two-layer feed-forward and its residual, and the
  second batch normalisation — among host stretches that gather the projected rows at the edges' end points, sum
  messages and scores per destination node, normalise, add the residual and take the column statistics. The
  reference computes the same layer with host operations only.

  Frames. Each program runs to the end on every weakly fair schedule, faults nowhere and leaves its fifteen argument
  arrays as launched: for the kernel (at the word level and at the extended reals, one text at any float instance)
  because its program is the run of thirteen segments, each host stretch writing only its own results and each call
  only its output windows' arrays; for the reference by the fold of its 145 host operations.

  Value. At the extended reals a change of float format is the identity, a matrix product into a zero accumulator is
  the plain sum, and a sum's grouping does not matter, so every call's output array is one index-by-index function
  of its input arrays. The kernel's score scales the summed products by 1/4 where the reference divides each product
  by 4 before summing: the same extended real, a nonnegative real factor distributing over a sum. The kernel's row
  gathers fill a row whose index lies outside the table with a not-a-number pattern where the reference's indexing
  clamps; under the stated precondition that every edge index lies in [0, 100000) the fill never happens and the two
  gathers agree. Everything after the gathers is the same expression of the same operands on both sides. So from
  memories agreeing on the arguments both programs end with the same result array.

  The idealization pass rewrote no operation, so the kernel's idealization is its own text read at the extended reals
  and `preserves` states nothing.
-/
import proofs.«412595_j11476152615032_3_alg».proof.Defs
import proofs.«412595_j11476152615032_3_alg».proof.Proof.Gen.Kernel
import proofs.«412595_j11476152615032_3_alg».proof.Proof.Gen.KernelIdeal
import proofs.«412595_j11476152615032_3_alg».proof.Proof.Gen.ReferenceIdeal
import proofs.«412595_j11476152615032_3_alg».proof.Proof.Gen.Pre_finite_inputs
import proofs.«412595_j11476152615032_3_alg».proof.Proof.KB.Frame
import proofs.«412595_j11476152615032_3_alg».proof.Proof.KI.Frame
import proofs.«412595_j11476152615032_3_alg».proof.Proof.Val.Assemble
import proofs.«412595_j11476152615032_3_alg».proof.Proof.RefRun
import Idealize.ShloMosaic.Adequacy
import Idealize.ShloMosaic.Init

noncomputable section

namespace Cert.Proof

open Idealize.ShloMosaic Idealize.SL.Sem

/-- The word-level kernel's frame: the segments' run at the bit-exact instance. -/
theorem frame_k : Cert.frame_Kernel := fun m ρ _ => Cert.Kernel.Frm.frame (F := Bits) m ρ

/-- The idealized kernel's frame: the same run at the extended reals. -/
theorem frame_ki : Cert.frame_KernelIdeal := fun m ρ _ => Cert.KernelIdeal.Frm.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.RefLink.ref_run (F := Ideal) m ρ)

/-- The idealization pass rewrote nothing. -/
theorem preserves : Cert.preserves_Kernel_KernelIdeal := trivial

/-- From memories agreeing on the arguments, under the precondition, both programs end with the reference's last
    stage of the argument arrays in their result buffers. -/
theorem algebraic : Cert.algebraic_KernelIdeal_ReferenceIdeal := by
  intro m ρ m' ρ' hpre hagree
  refine ⟨fun c => Cert.ReferenceIdeal.Read.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Val.result_eq m c (Cert.KernelIdeal.Val.inRange_of_pre m hpre c)), (h c).2⟩)
      (Cert.KernelIdeal.Frm.run_main (F := Ideal) m ρ)
  · refine (θ_run Cert.ReferenceIdeal.defs _ _).mono (fun r h c => ⟨(h c).1.trans ?_, (h c).2⟩)
      (Cert.ReferenceIdeal.RefLink.ref_run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
